-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x64x128x128 : Shape := ⟨5, ![2, 16, 64, 128, 128]⟩
abbrev S2x64x128x128 : Shape := ⟨4, ![2, 64, 128, 128]⟩
abbrev S_ : Shape := ⟨0, ![]⟩

class Facts : Prop where
  bcast_S_S2x16x64x128x128 : S_.BroadcastsInDim S2x16x64x128x128 (![] : Fin 0 → Fin S2x16x64x128x128.rank)
  reducesTo_S2x16x64x128x128_S_d0_1_2_3_4 : S2x16x64x128x128.ReducesTo [0, 1, 2, 3, 4] S_
  h_S_ : 0 < S_.numel
  bcast_S_S2x64x128x128 : S_.BroadcastsInDim S2x64x128x128 (![] : Fin 0 → Fin S2x64x128x128.rank)
  reducesTo_S2x64x128x128_S_d0_1_2_3 : S2x64x128x128.ReducesTo [0, 1, 2, 3] S_

variable [Facts]

def fn {F : FTy → Type} [FloatOps F] (main_arg0 : FVec F S2x16x64x128x128 .f32) (main_arg1 : IVec S2x64x128x128 32) : IVec S_ 1 :=
  let main_v0 : FVec F S2x16x64x128x128 .f32 := Host.absf main_arg0
  let main_cst : FVec F S_ .f32 := constant S_ .f32 0x7F800000#32
  let main_v1 : FVec F S2x16x64x128x128 .f32 := broadcastInDim S2x16x64x128x128 ![] bcast_S_S2x16x64x128x128 main_cst
  let main_v2 : IVec S2x16x64x128x128 1 := cmpf .olt main_v0 main_v1
  let main_c : IVec S_ 1 := constantI S_ 1 1#1
  let main_v3 : IVec S_ 1 := (fun x v => Host.reduce IntOp.andi x v reducesTo_S2x16x64x128x128_S_d0_1_2_3_4 h_S_) main_v2 main_c
  let main_c_0 : IVec S_ 32 := constantI S_ 32 0#32
  let main_v4 : IVec S2x64x128x128 32 := broadcastInDim S2x64x128x128 ![] bcast_S_S2x64x128x128 main_c_0
  let main_v5 : IVec S2x64x128x128 1 := cmpi .sge main_arg1 main_v4
  let main_c_1 : IVec S_ 1 := constantI S_ 1 1#1
  let main_v6 : IVec S_ 1 := (fun x v => Host.reduce IntOp.andi x v reducesTo_S2x64x128x128_S_d0_1_2_3 h_S_) main_v5 main_c_1
  let main_v7 : IVec S_ 1 := andi main_v3 main_v6
  let main_c_2 : IVec S_ 32 := constantI S_ 32 16#32
  let main_v8 : IVec S2x64x128x128 32 := broadcastInDim S2x64x128x128 ![] bcast_S_S2x64x128x128 main_c_2
  let main_v9 : IVec S2x64x128x128 1 := cmpi .slt main_arg1 main_v8
  let main_c_3 : IVec S_ 1 := constantI S_ 1 1#1
  let main_v10 : IVec S_ 1 := (fun x v => Host.reduce IntOp.andi x v reducesTo_S2x64x128x128_S_d0_1_2_3 h_S_) main_v9 main_c_3
  let main_v11 : IVec S_ 1 := andi main_v7 main_v10
  main_v11
-- ==== Kernel.lean ====
abbrev S2x16x64x128x128 : Shape := ⟨5, ![2, 16, 64, 128, 128]⟩
abbrev S2x64x128x128 : Shape := ⟨4, ![2, 64, 128, 128]⟩
abbrev S2x16x1048576 : Shape := ⟨3, ![2, 16, 1048576]⟩
abbrev S2x1048576 : Shape := ⟨2, ![2, 1048576]⟩
abbrev S2x1x1048576 : Shape := ⟨3, ![2, 1, 1048576]⟩
abbrev S2x16x1 : Shape := ⟨3, ![2, 16, 1]⟩
abbrev S1x16x65536 : Shape := ⟨3, ![1, 16, 65536]⟩
abbrev S1x1x65536 : Shape := ⟨3, ![1, 1, 65536]⟩
abbrev S1x16x1 : Shape := ⟨3, ![1, 16, 1]⟩
abbrev S16x1 : Shape := ⟨2, ![16, 1]⟩
abbrev S1x16x1024 : Shape := ⟨3, ![1, 16, 1024]⟩
abbrev S16x1024 : Shape := ⟨2, ![16, 1024]⟩
abbrev S1x1x1024 : Shape := ⟨3, ![1, 1, 1024]⟩
abbrev S1024 : Shape := ⟨1, ![1024]⟩
abbrev S1x1024 : Shape := ⟨2, ![1, 1024]⟩
abbrev S16 : Shape := ⟨1, ![16]⟩
abbrev S2x16 : Shape := ⟨2, ![2, 16]⟩
abbrev S_ : Shape := ⟨0, ![]⟩
abbrev S1 : Shape := ⟨1, ![1]⟩
abbrev S1x16 : Shape := ⟨2, ![1, 16]⟩

abbrev nBuf : Space → Nat
  | .hbm => 37
  | .vmem => 13
  | .smem => 0
  | _ => 0

abbrev bufTy : (tb : Table) → Fin (tcTables nBuf tb) → BufTy
  | .hbm, ⟨0, _⟩ => ⟨S2x16x64x128x128, .f32⟩
  | .hbm, ⟨1, _⟩ => ⟨S2x64x128x128, .i32⟩
  | .hbm, ⟨2, _⟩ => ⟨S2x16x1048576, .f32⟩
  | .hbm, ⟨3, _⟩ => ⟨S2x1048576, .i32⟩
  | .hbm, ⟨4, _⟩ => ⟨S2x1x1048576, .i32⟩
  | .hbm, ⟨5, _⟩ => ⟨S2x16x1, .f32⟩
  | .hbm, ⟨6, _⟩ => ⟨S2x16x1, .f32⟩
  | .hbm, ⟨7, _⟩ => ⟨S2x16x1, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S2x16, .f32⟩
  | .hbm, ⟨12, _⟩ => ⟨S_, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S_, .f32⟩
  | .hbm, ⟨19, _⟩ => ⟨S2x16, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S16, .f32⟩
  | .hbm, ⟨24, _⟩ => ⟨S_, .i32⟩
  | .hbm, ⟨25, _⟩ => ⟨S1, .i32⟩
  | .hbm, ⟨26, _⟩ => ⟨S_, .f32⟩
  | .hbm, ⟨27, _⟩ => ⟨S16, .f32⟩
  | .hbm, ⟨28, _⟩ => ⟨S1x16, .f32⟩
  | .hbm, ⟨29, _⟩ => ⟨S2x16, .f32⟩
  | .hbm, ⟨30, _⟩ => ⟨S2x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x16x65536, .f32⟩
  | .local _ .vmem, ⟨1, _⟩ => ⟨S1x16x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x16x1, .f32⟩
  | .local _ .vmem, ⟨5, _⟩ => ⟨S1x16x1, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | _, _ => ⟨S2x16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c1024_i32 : BitVec 32 := 1024#32
  let v9 : BitVec 32 := Scalar.muli v8 c1024_i32
  v9
def k0_off1 (k0_t1 : Fin k0_t1_loop.trips) : Fin 3 → Nat :=
  let c0 : Index := 0#32
  let c0_6 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c1024_i32 : BitVec 32 := 1024#32
  let v9 : BitVec 32 := Scalar.muli v8 c1024_i32
  let v10 : BitVec 32 := v9
  let v11 : Index := Scalar.indexCast v10
  ![0, 0, v11.toNat]
def k0_off2 (k0_t1 : Fin k0_t1_loop.trips) : Fin 3 → Nat :=
  let c0_7 : Index := 0#32
  let c0_8 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c1024_i32 : BitVec 32 := 1024#32
  let v9 : BitVec 32 := Scalar.muli v8 c1024_i32
  let v10 : BitVec 32 := v9
  let v14 : Index := Scalar.indexCast v10
  ![0, 0, v14.toNat]
def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x16x64x128x128_S2x16x1048576 : S2x16x64x128x128.ShapeCasts S2x16x1048576
  shapeCasts_S2x64x128x128_S2x1048576 : S2x64x128x128.ShapeCasts S2x1048576
  shapeCasts_S2x1048576_S2x1x1048576 : S2x1048576.ShapeCasts S2x1x1048576
  inb_S16x1_S16x1_0_0 : ∀ a, (![0, 0] : Fin 2 → Nat) a + S16x1.size a ≤ S16x1.size a
  h_S16x1 : 0 < S16x1.numel
  shapeCasts_S16x1_S16x1 : S16x1.ShapeCasts S16x1
  h_S1x16x1024 : 0 < S1x16x1024.numel
  shapeCasts_S1x16x1024_S16x1024 : S1x16x1024.ShapeCasts S16x1024
  h_S1x1x1024 : 0 < S1x1x1024.numel
  shapeCasts_S1x1x1024_S1024 : S1x1x1024.ShapeCasts S1024
  reduces_S16x1024_S1024 : S16x1024.Reduces [0] S1024
  shapeCasts_S1024_S1x1024 : S1024.ShapeCasts S1x1024
  broadcasts_S1x1024_S16x1024 : S1x1024.Broadcasts S16x1024
  iota_S16x1024_d0_w32 : S16x1024.Iotas .tc 32 [0]
  natLt_1_32 : 1 < 32
  reduces_S16x1024_S16 : S16x1024.Reduces [1] S16
  shapeCasts_S16_S16x1 : S16.ShapeCasts S16x1
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  shapeCasts_S2x16x1_S2x16 : S2x16x1.ShapeCasts S2x16
  bcast_S_S2x16 : S_.BroadcastsInDim S2x16 (![] : Fin 0 → Fin S2x16.rank)
  bcast_S_S16 : S_.BroadcastsInDim S16 (![] : Fin 0 → Fin S16.rank)
  bcast_S_S1 : S_.BroadcastsInDim S1 (![] : Fin 0 → Fin S1.rank)
  bcast_S16_S1x16_1 : S16.BroadcastsInDim S1x16 (![1] : Fin 1 → Fin S1x16.rank)
  bcast_S1x16_S2x16_0_1 : S1x16.BroadcastsInDim S2x16 (![0, 1] : Fin 2 → Fin S2x16.rank)
  reducesTo_S2x16_S_d0_1 : S2x16.ReducesTo [0, 1] S_
  h_S_ : 0 < S_.numel
  scatter_S16_S1_S__n_0_0_0_wf : ScatterDims.WF S16 S1 S_ [] [0] [0] 0
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x16x1024.size a ≤ S1x16x65536.size a
  k0_off2_inb : ∀ k0_t1 : Fin k0_t1_loop.trips, ∀ a, (k0_off2 k0_t1) a + S1x1x1024.size a ≤ S1x1x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65536.size a ≤ S2x16x1048576.size a
  hwx0_0 : ∀ i : grid0.Coords, EltTy.bits .f32 = 32 ∨ (Rect.block (s := S2x16x1048576) S1x16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S2x1x1048576.size a
  hwx0_1 : ∀ i : grid0.Coords, EltTy.bits .i32 = 32 ∨ (Rect.block (s := S2x1x1048576) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S2x16x1.size a
  hwx0_2 : ∀ i : grid0.Coords, EltTy.bits .f32 = 32 ∨ (Rect.block (s := S2x16x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S2x16x1.size a
  hwx0_3 : ∀ i : grid0.Coords, EltTy.bits .f32 = 32 ∨ (Rect.block (s := S2x16x1) S1x16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S2x16x1.size a
  hwx0_4 : ∀ i : grid0.Coords, EltTy.bits .f32 = 32 ∨ (Rect.block (s := S2x16x1) S1x16x1.size (cc0_transform_4 i) (hinb0_4 i)).WholeWords (EltTy.packing .f32)

variable [Facts₀]

def scatter_S16_S1_S__n_0_0_0 : ScatterDims S16 S1 S_ where
  updateWindowDims := []
  insertedWindowDims := [0]
  scatterDimsToOperandDims := [0]
  indexVectorDim := 0
  wf := scatter_S16_S1_S__n_0_0_0_wf

abbrev win0_0 : Pipeline.Window sig grid0 :=
  Pipeline.Window.ofSpec (Memref.whole main_v0) S1x16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x16x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16x64x128x128 : Shape := ⟨5, ![2, 16, 64, 128, 128]⟩
abbrev S2x64x128x128 : Shape := ⟨4, ![2, 64, 128, 128]⟩
abbrev S_ : Shape := ⟨0, ![]⟩
abbrev S2x1x64x128x128 : Shape := ⟨5, ![2, 1, 64, 128, 128]⟩
abbrev S1x64x128x128 : Shape := ⟨4, ![1, 64, 128, 128]⟩
abbrev S64x128x128 : Shape := ⟨3, ![64, 128, 128]⟩
abbrev S2x16x1048576 : Shape := ⟨3, ![2, 16, 1048576]⟩
abbrev S2x1048576 : Shape := ⟨2, ![2, 1048576]⟩
abbrev S2x1x1048576 : Shape := ⟨3, ![2, 1, 1048576]⟩
abbrev S2x1x1048576x1 : Shape := ⟨4, ![2, 1, 1048576, 1]⟩
abbrev S1 : Shape := ⟨1, ![1]⟩
abbrev S1x1x1x1 : Shape := ⟨4, ![1, 1, 1, 1]⟩
abbrev S2 : Shape := ⟨1, ![2]⟩
abbrev S2x1 : Shape := ⟨2, ![2, 1]⟩
abbrev S2097152 : Shape := ⟨1, ![2097152]⟩
abbrev S32 : Shape := ⟨1, ![32]⟩
abbrev S2097152x1 : Shape := ⟨2, ![2097152, 1]⟩
abbrev S2x16 : Shape := ⟨2, ![2, 16]⟩
abbrev S16 : Shape := ⟨1, ![16]⟩
abbrev S1x16 : Shape := ⟨2, ![1, 16]⟩

abbrev nBuf : Space → Nat
  | .hbm => 93
  | .vmem => 0
  | .smem => 0
  | _ => 0

abbrev bufTy : (tb : Table) → Fin (tcTables nBuf tb) → BufTy
  | .hbm, ⟨0, _⟩ => ⟨S2x16x64x128x128, .f32⟩
  | .hbm, ⟨1, _⟩ => ⟨S2x64x128x128, .i32⟩
  | .hbm, ⟨2, _⟩ => ⟨S_, .f32⟩
  | .hbm, ⟨3, _⟩ => ⟨S2x64x128x128, .f32⟩
  | .hbm, ⟨4, _⟩ => ⟨S_, .f32⟩
  | .hbm, ⟨5, _⟩ => ⟨S2x64x128x128, .f32⟩
  | .hbm, ⟨6, _⟩ => ⟨S2x64x128x128, .f32⟩
  | .hbm, ⟨7, _⟩ => ⟨S2x1x64x128x128, .f32⟩
  | .hbm, ⟨8, _⟩ => ⟨S2x16x64x128x128, .f32⟩
  | .hbm, ⟨9, _⟩ => ⟨S2x16x64x128x128, .f32⟩
  | .hbm, ⟨10, _⟩ => ⟨S2x16x64x128x128, .f32⟩
  | .hbm, ⟨11, _⟩ => ⟨S_, .f32⟩
  | .hbm, ⟨12, _⟩ => ⟨S2x64x128x128, .f32⟩
  | .hbm, ⟨13, _⟩ => ⟨S2x1x64x128x128, .f32⟩
  | .hbm, ⟨14, _⟩ => ⟨S2x16x64x128x128, .f32⟩
  | .hbm, ⟨15, _⟩ => ⟨S2x16x64x128x128, .f32⟩
  | .hbm, ⟨16, _⟩ => ⟨S1x64x128x128, .i32⟩
  | .hbm, ⟨17, _⟩ => ⟨S64x128x128, .i32⟩
  | .hbm, ⟨18, _⟩ => ⟨S2x16x1048576, .f32⟩
  | .hbm, ⟨19, _⟩ => ⟨S2x1048576, .i32⟩
  | .hbm, ⟨20, _⟩ => ⟨S2x1x1048576, .i32⟩
  | .hbm, ⟨21, _⟩ => ⟨S_, .i32⟩
  | .hbm, ⟨22, _⟩ => ⟨S2x1x1048576, .i32⟩
  | .hbm, ⟨23, _⟩ => ⟨S2x1x1048576, .i1⟩
  | .hbm, ⟨24, _⟩ => ⟨S_, .i32⟩
  | .hbm, ⟨25, _⟩ => ⟨S2x1x1048576, .i32⟩
  | .hbm, ⟨26, _⟩ => ⟨S2x1x1048576, .i32⟩
  | .hbm, ⟨27, _⟩ => ⟨S2x1x1048576, .i32⟩
  | .hbm, ⟨28, _⟩ => ⟨S2x1x1048576x1, .i32⟩
  | .hbm, ⟨29, _⟩ => ⟨S1, .i32⟩
  | .hbm, ⟨30, _⟩ => ⟨S_, .i32⟩
  | .hbm, ⟨31, _⟩ => ⟨S2x1x1048576x1, .i32⟩
  | .hbm, ⟨32, _⟩ => ⟨S2x1x1048576x1, .i1⟩
  | .hbm, ⟨33, _⟩ => ⟨S1x1x1x1, .i32⟩
  | .hbm, ⟨34, _⟩ => ⟨S2x1x1048576x1, .i32⟩
  | .hbm, ⟨35, _⟩ => ⟨S2x1x1048576x1, .i1⟩
  | .hbm, ⟨36, _⟩ => ⟨S2x1x1048576x1, .i1⟩
  | .hbm, ⟨37, _⟩ => ⟨S_, .i1⟩
  | .hbm, ⟨38, _⟩ => ⟨S2x1x1048576, .i1⟩
  | .hbm, ⟨39, _⟩ => ⟨S2x1x1048576, .f32⟩
  | .hbm, ⟨40, _⟩ => ⟨S_, .f32⟩
  | .hbm, ⟨41, _⟩ => ⟨S2x1x1048576, .f32⟩
  | .hbm, ⟨42, _⟩ => ⟨S2x1x1048576, .f32⟩
  | .hbm, ⟨43, _⟩ => ⟨S2x1048576, .f32⟩
  | .hbm, ⟨44, _⟩ => ⟨S2, .i32⟩
  | .hbm, ⟨45, _⟩ => ⟨S2x1, .i32⟩
  | .hbm, ⟨46, _⟩ => ⟨S_, .i32⟩
  | .hbm, ⟨47, _⟩ => ⟨S2x1, .i32⟩
  | .hbm, ⟨48, _⟩ => ⟨S2x1, .i32⟩
  | .hbm, ⟨49, _⟩ => ⟨S2x1048576, .i32⟩
  | .hbm, ⟨50, _⟩ => ⟨S2x1048576, .i32⟩
  | .hbm, ⟨51, _⟩ => ⟨S2097152, .i32⟩
  | .hbm, ⟨52, _⟩ => ⟨S2097152, .f32⟩
  | .hbm, ⟨53, _⟩ => ⟨S_, .f32⟩
  | .hbm, ⟨54, _⟩ => ⟨S32, .f32⟩
  | .hbm, ⟨55, _⟩ => ⟨S2097152x1, .i32⟩
  | .hbm, ⟨56, _⟩ => ⟨S32, .f32⟩
  | .hbm, ⟨57, _⟩ => ⟨S2x16, .f32⟩
  | .hbm, ⟨58, _⟩ => ⟨S_, .f32⟩
  | .hbm, ⟨59, _⟩ => ⟨S2x16, .f32⟩
  | .hbm, ⟨60, _⟩ => ⟨S_, .f32⟩
  | .hbm, ⟨61, _⟩ => ⟨S2097152, .f32⟩
  | .hbm, ⟨62, _⟩ => ⟨S_, .f32⟩
  | .hbm, ⟨63, _⟩ => ⟨S32, .f32⟩
  | .hbm, ⟨64, _⟩ => ⟨S2097152x1, .i32⟩
  | .hbm, ⟨65, _⟩ => ⟨S32, .f32⟩
  | .hbm, ⟨66, _⟩ => ⟨S2x16, .f32⟩
  | .hbm, ⟨67, _⟩ => ⟨S2x16, .f32⟩
  | .hbm, ⟨68, _⟩ => ⟨S_, .f32⟩
  | .hbm, ⟨69, _⟩ => ⟨S2x16, .f32⟩
  | .hbm, ⟨70, _⟩ => ⟨S2x16, .f32⟩
  | .hbm, ⟨71, _⟩ => ⟨S_, .f32⟩
  | .hbm, ⟨72, _⟩ => ⟨S2x16, .f32⟩
  | .hbm, ⟨73, _⟩ => ⟨S2x16, .f32⟩
  | .hbm, ⟨74, _⟩ => ⟨S_, .f32⟩
  | .hbm, ⟨75, _⟩ => ⟨S2x16, .f32⟩
  | .hbm, ⟨76, _⟩ => ⟨S2x16, .f32⟩
  | .hbm, ⟨77, _⟩ => ⟨S2x16, .f32⟩
  | .hbm, ⟨78, _⟩ => ⟨S_, .f32⟩
  | .hbm, ⟨79, _⟩ => ⟨S16, .f32⟩
  | .hbm, ⟨80, _⟩ => ⟨S_, .i32⟩
  | .hbm, ⟨81, _⟩ => ⟨S1, .i32⟩
  | .hbm, ⟨82, _⟩ => ⟨S_, .f32⟩
  | .hbm, ⟨83, _⟩ => ⟨S16, .f32⟩
  | .hbm, ⟨84, _⟩ => ⟨S1x16, .f32⟩
  | .hbm, ⟨85, _⟩ => ⟨S2x16, .f32⟩
  | .hbm, ⟨86, _⟩ => ⟨S2x16, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S2x16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_c_10 : Ref sig .tc := ⟨.hbm, 80, rfl⟩
abbrev main_v45 : Ref sig .tc := ⟨.hbm, 81, rfl⟩
abbrev main_cst_11 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_12 : Ref sig .tc := ⟨.hbm, 87, rfl⟩
abbrev main_v50 : Ref sig .tc := ⟨.hbm, 88, rfl⟩
abbrev main_cst_13 : Ref sig .tc := ⟨.hbm, 89, rfl⟩
abbrev main_v51 : Ref sig .tc := ⟨.hbm, 90, rfl⟩
abbrev main_cst_14 : Ref sig .tc := ⟨.hbm, 91, rfl⟩
abbrev main_v52 : Ref sig .tc := ⟨.hbm, 92, rfl⟩

abbrev nD : Nat := 1
abbrev τ : Topo := Topo.v7x

variable {F : FTy → Type} [FloatOps F]

class Facts₀ : Prop where
  reducesTo_S2x16x64x128x128_S2x64x128x128_d1 : S2x16x64x128x128.ReducesTo [1] S2x64x128x128
  h_S_ : 0 < S_.numel
  bcast_S_S2x64x128x128 : S_.BroadcastsInDim S2x64x128x128 (![] : Fin 0 → Fin S2x64x128x128.rank)
  bcast_S2x64x128x128_S2x1x64x128x128_0_2_3_4 : S2x64x128x128.BroadcastsInDim S2x1x64x128x128 (![0, 2, 3, 4] : Fin 4 → Fin S2x1x64x128x128.rank)
  bcast_S2x1x64x128x128_S2x16x64x128x128_0_1_2_3_4 : S2x1x64x128x128.BroadcastsInDim S2x16x64x128x128 (![0, 1, 2, 3, 4] : Fin 5 → Fin S2x16x64x128x128.rank)
  slices_S2x64x128x128_S1x64x128x128_0_0_0_0 : S2x64x128x128.Slices ![0, 0, 0, 0] S1x64x128x128
  shapeCasts_S1x64x128x128_S64x128x128 : S1x64x128x128.ShapeCasts S64x128x128
  shapeCasts_S2x16x64x128x128_S2x16x1048576 : S2x16x64x128x128.ShapeCasts S2x16x1048576
  shapeCasts_S2x64x128x128_S2x1048576 : S2x64x128x128.ShapeCasts S2x1048576
  bcast_S2x1048576_S2x1x1048576_0_2 : S2x1048576.BroadcastsInDim S2x1x1048576 (![0, 2] : Fin 2 → Fin S2x1x1048576.rank)
  bcast_S_S2x1x1048576 : S_.BroadcastsInDim S2x1x1048576 (![] : Fin 0 → Fin S2x1x1048576.rank)
  shapeCasts_S2x1x1048576_S2x1x1048576x1 : S2x1x1048576.ShapeCasts S2x1x1048576x1
  bcast_S_S2x1x1048576x1 : S_.BroadcastsInDim S2x1x1048576x1 (![] : Fin 0 → Fin S2x1x1048576x1.rank)
  bcast_S1_S1x1x1x1_3 : S1.BroadcastsInDim S1x1x1x1 (![3] : Fin 1 → Fin S1x1x1x1.rank)
  bcast_S1x1x1x1_S2x1x1048576x1_0_1_2_3 : S1x1x1x1.BroadcastsInDim S2x1x1048576x1 (![0, 1, 2, 3] : Fin 4 → Fin S2x1x1048576x1.rank)
  reducesTo_S2x1x1048576x1_S2x1x1048576_d3 : S2x1x1048576x1.ReducesTo [3] S2x1x1048576
  shapeCasts_S2x1x1048576_S2x1048576 : S2x1x1048576.ShapeCasts S2x1048576
  bcast_S2_S2x1_0 : S2.BroadcastsInDim S2x1 (![0] : Fin 1 → Fin S2x1.rank)
  bcast_S_S2x1 : S_.BroadcastsInDim S2x1 (![] : Fin 0 → Fin S2x1.rank)
  bcast_S2x1_S2x1048576_0_1 : S2x1.BroadcastsInDim S2x1048576 (![0, 1] : Fin 2 → Fin S2x1048576.rank)
  shapeCasts_S2x1048576_S2097152 : S2x1048576.ShapeCasts S2097152
  bcast_S_S32 : S_.BroadcastsInDim S32 (![] : Fin 0 → Fin S32.rank)
  bcast_S2097152_S2097152x1_0 : S2097152.BroadcastsInDim S2097152x1 (![0] : Fin 1 → Fin S2097152x1.rank)
  shapeCasts_S32_S2x16 : S32.ShapeCasts S2x16
  reducesTo_S2x16x1048576_S2x16_d2 : S2x16x1048576.ReducesTo [2] S2x16
  bcast_S_S2097152 : S_.BroadcastsInDim S2097152 (![] : Fin 0 → Fin S2097152.rank)
  bcast_S_S2x16 : S_.BroadcastsInDim S2x16 (![] : Fin 0 → Fin S2x16.rank)
  bcast_S_S16 : S_.BroadcastsInDim S16 (![] : Fin 0 → Fin S16.rank)
  bcast_S_S1 : S_.BroadcastsInDim S1 (![] : Fin 0 → Fin S1.rank)
  bcast_S16_S1x16_1 : S16.BroadcastsInDim S1x16 (![1] : Fin 1 → Fin S1x16.rank)
  bcast_S1x16_S2x16_0_1 : S1x16.BroadcastsInDim S2x16 (![0, 1] : Fin 2 → Fin S2x16.rank)
  reducesTo_S2x16_S_d0_1 : S2x16.ReducesTo [0, 1] S_
  gather_S2x16x1048576_S2x1x1048576x1_S2x1x1048576_n_1_02_02_1_3_111_wf : GatherDims.WF S2x16x1048576 S2x1x1048576x1 S2x1x1048576 [] [1] [0, 2] [1] [0, 2] 3 ![1, 1, 1]
  scatter_S32_S2097152x1_S2097152_n_0_0_1_wf : ScatterDims.WF S32 S2097152x1 S2097152 [] [0] [0] 1
  scatter_S16_S1_S__n_0_0_0_wf : ScatterDims.WF S16 S1 S_ [] [0] [0] 0

variable [Facts₀]

def gather_S2x16x1048576_S2x1x1048576x1_S2x1x1048576_n_1_02_02_1_3_111 : GatherDims S2x16x1048576 S2x1x1048576x1 S2x1x1048576 where
  offsetDims := []
  collapsedSliceDims := [1]
  operandBatchingDims := [0, 2]
  startIndicesBatchingDims := [0, 2]
  startIndexMap := [1]
  indexVectorDim := 3
  sliceSizes := ![1, 1, 1]
  wf := gather_S2x16x1048576_S2x1x1048576x1_S2x1x1048576_n_1_02_02_1_3_111_wf
def scatter_S32_S2097152x1_S2097152_n_0_0_1 : ScatterDims S32 S2097152x1 S2097152 where
  updateWindowDims := []
  insertedWindowDims := [0]
  scatterDimsToOperandDims := [0]
  indexVectorDim := 1
  wf := scatter_S32_S2097152x1_S2097152_n_0_0_1_wf
def scatter_S16_S1_S__n_0_0_0 : ScatterDims S16 S1 S_ where
  updateWindowDims := []
  insertedWindowDims := [0]
  scatterDimsToOperandDims := [0]
  indexVectorDim := 0
  wf := scatter_S16_S1_S__n_0_0_0_wf

class Facts : Prop extends Facts₀ where

variable [Facts]
-- ==== Proof.PreRange.lean ====
/-
  What the precondition says about the labels: the three tests it conjoins are "every logit is finite", "every label
  is at least 0" and "every label is below 16" (signed comparisons of 32-bit words); from the last two every label is
  the word of one of the sixteen classes.
-/
import proofs.«431347_j9182640079166_2_alg».proof.Pre_finite_inputs
import proofs.«431347_j9182640079166_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Dice

open Idealize.ShloMosaic Idealize.ShloMosaic.ValueIdx

/-- The result shape has rank 0, hence a single index. -/
private instance : Subsingleton Cert.Pre_finite_inputs.S_.Idx := ⟨fun a b => funext fun d => d.elim0⟩

/-- A 32-bit word whose signed reading lies in `[0, 16)` is the word of a natural number below sixteen. -/
private theorem word_of_signed_range (w : BitVec 32) (h₀ : 0 ≤ w.toInt) (h₁ : w.toInt < 16) :
    ∃ q : Fin 16, w = BitVec.ofNat 32 q.val := by
  have hc := BitVec.toInt_eq_toNat_cond w
  have hw := w.isLt
  have hn : w.toNat < 16 := by split at hc <;> omega
  refine ⟨⟨w.toNat, hn⟩, BitVec.eq_of_toNat_eq ?_⟩
  rw [BitVec.toNat_ofNat]
  exact (Nat.mod_eq_of_lt hw).symm

/-- Under the precondition every label is the 32-bit word of a class number below sixteen. -/
theorem label_is_class (x : FVec Ideal Cert.Pre_finite_inputs.S2x16x64x128x128 .f32)
    (t : IVec Cert.Pre_finite_inputs.S2x64x128x128 32)
    (h : Cert.Pre_finite_inputs.fn (F := Ideal) x t = fun _ => 1#1)
    (i : Cert.Pre_finite_inputs.S2x64x128x128.Idx) :
    ∃ q : Fin 16, t i = BitVec.ofNat 32 q.val := by
  -- the precondition's one result word, as the conjunction of its three tests
  have h0 := congrFun h ValueIdx.ix0
  dsimp only [Cert.Pre_finite_inputs.fn] at h0
  obtain ⟨h7, h10⟩ := IntOp.andi_eq_one.1 h0
  obtain ⟨_, h6⟩ := IntOp.andi_eq_one.1 h7
  -- each "for all labels" test, read at the label `i`
  have ge := Host.reduce_andi_all _ _ _ _ _ h6 i
  have lt := Host.reduce_andi_all _ _ _ _ _ h10 i
  -- the two signed comparisons against the broadcast constants 0 and 16
  have ge' := IntOp.cmpi_sge.1 ge
  have lt' := IntOp.cmpi_slt.1 lt
  rw [StableHlo.Predicate.bcast_scalar _ Cert.Pre_finite_inputs.Facts.h_S_] at ge' lt'
  -- a constant array reads its word at every index
  change (0#32 : BitVec 32).toInt ≤ (t i).toInt at ge'
  change (t i).toInt < (16#32 : BitVec 32).toInt at lt'
  rw [show (0#32 : BitVec 32).toInt = 0 from by decide] at ge'
  rw [show (16#32 : BitVec 32).toInt = 16 from by decide] at lt'
  exact word_of_signed_range (t i) ge' lt'

end Cert.Dice

end
-- ==== Proof.RefRun.lean ====
/-
  The reference's run, with its result named by stages. Every weakly fair execution of the reference ends with each
  buffer at the fold of its ninety-one host operations over the launch contents; this module reads that fold at the
  result buffer as the last of the stage functions (each operation's value as a function of the two arguments), going
  through the operations in short stretches: within a stretch each operation's result is rewritten once, and between
  stretches only the few buffers later operations still read are carried, by name, so that no intermediate result is
  ever written out more than once.
-/
import proofs.«431347_j9182640079166_2_alg».proof.Proof.RefOps
import proofs.«431347_j9182640079166_2_alg».proof.Proof.RefRead
import Idealize.ShloMosaic.Lib.StableHlo.Run

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a concatenation is the fold over the second list from the fold over the first. -/
private theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The operation list in stretches -/

/-- Operations 1–14: the softmax of the logits over the class axis. -/
private def s1 : List (HloOp τ sig (Elt F)) :=
  [ nullary main_cst (constant S_ .f32 0xFF800000#32),
    binary main_arg0 main_cst main_v0 ((fun x v => Host.reduce FloatOps.maximumf x v reducesTo_S2x16x64x128x128_S2x64x128x128_d1 h_S_) : (⟨S2x16x64x128x128, .f32⟩ : BufTy).Contents (Elt F) → (⟨S_, .f32⟩ : BufTy).Contents (Elt F) → (⟨S2x64x128x128, .f32⟩ : BufTy).Contents (Elt F)),
    nullary main_cst_0 (constant S_ .f32 0xFF800000#32),
    unary main_cst_0 main_v1 (broadcastInDim S2x64x128x128 ![] bcast_S_S2x64x128x128 : (⟨S_, .f32⟩ : BufTy).Contents (Elt F) → (⟨S2x64x128x128, .f32⟩ : BufTy).Contents (Elt F)),
    binary main_v1 main_v0 main_v2 (maximumf : (⟨S2x64x128x128, .f32⟩ : BufTy).Contents (Elt F) → (⟨S2x64x128x128, .f32⟩ : BufTy).Contents (Elt F) → (⟨S2x64x128x128, .f32⟩ : BufTy).Contents (Elt F)),
    unary main_v2 main_v3 (broadcastInDim S2x1x64x128x128 ![0, 2, 3, 4] bcast_S2x64x128x128_S2x1x64x128x128_0_2_3_4 : (⟨S2x64x128x128, .f32⟩ : BufTy).Contents (Elt F) → (⟨S2x1x64x128x128, .f32⟩ : BufTy).Contents (Elt F)),
    unary main_v3 main_v4 (broadcastInDim S2x16x64x128x128 ![0, 1, 2, 3, 4] bcast_S2x1x64x128x128_S2x16x64x128x128_0_1_2_3_4 : (⟨S2x1x64x128x128, .f32⟩ : BufTy).Contents (Elt F) → (⟨S2x16x64x128x128, .f32⟩ : BufTy).Contents (Elt F)),
    binary main_arg0 main_v4 main_v5 (subf : (⟨S2x16x64x128x128, .f32⟩ : BufTy).Contents (Elt F) → (⟨S2x16x64x128x128, .f32⟩ : BufTy).Contents (Elt F) → (⟨S2x16x64x128x128, .f32⟩ : BufTy).Contents (Elt F)),
    unary main_v5 main_v6 (Host.exp : (⟨S2x16x64x128x128, .f32⟩ : BufTy).Contents (Elt F) → (⟨S2x16x64x128x128, .f32⟩ : BufTy).Contents (Elt F)),
    nullary main_cst_1 (constant S_ .f32 0x00000000#32),
    binary main_v6 main_cst_1 main_v7 ((fun x v => Host.reduceAdd x v reducesTo_S2x16x64x128x128_S2x64x128x128_d1 h_S_) : (⟨S2x16x64x128x128, .f32⟩ : BufTy).Contents (Elt F) → (⟨S_, .f32⟩ : BufTy).Contents (Elt F) → (⟨S2x64x128x128, .f32⟩ : BufTy).Contents (Elt F)),
    unary main_v7 main_v8 (broadcastInDim S2x1x64x128x128 ![0, 2, 3, 4] bcast_S2x64x128x128_S2x1x64x128x128_0_2_3_4 : (⟨S2x64x128x128, .f32⟩ : BufTy).Contents (Elt F) → (⟨S2x1x64x128x128, .f32⟩ : BufTy).Contents (Elt F)),
    unary main_v8 main_v9 (broadcastInDim S2x16x64x128x128 ![0, 1, 2, 3, 4] bcast_S2x1x64x128x128_S2x16x64x128x128_0_1_2_3_4 : (⟨S2x1x64x128x128, .f32⟩ : BufTy).Contents (Elt F) → (⟨S2x16x64x128x128, .f32⟩ : BufTy).Contents (Elt F)),
    binary main_v6 main_v9 main_v10 (Host.divf : (⟨S2x16x64x128x128, .f32⟩ : BufTy).Contents (Elt F) → (⟨S2x16x64x128x128, .f32⟩ : BufTy).Contents (Elt F) → (⟨S2x16x64x128x128, .f32⟩ : BufTy).Contents (Elt F)) ]

/-- Operations 15–19: the two inputs with their spatial axes merged. -/
private def s2 : List (HloOp τ sig (Elt F)) :=
  [ unary main_arg1 main_v11 ((extractStridedSlice S1x64x128x128 ![0, 0, 0, 0] · slices_S2x64x128x128_S1x64x128x128_0_0_0_0) : (⟨S2x64x128x128, .i32⟩ : BufTy).Contents (Elt F) → (⟨S1x64x128x128, .i32⟩ : BufTy).Contents (Elt F)),
    reshape main_v11 main_v12 rfl shapeCasts_S1x64x128x128_S64x128x128,
    reshape main_v10 main_v13 rfl shapeCasts_S2x16x64x128x128_S2x16x1048576,
    reshape main_arg1 main_v14 rfl shapeCasts_S2x64x128x128_S2x1048576,
    unary main_v14 main_v15 (broadcastInDim S2x1x1048576 ![0, 2] bcast_S2x1048576_S2x1x1048576_0_2 : (⟨S2x1048576, .i32⟩ : BufTy).Contents (Elt F) → (⟨S2x1x1048576, .i32⟩ : BufTy).Contents (Elt F)) ]

/-- Operations 20–27: the labels as gather indices (a negative label wrapped by the class count). -/
private def s3 : List (HloOp τ sig (Elt F)) :=
  [ nullary main_call0_c (constantI S_ 32 0#32),
    unary main_call0_c main_call0_v0 (broadcastInDim S2x1x1048576 ![] bcast_S_S2x1x1048576 : (⟨S_, .i32⟩ : BufTy).Contents (Elt F) → (⟨S2x1x1048576, .i32⟩ : BufTy).Contents (Elt F)),
    binary main_v15 main_call0_v0 main_call0_v1 (cmpi .slt : (⟨S2x1x1048576, .i32⟩ : BufTy).Contents (Elt F) → (⟨S2x1x1048576, .i32⟩ : BufTy).Contents (Elt F) → (⟨S2x1x1048576, .i1⟩ : BufTy).Contents (Elt F)),
    nullary main_call0_c_0 (constantI S_ 32 16#32),
    unary main_call0_c_0 main_call0_v2 (broadcastInDim S2x1x1048576 ![] bcast_S_S2x1x1048576 : (⟨S_, .i32⟩ : BufTy).Contents (Elt F) → (⟨S2x1x1048576, .i32⟩ : BufTy).Contents (Elt F)),
    binary main_v15 main_call0_v2 main_call0_v3 (addi : (⟨S2x1x1048576, .i32⟩ : BufTy).Contents (Elt F) → (⟨S2x1x1048576, .i32⟩ : BufTy).Contents (Elt F) → (⟨S2x1x1048576, .i32⟩ : BufTy).Contents (Elt F)),
    ternary main_call0_v1 main_call0_v3 main_v15 main_call0_v4 (select : (⟨S2x1x1048576, .i1⟩ : BufTy).Contents (Elt F) → (⟨S2x1x1048576, .i32⟩ : BufTy).Contents (Elt F) → (⟨S2x1x1048576, .i32⟩ : BufTy).Contents (Elt F) → (⟨S2x1x1048576, .i32⟩ : BufTy).Contents (Elt F)),
    reshape main_call0_v4 main_call0_v5 rfl shapeCasts_S2x1x1048576_S2x1x1048576x1 ]

/-- Operations 28–36: index by index, whether it lies in the class range. -/
private def s4 : List (HloOp τ sig (Elt F)) :=
  [ nullary main_call0_c_1 (constantI S1 32 15#32),
    nullary main_call0_c_2 (constantI S_ 32 0#32),
    unary main_call0_c_2 main_call0_v6 (broadcastInDim S2x1x1048576x1 ![] bcast_S_S2x1x1048576x1 : (⟨S_, .i32⟩ : BufTy).Contents (Elt F) → (⟨S2x1x1048576x1, .i32⟩ : BufTy).Contents (Elt F)),
    binary main_call0_v5 main_call0_v6 main_call0_v7 (cmpi .sge : (⟨S2x1x1048576x1, .i32⟩ : BufTy).Contents (Elt F) → (⟨S2x1x1048576x1, .i32⟩ : BufTy).Contents (Elt F) → (⟨S2x1x1048576x1, .i1⟩ : BufTy).Contents (Elt F)),
    unary main_call0_c_1 main_call0_v8 (broadcastInDim S1x1x1x1 ![3] bcast_S1_S1x1x1x1_3 : (⟨S1, .i32⟩ : BufTy).Contents (Elt F) → (⟨S1x1x1x1, .i32⟩ : BufTy).Contents (Elt F)),
    unary main_call0_v8 main_call0_v9 (broadcastInDim S2x1x1048576x1 ![0, 1, 2, 3] bcast_S1x1x1x1_S2x1x1048576x1_0_1_2_3 : (⟨S1x1x1x1, .i32⟩ : BufTy).Contents (Elt F) → (⟨S2x1x1048576x1, .i32⟩ : BufTy).Contents (Elt F)),
    binary main_call0_v5 main_call0_v9 main_call0_v10 (cmpi .sle : (⟨S2x1x1048576x1, .i32⟩ : BufTy).Contents (Elt F) → (⟨S2x1x1048576x1, .i32⟩ : BufTy).Contents (Elt F) → (⟨S2x1x1048576x1, .i1⟩ : BufTy).Contents (Elt F)),
    binary main_call0_v7 main_call0_v10 main_call0_v11 (andi : (⟨S2x1x1048576x1, .i1⟩ : BufTy).Contents (Elt F) → (⟨S2x1x1048576x1, .i1⟩ : BufTy).Contents (Elt F) → (⟨S2x1x1048576x1, .i1⟩ : BufTy).Contents (Elt F)),
    nullary main_call0_c_3 (constantI S_ 1 1#1) ]

/-- Operation 37: a voxel's index is in range when all its components are (in the typed spelling it has in the operation list). -/
private def s5 : List (HloOp τ sig (Elt F)) :=
  [ TRef.binary (TRef.of (T := ⟨S2x1x1048576x1, .i1⟩) main_call0_v11) (TRef.of (T := ⟨S_, .i1⟩) main_call0_c_3) (TRef.of (T := ⟨S2x1x1048576, .i1⟩) main_call0_v12) (fun x v => Host.reduce IntOp.andi x v reducesTo_S2x1x1048576x1_S2x1x1048576_d3 h_S_) ]

/-- Operations 38–41: the probability of each voxel's own label (a junk value where the label is out of range). -/
private def s6 : List (HloOp τ sig (Elt F)) :=
  [ binary main_v13 main_call0_v5 main_call0_v13 ((fun x i => Host.gather gather_S2x16x1048576_S2x1x1048576x1_S2x1x1048576_n_1_02_02_1_3_111 x i) : (⟨S2x16x1048576, .f32⟩ : BufTy).Contents (Elt F) → (⟨S2x1x1048576x1, .i32⟩ : BufTy).Contents (Elt F) → (⟨S2x1x1048576, .f32⟩ : BufTy).Contents (Elt F)),
    nullary main_call0_cst (constant S_ .f32 0x7FC00000#32),
    unary main_call0_cst main_call0_v14 (broadcastInDim S2x1x1048576 ![] bcast_S_S2x1x1048576 : (⟨S_, .f32⟩ : BufTy).Contents (Elt F) → (⟨S2x1x1048576, .f32⟩ : BufTy).Contents (Elt F)),
    ternary main_call0_v12 main_call0_v13 main_call0_v14 main_v16 (select : (⟨S2x1x1048576, .i1⟩ : BufTy).Contents (Elt F) → (⟨S2x1x1048576, .f32⟩ : BufTy).Contents (Elt F) → (⟨S2x1x1048576, .f32⟩ : BufTy).Contents (Elt F) → (⟨S2x1x1048576, .f32⟩ : BufTy).Contents (Elt F)) ]

/-- Operations 42–51: the flat cell index of every voxel, and the taken probabilities flattened. -/
private def s7 : List (HloOp τ sig (Elt F)) :=
  [ reshape main_v16 main_v17 rfl shapeCasts_S2x1x1048576_S2x1048576,
    nullary main_v18 (iotaInDim S2 32 0),
    unary main_v18 main_v19 (broadcastInDim S2x1 ![0] bcast_S2_S2x1_0 : (⟨S2, .i32⟩ : BufTy).Contents (Elt F) → (⟨S2x1, .i32⟩ : BufTy).Contents (Elt F)),
    nullary main_c (constantI S_ 32 16#32),
    unary main_c main_v20 (broadcastInDim S2x1 ![] bcast_S_S2x1 : (⟨S_, .i32⟩ : BufTy).Contents (Elt F) → (⟨S2x1, .i32⟩ : BufTy).Contents (Elt F)),
    binary main_v19 main_v20 main_v21 (muli : (⟨S2x1, .i32⟩ : BufTy).Contents (Elt F) → (⟨S2x1, .i32⟩ : BufTy).Contents (Elt F) → (⟨S2x1, .i32⟩ : BufTy).Contents (Elt F)),
    unary main_v21 main_v22 (broadcastInDim S2x1048576 ![0, 1] bcast_S2x1_S2x1048576_0_1 : (⟨S2x1, .i32⟩ : BufTy).Contents (Elt F) → (⟨S2x1048576, .i32⟩ : BufTy).Contents (Elt F)),
    binary main_v14 main_v22 main_v23 (addi : (⟨S2x1048576, .i32⟩ : BufTy).Contents (Elt F) → (⟨S2x1048576, .i32⟩ : BufTy).Contents (Elt F) → (⟨S2x1048576, .i32⟩ : BufTy).Contents (Elt F)),
    reshape main_v23 main_v24 rfl shapeCasts_S2x1048576_S2097152,
    reshape main_v17 main_v25 rfl shapeCasts_S2x1048576_S2097152 ]

/-- Operations 52–56: the taken probabilities added up per cell. -/
private def s8 : List (HloOp τ sig (Elt F)) :=
  [ nullary main_cst_2 (constant S_ .f32 0x00000000#32),
    unary main_cst_2 main_v26 (broadcastInDim S32 ![] bcast_S_S32 : (⟨S_, .f32⟩ : BufTy).Contents (Elt F) → (⟨S32, .f32⟩ : BufTy).Contents (Elt F)),
    unary main_v24 main_v27 (broadcastInDim S2097152x1 ![0] bcast_S2097152_S2097152x1_0 : (⟨S2097152, .i32⟩ : BufTy).Contents (Elt F) → (⟨S2097152x1, .i32⟩ : BufTy).Contents (Elt F)),
    ternary main_v26 main_v27 main_v25 main_v28 ((fun x i u => Host.scatterAdd scatter_S32_S2097152x1_S2097152_n_0_0_1 x i u) : (⟨S32, .f32⟩ : BufTy).Contents (Elt F) → (⟨S2097152x1, .i32⟩ : BufTy).Contents (Elt F) → (⟨S2097152, .f32⟩ : BufTy).Contents (Elt F) → (⟨S32, .f32⟩ : BufTy).Contents (Elt F)),
    reshape main_v28 main_v29 rfl shapeCasts_S32_S2x16 ]

/-- Operations 57–58: the probabilities added up per cell. -/
private def s9 : List (HloOp τ sig (Elt F)) :=
  [ nullary main_cst_3 (constant S_ .f32 0x00000000#32),
    binary main_v13 main_cst_3 main_v30 ((fun x v => Host.reduceAdd x v reducesTo_S2x16x1048576_S2x16_d2 h_S_) : (⟨S2x16x1048576, .f32⟩ : BufTy).Contents (Elt F) → (⟨S_, .f32⟩ : BufTy).Contents (Elt F) → (⟨S2x16, .f32⟩ : BufTy).Contents (Elt F)) ]

/-- Operations 59–65: the voxels counted per cell. -/
private def s10 : List (HloOp τ sig (Elt F)) :=
  [ nullary main_cst_4 (constant S_ .f32 0x3F800000#32),
    unary main_cst_4 main_v31 (broadcastInDim S2097152 ![] bcast_S_S2097152 : (⟨S_, .f32⟩ : BufTy).Contents (Elt F) → (⟨S2097152, .f32⟩ : BufTy).Contents (Elt F)),
    nullary main_cst_5 (constant S_ .f32 0x00000000#32),
    unary main_cst_5 main_v32 (broadcastInDim S32 ![] bcast_S_S32 : (⟨S_, .f32⟩ : BufTy).Contents (Elt F) → (⟨S32, .f32⟩ : BufTy).Contents (Elt F)),
    unary main_v24 main_v33 (broadcastInDim S2097152x1 ![0] bcast_S2097152_S2097152x1_0 : (⟨S2097152, .i32⟩ : BufTy).Contents (Elt F) → (⟨S2097152x1, .i32⟩ : BufTy).Contents (Elt F)),
    ternary main_v32 main_v33 main_v31 main_v34 ((fun x i u => Host.scatterAdd scatter_S32_S2097152x1_S2097152_n_0_0_1 x i u) : (⟨S32, .f32⟩ : BufTy).Contents (Elt F) → (⟨S2097152x1, .i32⟩ : BufTy).Contents (Elt F) → (⟨S2097152, .f32⟩ : BufTy).Contents (Elt F) → (⟨S32, .f32⟩ : BufTy).Contents (Elt F)),
    reshape main_v34 main_v35 rfl shapeCasts_S32_S2x16 ]

/-- Operations 66–91: the dice score of the cells and one minus its mean. -/
private def s11 : List (HloOp τ sig (Elt F)) :=
  [ binary main_v30 main_v35 main_v36 (addf : (⟨S2x16, .f32⟩ : BufTy).Contents (Elt F) → (⟨S2x16, .f32⟩ : BufTy).Contents (Elt F) → (⟨S2x16, .f32⟩ : BufTy).Contents (Elt F)),
    nullary main_cst_6 (constant S_ .f32 0x40000000#32),
    unary main_cst_6 main_v37 (broadcastInDim S2x16 ![] bcast_S_S2x16 : (⟨S_, .f32⟩ : BufTy).Contents (Elt F) → (⟨S2x16, .f32⟩ : BufTy).Contents (Elt F)),
    binary main_v37 main_v29 main_v38 (mulf : (⟨S2x16, .f32⟩ : BufTy).Contents (Elt F) → (⟨S2x16, .f32⟩ : BufTy).Contents (Elt F) → (⟨S2x16, .f32⟩ : BufTy).Contents (Elt F)),
    nullary main_cst_7 (constant S_ .f32 0x3F800000#32),
    unary main_cst_7 main_v39 (broadcastInDim S2x16 ![] bcast_S_S2x16 : (⟨S_, .f32⟩ : BufTy).Contents (Elt F) → (⟨S2x16, .f32⟩ : BufTy).Contents (Elt F)),
    binary main_v38 main_v39 main_v40 (addf : (⟨S2x16, .f32⟩ : BufTy).Contents (Elt F) → (⟨S2x16, .f32⟩ : BufTy).Contents (Elt F) → (⟨S2x16, .f32⟩ : BufTy).Contents (Elt F)),
    nullary main_cst_8 (constant S_ .f32 0x3F800000#32),
    unary main_cst_8 main_v41 (broadcastInDim S2x16 ![] bcast_S_S2x16 : (⟨S_, .f32⟩ : BufTy).Contents (Elt F) → (⟨S2x16, .f32⟩ : BufTy).Contents (Elt F)),
    binary main_v36 main_v41 main_v42 (addf : (⟨S2x16, .f32⟩ : BufTy).Contents (Elt F) → (⟨S2x16, .f32⟩ : BufTy).Contents (Elt F) → (⟨S2x16, .f32⟩ : BufTy).Contents (Elt F)),
    binary main_v40 main_v42 main_v43 (Host.divf : (⟨S2x16, .f32⟩ : BufTy).Contents (Elt F) → (⟨S2x16, .f32⟩ : BufTy).Contents (Elt F) → (⟨S2x16, .f32⟩ : BufTy).Contents (Elt F)),
    nullary main_cst_9 (constant S_ .f32 0x3F800000#32),
    unary main_cst_9 main_v44 (broadcastInDim S16 ![] bcast_S_S16 : (⟨S_, .f32⟩ : BufTy).Contents (Elt F) → (⟨S16, .f32⟩ : BufTy).Contents (Elt F)),
    nullary main_c_10 (constantI S_ 32 0#32),
    unary main_c_10 main_v45 (broadcastInDim S1 ![] bcast_S_S1 : (⟨S_, .i32⟩ : BufTy).Contents (Elt F) → (⟨S1, .i32⟩ : BufTy).Contents (Elt F)),
    nullary main_cst_11 (constant S_ .f32 0x00000000#32),
    ternary main_v44 main_v45 main_cst_11 main_v46 ((fun x i u => Host.scatter scatter_S16_S1_S__n_0_0_0 (fun _ b => b) x i u) : (⟨S16, .f32⟩ : BufTy).Contents (Elt F) → (⟨S1, .i32⟩ : BufTy).Contents (Elt F) → (⟨S_, .f32⟩ : BufTy).Contents (Elt F) → (⟨S16, .f32⟩ : BufTy).Contents (Elt F)),
    unary main_v46 main_v47 (broadcastInDim S1x16 ![1] bcast_S16_S1x16_1 : (⟨S16, .f32⟩ : BufTy).Contents (Elt F) → (⟨S1x16, .f32⟩ : BufTy).Contents (Elt F)),
    unary main_v47 main_v48 (broadcastInDim S2x16 ![0, 1] bcast_S1x16_S2x16_0_1 : (⟨S1x16, .f32⟩ : BufTy).Contents (Elt F) → (⟨S2x16, .f32⟩ : BufTy).Contents (Elt F)),
    binary main_v43 main_v48 main_v49 (mulf : (⟨S2x16, .f32⟩ : BufTy).Contents (Elt F) → (⟨S2x16, .f32⟩ : BufTy).Contents (Elt F) → (⟨S2x16, .f32⟩ : BufTy).Contents (Elt F)),
    nullary main_cst_12 (constant S_ .f32 0x00000000#32),
    binary main_v49 main_cst_12 main_v50 ((fun x v => Host.reduceAdd x v reducesTo_S2x16_S_d0_1 h_S_) : (⟨S2x16, .f32⟩ : BufTy).Contents (Elt F) → (⟨S_, .f32⟩ : BufTy).Contents (Elt F) → (⟨S_, .f32⟩ : BufTy).Contents (Elt F)),
    nullary main_cst_13 (constant S_ .f32 0x41F00000#32),
    binary main_v50 main_cst_13 main_v51 (Host.divf : (⟨S_, .f32⟩ : BufTy).Contents (Elt F) → (⟨S_, .f32⟩ : BufTy).Contents (Elt F) → (⟨S_, .f32⟩ : BufTy).Contents (Elt F)),
    nullary main_cst_14 (constant S_ .f32 0x3F800000#32),
    binary main_cst_14 main_v51 main_v52 (subf : (⟨S_, .f32⟩ : BufTy).Contents (Elt F) → (⟨S_, .f32⟩ : BufTy).Contents (Elt F) → (⟨S_, .f32⟩ : BufTy).Contents (Elt F)) ]

/-- The ninety-one operations are these eleven stretches in a row. The inlined function's operations are written in the
    stretches over their buffers directly: over literal buffers the typed spelling unfolds to that one (the transports along
    the buffers' types are identities); operation 37 alone keeps its typed spelling here and is respelt where it is read. -/
private theorem ops_split :
    (ops (F := F)) = s1 ++ (s2 ++ (s3 ++ (s4 ++ (s5 ++ (s6 ++ (s7 ++ (s8 ++ (s9 ++ (s10 ++ s11))))))))) := rfl

/-- Over these three literal buffers the typed spelling of a two-operand operation is the plain one: the transports
    along the buffers' types are identities. Stated for an arbitrary function, so that nothing of it is unfolded. -/
private theorem typed_binary_v12 (g : (⟨S2x1x1048576x1, .i1⟩ : BufTy).Contents (Elt F) → (⟨S_, .i1⟩ : BufTy).Contents (Elt F) → (⟨S2x1x1048576, .i1⟩ : BufTy).Contents (Elt F)) :
    (TRef.binary (TRef.of (T := ⟨S2x1x1048576x1, .i1⟩) main_call0_v11) (TRef.of (T := ⟨S_, .i1⟩) main_call0_c_3)
        (TRef.of (T := ⟨S2x1x1048576, .i1⟩) main_call0_v12) g : HloOp τ sig (Elt F))
      = binary main_call0_v11 main_call0_c_3 main_call0_v12 g := rfl

/-! ## Each stretch read at the buffers later operations still read

For an arbitrary valuation `W` before the stretch: a buffer the stretch produces holds its stage function's value once the
buffers the stretch reads hold theirs; a buffer the stretch does not write keeps what `W` gave it. -/

/-! ### Operations 1–14: the softmax of the logits over the class axis -/

private theorem s1_v10 (W : Valuation τ sig (Elt F)) :
    after (s1 (F := F)) W (Proc.devRef .tc main_v10) = val_main_v10 (F := F) (W (Proc.devRef .tc main_arg0)) := by
  unfold s1
  after_results_simp
  rfl

private theorem s1_keeps_arg1 (W : Valuation τ sig (Elt F)) :
    after (s1 (F := F)) W (Proc.devRef .tc main_arg1) = W (Proc.devRef .tc main_arg1) := by
  unfold s1
  after_results_simp

/-! ### Operations 15–19: the two inputs with their spatial axes merged -/

private theorem s2_v13 (W : Valuation τ sig (Elt F)) (x0 : (⟨S2x16x64x128x128, .f32⟩ : BufTy).Contents (Elt F))
    (h10 : W (Proc.devRef .tc main_v10) = val_main_v10 (F := F) x0) :
    after (s2 (F := F)) W (Proc.devRef .tc main_v13) = val_main_v13 (F := F) x0 := by
  unfold s2
  after_results_simp
  rw [h10]
  rfl

private theorem s2_v14 (W : Valuation τ sig (Elt F)) (x1 : (⟨S2x64x128x128, .i32⟩ : BufTy).Contents (Elt F))
    (h1 : W (Proc.devRef .tc main_arg1) = x1) :
    after (s2 (F := F)) W (Proc.devRef .tc main_v14) = val_main_v14 (F := F) x1 := by
  unfold s2
  after_results_simp
  rw [h1]
  rfl

private theorem s2_v15 (W : Valuation τ sig (Elt F)) (x1 : (⟨S2x64x128x128, .i32⟩ : BufTy).Contents (Elt F))
    (h1 : W (Proc.devRef .tc main_arg1) = x1) :
    after (s2 (F := F)) W (Proc.devRef .tc main_v15) = val_main_v15 (F := F) x1 := by
  unfold s2
  after_results_simp
  rw [h1]
  rfl

/-! ### Operations 20–27: the labels as gather indices (a negative label wrapped by the class count) -/

private theorem s3_call0_v5 (W : Valuation τ sig (Elt F)) (x1 : (⟨S2x64x128x128, .i32⟩ : BufTy).Contents (Elt F))
    (h15 : W (Proc.devRef .tc main_v15) = val_main_v15 (F := F) x1) :
    after (s3 (F := F)) W (Proc.devRef .tc main_call0_v5) = val_main_call0_v5 (F := F) x1 := by
  unfold s3
  after_results_simp
  rw [h15]
  rfl

private theorem s3_keeps_v13 (W : Valuation τ sig (Elt F)) :
    after (s3 (F := F)) W (Proc.devRef .tc main_v13) = W (Proc.devRef .tc main_v13) := by
  unfold s3
  after_results_simp

private theorem s3_keeps_v14 (W : Valuation τ sig (Elt F)) :
    after (s3 (F := F)) W (Proc.devRef .tc main_v14) = W (Proc.devRef .tc main_v14) := by
  unfold s3
  after_results_simp

/-! ### Operations 28–36: index by index, whether it lies in the class range -/

private theorem s4_call0_v11 (W : Valuation τ sig (Elt F)) (x1 : (⟨S2x64x128x128, .i32⟩ : BufTy).Contents (Elt F))
    (h5 : W (Proc.devRef .tc main_call0_v5) = val_main_call0_v5 (F := F) x1) :
    after (s4 (F := F)) W (Proc.devRef .tc main_call0_v11) = val_main_call0_v11 (F := F) x1 := by
  unfold s4
  after_results_simp
  rw [h5]
  rfl

private theorem s4_call0_c_3 (W : Valuation τ sig (Elt F)) :
    after (s4 (F := F)) W (Proc.devRef .tc main_call0_c_3) = val_main_call0_c_3 (F := F) := by
  unfold s4
  after_results_simp
  rfl

private theorem s4_keeps_call0_v5 (W : Valuation τ sig (Elt F)) :
    after (s4 (F := F)) W (Proc.devRef .tc main_call0_v5) = W (Proc.devRef .tc main_call0_v5) := by
  unfold s4
  after_results_simp

private theorem s4_keeps_v13 (W : Valuation τ sig (Elt F)) :
    after (s4 (F := F)) W (Proc.devRef .tc main_v13) = W (Proc.devRef .tc main_v13) := by
  unfold s4
  after_results_simp

private theorem s4_keeps_v14 (W : Valuation τ sig (Elt F)) :
    after (s4 (F := F)) W (Proc.devRef .tc main_v14) = W (Proc.devRef .tc main_v14) := by
  unfold s4
  after_results_simp

/-! ### Operation 37: a voxel's index is in range when all its components are (in the typed spelling it has in the operation list) -/

private theorem s5_call0_v12 (W : Valuation τ sig (Elt F)) (x1 : (⟨S2x64x128x128, .i32⟩ : BufTy).Contents (Elt F))
    (h11 : W (Proc.devRef .tc main_call0_v11) = val_main_call0_v11 (F := F) x1)
    (hc : W (Proc.devRef .tc main_call0_c_3) = val_main_call0_c_3 (F := F)) :
    after (s5 (F := F)) W (Proc.devRef .tc main_call0_v12) = val_main_call0_v12 (F := F) x1 := by
  unfold s5
  rw [typed_binary_v12]
  after_results_simp
  rw [h11, hc]
  rfl

private theorem s5_keeps_call0_v5 (W : Valuation τ sig (Elt F)) :
    after (s5 (F := F)) W (Proc.devRef .tc main_call0_v5) = W (Proc.devRef .tc main_call0_v5) := by
  unfold s5
  rw [typed_binary_v12]
  after_results_simp

private theorem s5_keeps_v13 (W : Valuation τ sig (Elt F)) :
    after (s5 (F := F)) W (Proc.devRef .tc main_v13) = W (Proc.devRef .tc main_v13) := by
  unfold s5
  rw [typed_binary_v12]
  after_results_simp

private theorem s5_keeps_v14 (W : Valuation τ sig (Elt F)) :
    after (s5 (F := F)) W (Proc.devRef .tc main_v14) = W (Proc.devRef .tc main_v14) := by
  unfold s5
  rw [typed_binary_v12]
  after_results_simp

/-! ### Operations 38–41: the probability of each voxel's own label (a junk value where the label is out of range) -/

private theorem s6_v16 (W : Valuation τ sig (Elt F)) (x0 : (⟨S2x16x64x128x128, .f32⟩ : BufTy).Contents (Elt F)) (x1 : (⟨S2x64x128x128, .i32⟩ : BufTy).Contents (Elt F))
    (h13 : W (Proc.devRef .tc main_v13) = val_main_v13 (F := F) x0)
    (h5 : W (Proc.devRef .tc main_call0_v5) = val_main_call0_v5 (F := F) x1)
    (h12 : W (Proc.devRef .tc main_call0_v12) = val_main_call0_v12 (F := F) x1) :
    after (s6 (F := F)) W (Proc.devRef .tc main_v16) = val_main_v16 (F := F) x0 x1 := by
  unfold s6
  after_results_simp
  rw [h13, h5, h12]
  rfl

private theorem s6_keeps_v13 (W : Valuation τ sig (Elt F)) :
    after (s6 (F := F)) W (Proc.devRef .tc main_v13) = W (Proc.devRef .tc main_v13) := by
  unfold s6
  after_results_simp

private theorem s6_keeps_v14 (W : Valuation τ sig (Elt F)) :
    after (s6 (F := F)) W (Proc.devRef .tc main_v14) = W (Proc.devRef .tc main_v14) := by
  unfold s6
  after_results_simp

/-! ### Operations 42–51: the flat cell index of every voxel, and the taken probabilities flattened -/

private theorem s7_v24 (W : Valuation τ sig (Elt F)) (x1 : (⟨S2x64x128x128, .i32⟩ : BufTy).Contents (Elt F))
    (h14 : W (Proc.devRef .tc main_v14) = val_main_v14 (F := F) x1) :
    after (s7 (F := F)) W (Proc.devRef .tc main_v24) = val_main_v24 (F := F) x1 := by
  unfold s7
  after_results_simp
  rw [h14]
  rfl

private theorem s7_v25 (W : Valuation τ sig (Elt F)) (x0 : (⟨S2x16x64x128x128, .f32⟩ : BufTy).Contents (Elt F)) (x1 : (⟨S2x64x128x128, .i32⟩ : BufTy).Contents (Elt F))
    (h16 : W (Proc.devRef .tc main_v16) = val_main_v16 (F := F) x0 x1) :
    after (s7 (F := F)) W (Proc.devRef .tc main_v25) = val_main_v25 (F := F) x0 x1 := by
  unfold s7
  after_results_simp
  rw [h16]
  rfl

private theorem s7_keeps_v13 (W : Valuation τ sig (Elt F)) :
    after (s7 (F := F)) W (Proc.devRef .tc main_v13) = W (Proc.devRef .tc main_v13) := by
  unfold s7
  after_results_simp

/-! ### Operations 52–56: the taken probabilities added up per cell -/

private theorem s8_v29 (W : Valuation τ sig (Elt F)) (x0 : (⟨S2x16x64x128x128, .f32⟩ : BufTy).Contents (Elt F)) (x1 : (⟨S2x64x128x128, .i32⟩ : BufTy).Contents (Elt F))
    (h24 : W (Proc.devRef .tc main_v24) = val_main_v24 (F := F) x1)
    (h25 : W (Proc.devRef .tc main_v25) = val_main_v25 (F := F) x0 x1) :
    after (s8 (F := F)) W (Proc.devRef .tc main_v29) = val_main_v29 (F := F) x0 x1 := by
  unfold s8
  after_results_simp
  rw [h24, h25]
  rfl

private theorem s8_keeps_v13 (W : Valuation τ sig (Elt F)) :
    after (s8 (F := F)) W (Proc.devRef .tc main_v13) = W (Proc.devRef .tc main_v13) := by
  unfold s8
  after_results_simp

private theorem s8_keeps_v24 (W : Valuation τ sig (Elt F)) :
    after (s8 (F := F)) W (Proc.devRef .tc main_v24) = W (Proc.devRef .tc main_v24) := by
  unfold s8
  after_results_simp

/-! ### Operations 57–58: the probabilities added up per cell -/

private theorem s9_v30 (W : Valuation τ sig (Elt F)) (x0 : (⟨S2x16x64x128x128, .f32⟩ : BufTy).Contents (Elt F))
    (h13 : W (Proc.devRef .tc main_v13) = val_main_v13 (F := F) x0) :
    after (s9 (F := F)) W (Proc.devRef .tc main_v30) = val_main_v30 (F := F) x0 := by
  unfold s9
  after_results_simp
  rw [h13]
  rfl

private theorem s9_keeps_v24 (W : Valuation τ sig (Elt F)) :
    after (s9 (F := F)) W (Proc.devRef .tc main_v24) = W (Proc.devRef .tc main_v24) := by
  unfold s9
  after_results_simp

private theorem s9_keeps_v29 (W : Valuation τ sig (Elt F)) :
    after (s9 (F := F)) W (Proc.devRef .tc main_v29) = W (Proc.devRef .tc main_v29) := by
  unfold s9
  after_results_simp

/-! ### Operations 59–65: the voxels counted per cell -/

private theorem s10_v35 (W : Valuation τ sig (Elt F)) (x1 : (⟨S2x64x128x128, .i32⟩ : BufTy).Contents (Elt F))
    (h24 : W (Proc.devRef .tc main_v24) = val_main_v24 (F := F) x1) :
    after (s10 (F := F)) W (Proc.devRef .tc main_v35) = val_main_v35 (F := F) x1 := by
  unfold s10
  after_results_simp
  rw [h24]
  rfl

private theorem s10_keeps_v29 (W : Valuation τ sig (Elt F)) :
    after (s10 (F := F)) W (Proc.devRef .tc main_v29) = W (Proc.devRef .tc main_v29) := by
  unfold s10
  after_results_simp

private theorem s10_keeps_v30 (W : Valuation τ sig (Elt F)) :
    after (s10 (F := F)) W (Proc.devRef .tc main_v30) = W (Proc.devRef .tc main_v30) := by
  unfold s10
  after_results_simp

/-! ### Operations 66–91: the dice score of the cells and one minus its mean -/

private theorem s11_v52 (W : Valuation τ sig (Elt F)) (x0 : (⟨S2x16x64x128x128, .f32⟩ : BufTy).Contents (Elt F)) (x1 : (⟨S2x64x128x128, .i32⟩ : BufTy).Contents (Elt F))
    (h29 : W (Proc.devRef .tc main_v29) = val_main_v29 (F := F) x0 x1)
    (h30 : W (Proc.devRef .tc main_v30) = val_main_v30 (F := F) x0)
    (h35 : W (Proc.devRef .tc main_v35) = val_main_v35 (F := F) x1) :
    after (s11 (F := F)) W (Proc.devRef .tc main_v52) = val_main_v52 (F := F) x0 x1 := by
  unfold s11
  after_results_simp
  rw [h29, h30, h35]
  rfl

/-! ## The whole list -/

/-- The fold of the reference's operations at the result buffer is the last stage of the two arguments. -/
theorem after_ops_result (V : Valuation τ sig (Elt F)) :
    after (ops (F := F)) V (Proc.devRef .tc main_v52)
      = val_main_v52 (F := F) (V (Proc.devRef .tc main_arg0)) (V (Proc.devRef .tc main_arg1)) := by
  rw [ops_split]
  simp only [after_append]
  -- after operations 1–14
  have a1_v10 := s1_v10 V
  have a1_arg1 := s1_keeps_arg1 V
  -- after operations 15–19
  have a2_v13 := s2_v13 (after s1 V) _ a1_v10
  have a2_v14 := s2_v14 (after s1 V) _ a1_arg1
  have a2_v15 := s2_v15 (after s1 V) _ a1_arg1
  -- after operations 20–27
  have a3_c5 := s3_call0_v5 (after s2 (after s1 V)) _ a2_v15
  have a3_v13 := (s3_keeps_v13 (after s2 (after s1 V))).trans a2_v13
  have a3_v14 := (s3_keeps_v14 (after s2 (after s1 V))).trans a2_v14
  -- after operations 28–36
  have a4_c11 := s4_call0_v11 (after s3 (after s2 (after s1 V))) _ a3_c5
  have a4_cc3 := s4_call0_c_3 (after s3 (after s2 (after s1 V)))
  have a4_c5 := (s4_keeps_call0_v5 (after s3 (after s2 (after s1 V)))).trans a3_c5
  have a4_v13 := (s4_keeps_v13 (after s3 (after s2 (after s1 V)))).trans a3_v13
  have a4_v14 := (s4_keeps_v14 (after s3 (after s2 (after s1 V)))).trans a3_v14
  -- after operation 37
  have a5_c12 := s5_call0_v12 (after s4 (after s3 (after s2 (after s1 V)))) _ a4_c11 a4_cc3
  have a5_c5 := (s5_keeps_call0_v5 (after s4 (after s3 (after s2 (after s1 V))))).trans a4_c5
  have a5_v13 := (s5_keeps_v13 (after s4 (after s3 (after s2 (after s1 V))))).trans a4_v13
  have a5_v14 := (s5_keeps_v14 (after s4 (after s3 (after s2 (after s1 V))))).trans a4_v14
  -- after operations 38–41
  have a6_v16 := s6_v16 (after s5 (after s4 (after s3 (after s2 (after s1 V))))) _ _ a5_v13 a5_c5 a5_c12
  have a6_v13 := (s6_keeps_v13 (after s5 (after s4 (after s3 (after s2 (after s1 V)))))).trans a5_v13
  have a6_v14 := (s6_keeps_v14 (after s5 (after s4 (after s3 (after s2 (after s1 V)))))).trans a5_v14
  -- after operations 42–51
  have a7_v24 := s7_v24 (after s6 (after s5 (after s4 (after s3 (after s2 (after s1 V)))))) _ a6_v14
  have a7_v25 := s7_v25 (after s6 (after s5 (after s4 (after s3 (after s2 (after s1 V)))))) _ _ a6_v16
  have a7_v13 := (s7_keeps_v13 (after s6 (after s5 (after s4 (after s3 (after s2 (after s1 V))))))).trans a6_v13
  -- after operations 52–56
  have a8_v29 := s8_v29 (after s7 (after s6 (after s5 (after s4 (after s3 (after s2 (after s1 V))))))) _ _ a7_v24 a7_v25
  have a8_v13 := (s8_keeps_v13 (after s7 (after s6 (after s5 (after s4 (after s3 (after s2 (after s1 V)))))))).trans a7_v13
  have a8_v24 := (s8_keeps_v24 (after s7 (after s6 (after s5 (after s4 (after s3 (after s2 (after s1 V)))))))).trans a7_v24
  -- after operations 57–58
  have a9_v30 := s9_v30 (after s8 (after s7 (after s6 (after s5 (after s4 (after s3 (after s2 (after s1 V)))))))) _ a8_v13
  have a9_v24 := (s9_keeps_v24 (after s8 (after s7 (after s6 (after s5 (after s4 (after s3 (after s2 (after s1 V))))))))).trans a8_v24
  have a9_v29 := (s9_keeps_v29 (after s8 (after s7 (after s6 (after s5 (after s4 (after s3 (after s2 (after s1 V))))))))).trans a8_v29
  -- after operations 59–65
  have a10_v35 := s10_v35 (after s9 (after s8 (after s7 (after s6 (after s5 (after s4 (after s3 (after s2 (after s1 V))))))))) _ a9_v24
  have a10_v29 := (s10_keeps_v29 (after s9 (after s8 (after s7 (after s6 (after s5 (after s4 (after s3 (after s2 (after s1 V)))))))))).trans a9_v29
  have a10_v30 := (s10_keeps_v30 (after s9 (after s8 (after s7 (after s6 (after s5 (after s4 (after s3 (after s2 (after s1 V)))))))))).trans a9_v30
  -- operations 66–91
  exact s11_v52 _ _ _ a10_v29 a10_v30 a10_v35

/-- No operation writes the first argument. -/
theorem after_ops_arg0 (V : Valuation τ sig (Elt F)) :
    after (ops (F := F)) V (Proc.devRef .tc main_arg0) = V (Proc.devRef .tc main_arg0) := by
  after_results_simp

/-- No operation writes the second argument. -/
theorem after_ops_arg1 (V : Valuation τ sig (Elt F)) :
    after (ops (F := F)) V (Proc.devRef .tc main_arg1) = V (Proc.devRef .tc main_arg1) := by
  after_results_simp

/-- The reference's run: it terminates, its result is the last stage of the launch arguments, its arguments are kept. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = val_main_v52 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono
    (fun _ h c => ⟨(h c main_v52).trans (after_ops_result _), (h c main_arg0).trans (after_ops_arg0 _),
      (h c main_arg1).trans (after_ops_arg1 _)⟩)
    (run_after m ρ)

end Cert.ReferenceIdeal.RefValue

end
-- ==== Proof.Spec.lean ====
/-
  The mathematics both programs compute, stated once over the flattened inputs: logits `X` of shape [2, 16, 1048576]
  (batch, class, voxel) and integer labels `T` of shape [2, 1048576] (batch, voxel).

  Per voxel the class scores are turned into probabilities by the shifted softmax
  `prob b c n = exp (X b c n - max_c' X b c' n) / ∑_c' exp (X b c' n - max_c'' X b c'' n)`;
  a label selects a class by the indicator `onehot b c n = [T b n = c]`; and the three dice statistics of a
  (batch, class) cell are sums over the voxels:
  `inter = ∑_n prob · onehot`, `psum = ∑_n prob`, `tcount = ∑_n onehot`.
  Everything lives in the extended reals, where `+` is commutative and associative without any finiteness
  assumption, `x * 1 = x` and `x * 0 = 0`; no other law is needed to join the two programs.
-/
import Idealize.ShloMosaic.PureOps.Ideal
import Idealize.ShloMosaic.Lib.ValueIdx

noncomputable section

namespace Cert.Dice

open Idealize.ShloMosaic Idealize.ShloMosaic.ValueIdx

/-- Flattened logits: batch × class × voxel. -/
abbrev SX : Shape := ⟨3, ![2, 16, 1048576]⟩
/-- Flattened labels: batch × voxel. -/
abbrev ST : Shape := ⟨2, ![2, 1048576]⟩

/-- The largest class score at a voxel: the fold of `max` from `⊥` over the sixteen classes. -/
def colMax (X : SX.Idx → EReal) (b : Fin 2) (n : Fin 1048576) : EReal :=
  (Finset.univ : Finset (Fin 16)).fold max ⊥ (fun c' => X (ix3 b c' n))

/-- The shifted exponential of one class score. -/
def expo (X : SX.Idx → EReal) (b : Fin 2) (c : Fin 16) (n : Fin 1048576) : EReal :=
  Ideal.exp (X (ix3 b c n) - colMax X b n)

/-- The softmax denominator at a voxel. -/
def colSum (X : SX.Idx → EReal) (b : Fin 2) (n : Fin 1048576) : EReal :=
  ∑ c' : Fin 16, expo X b c' n

/-- The softmax probability of class `c` at voxel `n` of batch `b`. -/
def prob (X : SX.Idx → EReal) (b : Fin 2) (c : Fin 16) (n : Fin 1048576) : EReal :=
  Ideal.div (expo X b c n) (colSum X b n)

/-- The label indicator: one where the voxel's label is the class, zero elsewhere. -/
def onehot (T : ST.Idx → BitVec 32) (b : Fin 2) (c : Fin 16) (n : Fin 1048576) : EReal :=
  if T (ix2 b n) = BitVec.ofNat 32 c.val then 1 else 0

/-- Probability mass a cell's class receives on the voxels labelled with it. -/
def interAt (X : SX.Idx → EReal) (T : ST.Idx → BitVec 32) (b : Fin 2) (c : Fin 16) : EReal :=
  ∑ n : Fin 1048576, prob X b c n * onehot T b c n

/-- Total probability mass of a cell's class. -/
def psumAt (X : SX.Idx → EReal) (b : Fin 2) (c : Fin 16) : EReal :=
  ∑ n : Fin 1048576, prob X b c n

/-- Number of voxels labelled with a cell's class. -/
def tcountAt (T : ST.Idx → BitVec 32) (b : Fin 2) (c : Fin 16) : EReal :=
  ∑ n : Fin 1048576, onehot T b c n

end Cert.Dice

end
-- ==== Proof.Flat.lean ====
/-
  The two inputs as both programs meet them once flattened: the logits [2, 16, 64, 128, 128] read row-major as
  [2, 16, 1048576] (the three spatial axes merged into one voxel axis), the labels [2, 64, 128, 128] as [2, 1048576].
-/
import proofs.«431347_j9182640079166_2_alg».proof.Proof.Spec

noncomputable section

namespace Cert.Dice

open Idealize.ShloMosaic

/-- Logits as given: batch × class × depth × height × width. -/
abbrev S5 : Shape := ⟨5, ![2, 16, 64, 128, 128]⟩
/-- Labels as given: batch × depth × height × width. -/
abbrev S4 : Shape := ⟨4, ![2, 64, 128, 128]⟩

/-- The logits with their spatial axes merged, row-major. -/
def flatX (x0 : S5.Idx → EReal) : SX.Idx → EReal := shapeCast SX x0 (by decide)

/-- The labels with their spatial axes merged, row-major. -/
def flatT (x1 : S4.Idx → BitVec 32) : ST.Idx → BitVec 32 := shapeCast ST x1 (by decide)

end Cert.Dice

end
-- ==== Proof.RefSoftmax.lean ====
/-
  The reference's softmax, read at an index of the flattened array. The reference computes the shifted softmax over
  the class axis on the five-axis logits and only then merges the spatial axes; element (b, c, n) of the merged result
  is the probability `prob` of the specification taken over the logits merged first, because merging the spatial
  axes moves no element across classes or batches. Its sum over the voxel axis is `psumAt`.
-/
import proofs.«431347_j9182640079166_2_alg».proof.Proof.RefRead
import proofs.«431347_j9182640079166_2_alg».proof.Proof.Flat
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.ReadP Cert.Dice

/-- Voxel `n` of batch `b` as a (batch, depth, height, width) index: `n = (d * 128 + h) * 128 + w`. -/
private def vox (b : Fin 2) (n : Fin 1048576) : S2x64x128x128.Idx :=
  ix4 b ⟨n.val / 16384, by have := n.isLt; omega⟩ ⟨n.val / 128 % 128, Nat.mod_lt _ (by decide)⟩
    ⟨n.val % 128, Nat.mod_lt _ (by decide)⟩

/-- Element (b, c, n) of the merged array is element (b, c, d, h, w) of the five-axis one: the voxel's own index with
    the class coordinate `c` put in. -/
private theorem idx13_eq (b : Fin 2) (c : Fin 16) (n : Fin 1048576) :
    idx_main_v13 (ix3 b c n) = idx_main_v7 (vox b n) c := by
  have hb := b.isLt; have hc := c.isLt; have hn := n.isLt
  funext a
  match a with
  | ⟨0, _⟩ => exact Fin.ext (by show ((b.val * 16 + c.val) * 1048576 + n.val) / 16777216 = b.val; omega)
  | ⟨1, _⟩ => exact Fin.ext (by show ((b.val * 16 + c.val) * 1048576 + n.val) / 1048576 % 16 = c.val; omega)
  | ⟨2, _⟩ => exact Fin.ext (by show ((b.val * 16 + c.val) * 1048576 + n.val) / 16384 % 64 = n.val / 16384; omega)
  | ⟨3, _⟩ => exact Fin.ext (by show ((b.val * 16 + c.val) * 1048576 + n.val) / 128 % 128 = n.val / 128 % 128; omega)
  | ⟨4, _⟩ => exact Fin.ext (by show ((b.val * 16 + c.val) * 1048576 + n.val) % 128 = n.val % 128; omega)

/-- The merged logits read at (b, c, n) are the given logits at the same five-axis element: the two have the same
    row-major position. -/
private theorem flat_eq (x0 : (⟨S2x16x64x128x128, .f32⟩ : BufTy).Contents (Elt Ideal)) (b : Fin 2) (c : Fin 16) (n : Fin 1048576) :
    flatX x0 (ix3 b c n) = x0 (idx_main_v7 (vox b n) c) := by
  unfold flatX
  refine shapeCast_apply x0 _ (ix3 b c n) (idx_main_v7 (vox b n) c) ?_
  rewrite [Shape.rowMajor_val_five, Shape.rowMajor_val_three]
  have hn := n.isLt
  show (((b.val * 16 + c.val) * 64 + n.val / 16384) * 128 + n.val / 128 % 128) * 128 + n.val % 128
    = (b.val * 16 + c.val) * 1048576 + n.val
  omega

/-- The class axis is the one the two class reductions drop. -/
private theorem red1 : S2x16x64x128x128.Reduces [1] S2x64x128x128 := by decide

/-- Putting class `k` back into a voxel's index. -/
private theorem lift_eq (j : S2x64x128x128.Idx) (k : Fin 16) : red1.lift j k = idx_main_v7 j k := by
  funext c; apply Fin.ext
  match c with
  | ⟨0, _⟩ => rfl | ⟨1, _⟩ => rfl | ⟨2, _⟩ => rfl | ⟨3, _⟩ => rfl | ⟨4, _⟩ => rfl

/-- Dropping the class coordinate again gives the voxel's index back (the route of the maximum's two broadcasts). -/
private theorem drop_max (j : S2x64x128x128.Idx) (c : Fin 16) : idx_main_v3 (idx_main_v4 (idx_main_v7 j c)) = j := by
  funext a
  match a with
  | ⟨0, _⟩ => rfl | ⟨1, _⟩ => rfl | ⟨2, _⟩ => rfl | ⟨3, _⟩ => rfl

/-- The same for the route of the denominator's two broadcasts. -/
private theorem drop_sum (j : S2x64x128x128.Idx) (c : Fin 16) : idx_main_v8 (idx_main_v9 (idx_main_v7 j c)) = j := by
  funext a
  match a with
  | ⟨0, _⟩ => rfl | ⟨1, _⟩ => rfl | ⟨2, _⟩ => rfl | ⟨3, _⟩ => rfl

/-- The word 0xFF800000 is −∞. -/
private theorem negInf : Ideal.ofBits .f32 0xFF800000#32 = (⊥ : EReal) := by simp [Ideal.ofBits, Ideal.ieee]

/-- The reference's class maximum at a voxel: the fold of `max` from −∞ over the sixteen classes. -/
private theorem v2_eq (x0 : (⟨S2x16x64x128x128, .f32⟩ : BufTy).Contents (Elt Ideal)) (j : S2x64x128x128.Idx) :
    val_main_v2 (F := Ideal) x0 j = (Finset.univ : Finset (Fin 16)).fold max ⊥ (fun k => x0 (idx_main_v7 j k)) := by
  rw [val_main_v2_apply, val_main_v1_apply, val_main_cst_0_apply]
  unfold val_main_v0
  have e := Host.reduce_eq_fold_single (FloatOps.maximumf (F := Ideal) (φ := .f32)) x0 (val_main_cst (F := Ideal))
    reducesTo_S2x16x64x128x128_S2x64x128x128_d1 red1 h_S_ j
  refine (congrArg (FloatOps.maximumf (F := Ideal) (FloatOps.ofBits .f32 0xFF800000#32)) e).trans ?_
  rw [val_main_cst_apply, Ideal.ofBits_def, negInf, Ideal.maximumf_def, max_eq_right bot_le]
  have hf : (x0 ∘ red1.lift j) = fun k : Fin 16 => x0 (idx_main_v7 j k) :=
    funext fun k => congrArg x0 (lift_eq j k)
  exact congrArg (fun f => Finset.fold max (⊥ : EReal) f (Finset.univ : Finset (Fin 16))) hf

/-- The reference's shifted exponential of class `c` at a voxel. -/
private theorem v6_eq (x0 : (⟨S2x16x64x128x128, .f32⟩ : BufTy).Contents (Elt Ideal)) (j : S2x64x128x128.Idx) (c : Fin 16) :
    val_main_v6 (F := Ideal) x0 (idx_main_v7 j c)
      = Ideal.exp (x0 (idx_main_v7 j c) - val_main_v2 (F := Ideal) x0 j) := by
  rw [val_main_v6_apply, val_main_v5_apply, val_main_v4_apply, val_main_v3_apply, drop_max,
    Ideal.hostUnary_exp_def, Ideal.subf_def]

/-- The reference's softmax denominator at a voxel: the sum starts from the zero word. -/
private theorem v7_eq (x0 : (⟨S2x16x64x128x128, .f32⟩ : BufTy).Contents (Elt Ideal)) (j : S2x64x128x128.Idx) :
    val_main_v7 (F := Ideal) x0 j = ∑ k : Fin 16, val_main_v6 (F := Ideal) x0 (idx_main_v7 j k) := by
  rw [val_main_v7_apply, val_main_cst_1_apply, Ideal.ofBits_def, Ideal.ofBits_zero_f32, zero_add]

/-- The reference's five-axis softmax at class `c` of voxel `j`. -/
private theorem v10_eq (x0 : (⟨S2x16x64x128x128, .f32⟩ : BufTy).Contents (Elt Ideal)) (j : S2x64x128x128.Idx) (c : Fin 16) :
    val_main_v10 (F := Ideal) x0 (idx_main_v7 j c)
      = Ideal.div
          (Ideal.exp (x0 (idx_main_v7 j c)
            - (Finset.univ : Finset (Fin 16)).fold max ⊥ (fun k => x0 (idx_main_v7 j k))))
          (∑ c' : Fin 16, Ideal.exp (x0 (idx_main_v7 j c')
            - (Finset.univ : Finset (Fin 16)).fold max ⊥ (fun k => x0 (idx_main_v7 j k)))) := by
  rw [val_main_v10_apply, val_main_v9_apply, val_main_v8_apply, drop_sum, Ideal.hostDivf_def, v7_eq]
  simp only [v6_eq, v2_eq]

/-- The reference's merged softmax at (b, c, n) is the specification's probability over the merged logits. -/
theorem ref_prob (x0 : (⟨S2x16x64x128x128, .f32⟩ : BufTy).Contents (Elt Ideal)) (b : Fin 2) (c : Fin 16) (n : Fin 1048576) :
    val_main_v13 (F := Ideal) x0 (ix3 b c n) = prob (flatX x0) b c n := by
  rw [val_main_v13_apply, idx13_eq, v10_eq]
  simp only [prob, expo, colSum, colMax, flat_eq]

/-- Its sum over the voxels is the cell's total probability mass. -/
theorem ref_psum (x0 : (⟨S2x16x64x128x128, .f32⟩ : BufTy).Contents (Elt Ideal)) (b : Fin 2) (c : Fin 16) :
    val_main_v30 (F := Ideal) x0 (ix2 b c) = psumAt (flatX x0) b c := by
  rw [val_main_v30_apply, val_main_cst_3_apply, Ideal.ofBits_def, Ideal.ofBits_zero_f32, zero_add]
  unfold psumAt
  refine Finset.sum_congr rfl fun k _ => ?_
  have hk : idx_main_v30 (ix2 b c) k = ix3 b c k := by
    funext a
    match a with
    | ⟨0, _⟩ => rfl | ⟨1, _⟩ => rfl | ⟨2, _⟩ => rfl
  rw [hk, ref_prob]

end Cert.ReferenceIdeal.RefValue

end
-- ==== Proof.RefScatter.lean ====
/-
  The reference's two segment sums, read at a (batch, class) cell. Each voxel of batch b' carries the segment
  number `label + 16 · b'`; with every label a class number below sixteen this number determines both the batch and
  the class, so the segment (b, c) collects exactly the voxels of batch b labelled c. The summed quantity is, for the
  intersection, the probability gathered at the voxel's own label — which on those voxels is class c's — and for the
  count the constant one.
-/
import proofs.«431347_j9182640079166_2_alg».proof.Proof.RefRead
import proofs.«431347_j9182640079166_2_alg».proof.Proof.Flat
import Idealize.ShloMosaic.PureOps.Ideal.Laws
import Idealize.ShloMosaic.Lib.ValueIdx
import Idealize.ShloMosaic.Lib.ValueIdxRank1
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.ReadP Cert.Dice

/-! ### The segment sum's dimension numbers, read once

One scalar start index per update (the index table is a column), no window axes: update position `p` lands on the
result position its start index names, read as a signed integer, when that lies inside the result, and nowhere otherwise. -/

/-- The start-index cell an update position reads: row `p` of the one-column index table. -/
private theorem scatter_siIdx (p : Fin 2097152)
    (c : Fin scatter_S32_S2097152x1_S2097152_n_0_0_1.scatterDimsToOperandDims.length) :
    scatter_S32_S2097152x1_S2097152_n_0_0_1.siIdx (ix1 p) c = ix2 p (0 : Fin 1) := by
  funext b
  match b with
  | ⟨0, _⟩ => rfl
  | ⟨1, _⟩ => exact Fin.ext (show c.val = 0 from by have : c.val < 1 := c.isLt; omega)

/-- The window start on the result's one axis is that cell, read signed. -/
private theorem scatter_start (idx : IVec S2097152x1 32) (p : Fin 2097152) :
    scatter_S32_S2097152x1_S2097152_n_0_0_1.start (ix1 p) idx (0 : Fin 1) = (idx (ix2 p (0 : Fin 1))).toInt := by
  unfold ScatterDims.start
  rw [dif_pos (show (0 : Fin 1) ∈ scatter_S32_S2097152x1_S2097152_n_0_0_1.scatterDimsToOperandDims from
    List.mem_singleton.mpr rfl), scatter_siIdx]

/-- There is no window axis, so the window coordinate is zero. -/
private theorem scatter_window (p : Fin 2097152) :
    scatter_S32_S2097152x1_S2097152_n_0_0_1.window (ix1 p) (0 : Fin 1) = 0 := by
  unfold ScatterDims.window
  rw [dif_neg (by decide)]

/-- Update position `p` lands on result position `r` exactly when its start index, read signed, is `r`. -/
private theorem scatter_resultIdx_iff (idx : IVec S2097152x1 32) (p : Fin 2097152) (r : Fin 32) :
    scatter_S32_S2097152x1_S2097152_n_0_0_1.resultIdx? (ix1 p) idx = some (ix1 r)
      ↔ (idx (ix2 p (0 : Fin 1))).toInt = (r.val : ℤ) := by
  have hs := scatter_start idx p
  have hw := scatter_window p
  have hr := r.isLt
  unfold ScatterDims.resultIdx?
  constructor
  · intro h
    split at h
    · next hin =>
      have h0 := congrArg Fin.val (congrFun (Option.some.inj h) (0 : Fin 1))
      have hin0 := (hin (0 : Fin 1)).1
      rw [hs, hw] at hin0
      change (scatter_S32_S2097152x1_S2097152_n_0_0_1.start (ix1 p) idx (0 : Fin 1)
        + ((scatter_S32_S2097152x1_S2097152_n_0_0_1.window (ix1 p) (0 : Fin 1) : ℕ) : ℤ)).toNat = r.val at h0
      rw [hs, hw] at h0
      omega
    · exact absurd h (by simp)
  · intro h
    have hin : ∀ a : Fin 1, 0 ≤ scatter_S32_S2097152x1_S2097152_n_0_0_1.start (ix1 p) idx a
          + ((scatter_S32_S2097152x1_S2097152_n_0_0_1.window (ix1 p) a : ℕ) : ℤ)
        ∧ scatter_S32_S2097152x1_S2097152_n_0_0_1.start (ix1 p) idx a
          + ((scatter_S32_S2097152x1_S2097152_n_0_0_1.window (ix1 p) a : ℕ) : ℤ) < ((S32.size a : ℕ) : ℤ) := by
      intro a
      match a with
      | ⟨0, _⟩ =>
        show 0 ≤ scatter_S32_S2097152x1_S2097152_n_0_0_1.start (ix1 p) idx (0 : Fin 1)
            + ((scatter_S32_S2097152x1_S2097152_n_0_0_1.window (ix1 p) (0 : Fin 1) : ℕ) : ℤ)
          ∧ scatter_S32_S2097152x1_S2097152_n_0_0_1.start (ix1 p) idx (0 : Fin 1)
            + ((scatter_S32_S2097152x1_S2097152_n_0_0_1.window (ix1 p) (0 : Fin 1) : ℕ) : ℤ) < ((32 : ℕ) : ℤ)
        rw [hs, hw, h]
        constructor <;> omega
    rw [dif_pos hin]
    congr 1
    funext a
    match a with
    | ⟨0, _⟩ =>
      apply Fin.ext
      show (scatter_S32_S2097152x1_S2097152_n_0_0_1.start (ix1 p) idx (0 : Fin 1)
        + ((scatter_S32_S2097152x1_S2097152_n_0_0_1.window (ix1 p) (0 : Fin 1) : ℕ) : ℤ)).toNat = r.val
      rw [hs, hw, h]
      omega

/-! ### The voxels of both batches as one list: position `b' · 1048576 + n` -/

/-- The position of voxel `n` of batch `b'` in the flattened list of all voxels. -/
private def voxelAt (b' : Fin 2) (n : Fin 1048576) : Fin 2097152 :=
  ⟨b'.val * 1048576 + n.val, by have := b'.isLt; have := n.isLt; omega⟩

private theorem voxelAt_val (b' : Fin 2) (n : Fin 1048576) : (voxelAt b' n).val = b'.val * 1048576 + n.val := rfl

/-- Every position is a voxel of a batch in exactly one way: quotient and remainder by 1048576. -/
private def voxelEquiv : Fin 2 × Fin 1048576 ≃ Fin 2097152 where
  toFun bn := voxelAt bn.1 bn.2
  invFun p := (⟨p.val / 1048576, by have := p.isLt; omega⟩, ⟨p.val % 1048576, by omega⟩)
  left_inv bn := by
    obtain ⟨b', n⟩ := bn
    have hb := b'.isLt
    have hn := n.isLt
    refine Prod.ext (Fin.ext ?_) (Fin.ext ?_)
    · show (b'.val * 1048576 + n.val) / 1048576 = b'.val
      omega
    · show (b'.val * 1048576 + n.val) % 1048576 = n.val
      omega
  right_inv p := by
    refine Fin.ext ?_
    show p.val / 1048576 * 1048576 + p.val % 1048576 = p.val
    omega

/-- A sum over all positions is the double sum over batches and voxels. -/
private theorem sum_voxels {M : Type*} [AddCommMonoid M] (g : Fin 2097152 → M) :
    ∑ p, g p = ∑ b' : Fin 2, ∑ n : Fin 1048576, g (voxelAt b' n) := by
  rw [← Equiv.sum_comp voxelEquiv g, Fintype.sum_prod_type]
  rfl

/-! ### Words: a class number below sixteen, shifted by sixteen per batch -/

/-- The segment number of a voxel labelled `q` in batch `b'`, read signed, is `16 · b' + q`. -/
private theorem seg_toInt : ∀ (q : Fin 16) (b' : Fin 2),
    (IntOp.addi (BitVec.ofNat 32 q.val) (IntOp.muli (BitVec.ofNat 32 b'.val) 16#32)).toInt
      = ((b'.val * 16 + q.val : ℕ) : ℤ) := by
  decide

/-- Class numbers below sixteen are distinct as 32-bit words. -/
private theorem label_eq_iff : ∀ (q c : Fin 16), BitVec.ofNat 32 q.val = BitVec.ofNat 32 c.val ↔ q = c := by
  decide

/-- The segment sum read at result position `r`: the operand there plus every update whose start index, read signed, is `r`. -/
private theorem scatterAdd_apply (x : FVec Ideal S32 .f32) (idx : IVec S2097152x1 32) (upd : FVec Ideal S2097152 .f32)
    (r : Fin 32) :
    Host.scatterAdd (F := Ideal) scatter_S32_S2097152x1_S2097152_n_0_0_1 x idx upd (ix1 r)
      = x (ix1 r) + ∑ p : Fin 2097152, if (idx (ix2 p (0 : Fin 1))).toInt = (r.val : ℤ) then upd (ix1 p) else 0 := by
  unfold Host.scatterAdd
  rw [Ideal.hostScatterAdd_def]
  unfold Ideal.hostScatterAdd
  refine congrArg (x (ix1 r) + ·) ?_
  rw [Finset.sum_filter, ← Equiv.sum_comp (idxEquiv1 (n := 2097152)).symm]
  refine Finset.sum_congr rfl fun p _ => ?_
  exact if_congr (scatter_resultIdx_iff idx p r) rfl rfl

/-- The same at a position given by its number. -/
private theorem scatterAdd_at (x : FVec Ideal S32 .f32) (idx : IVec S2097152x1 32) (upd : FVec Ideal S2097152 .f32)
    (r : ℕ) (hr : r < 32) :
    Host.scatterAdd (F := Ideal) scatter_S32_S2097152x1_S2097152_n_0_0_1 x idx upd (ix1 (⟨r, hr⟩ : Fin 32))
      = x (ix1 (⟨r, hr⟩ : Fin 32))
        + ∑ p : Fin 2097152, if (idx (ix2 p (0 : Fin 1))).toInt = (r : ℤ) then upd (ix1 p) else 0 :=
  scatterAdd_apply x idx upd ⟨r, hr⟩

/-- The word `0x3F800000` is the number one. -/
private theorem ofBits_one_f32 : Ideal.ofBits .f32 0x3F800000#32 = 1 := by
  simp [Ideal.ofBits, Ideal.ieee, -EReal.coe_mul]
  norm_num

/-! ### The gather along the class axis

Batch and voxel are batching axes, the class axis is collapsed and start-indexed: result position `(b', 0, n)` reads the
operand at `(b', k, n)`, `k` the start index at `(b', 0, n, 0)` read signed and clamped into the sixteen classes. -/

/-- The start-index cell result position `(b', 0, n)` reads. -/
private theorem gather_siIdx (b' : Fin 2) (n : Fin 1048576)
    (c : Fin gather_S2x16x1048576_S2x1x1048576x1_S2x1x1048576_n_1_02_02_1_3_111.startIndexMap.length) :
    gather_S2x16x1048576_S2x1x1048576x1_S2x1x1048576_n_1_02_02_1_3_111.siIdx (ix3 b' (0 : Fin 1) n) c = ix4 b' (0 : Fin 1) n (0 : Fin 1) := by
  funext b
  match b with
  | ⟨0, _⟩ => rfl
  | ⟨1, _⟩ => rfl
  | ⟨2, _⟩ => rfl
  | ⟨3, _⟩ => exact Fin.ext (show c.val = 0 from by have : c.val < 1 := c.isLt; omega)

/-- The gather read at `(b', 0, n)`: the operand's class `k` there, `k` the clamped start index. -/
private theorem gather_apply {α : Type} (x : S2x16x1048576.Idx → α) (idx : IVec S2x1x1048576x1 32)
    (b' : Fin 2) (n : Fin 1048576) (k : Fin 16)
    (hk : min (idx (ix4 b' (0 : Fin 1) n (0 : Fin 1))).toInt.toNat 15 = k.val) :
    Host.gather gather_S2x16x1048576_S2x1x1048576x1_S2x1x1048576_n_1_02_02_1_3_111 x idx (ix3 b' (0 : Fin 1) n) = x (ix3 b' k n) := by
  unfold Host.gather
  congr 1
  funext a
  refine Fin.ext ?_
  match a with
  | ⟨0, _⟩ =>
    show gather_S2x16x1048576_S2x1x1048576x1_S2x1x1048576_n_1_02_02_1_3_111.start (ix3 b' (0 : Fin 1) n) idx (0 : Fin 3)
        + gather_S2x16x1048576_S2x1x1048576x1_S2x1x1048576_n_1_02_02_1_3_111.batchCoord (ix3 b' (0 : Fin 1) n) (0 : Fin 3)
        + gather_S2x16x1048576_S2x1x1048576x1_S2x1x1048576_n_1_02_02_1_3_111.offCoord (ix3 b' (0 : Fin 1) n) (0 : Fin 3)
      = b'.val
    rw [GatherDims.start_batching _ _ _ _ (by decide), GatherDims.offCoord_eq_zero _ _ _ (by decide)]
    have hb : gather_S2x16x1048576_S2x1x1048576x1_S2x1x1048576_n_1_02_02_1_3_111.batchCoord (ix3 b' (0 : Fin 1) n) (0 : Fin 3) = b'.val := by
      unfold GatherDims.batchCoord
      rw [dif_pos (by decide)]
      rfl
    omega
  | ⟨1, _⟩ =>
    show gather_S2x16x1048576_S2x1x1048576x1_S2x1x1048576_n_1_02_02_1_3_111.start (ix3 b' (0 : Fin 1) n) idx (1 : Fin 3)
        + gather_S2x16x1048576_S2x1x1048576x1_S2x1x1048576_n_1_02_02_1_3_111.batchCoord (ix3 b' (0 : Fin 1) n) (1 : Fin 3)
        + gather_S2x16x1048576_S2x1x1048576x1_S2x1x1048576_n_1_02_02_1_3_111.offCoord (ix3 b' (0 : Fin 1) n) (1 : Fin 3)
      = k.val
    rw [GatherDims.batchCoord_eq_zero _ _ _ (by decide), GatherDims.offCoord_eq_zero _ _ _ (by decide)]
    unfold GatherDims.start
    rw [dif_pos (by decide), gather_siIdx]
    exact hk
  | ⟨2, _⟩ =>
    show gather_S2x16x1048576_S2x1x1048576x1_S2x1x1048576_n_1_02_02_1_3_111.start (ix3 b' (0 : Fin 1) n) idx (2 : Fin 3)
        + gather_S2x16x1048576_S2x1x1048576x1_S2x1x1048576_n_1_02_02_1_3_111.batchCoord (ix3 b' (0 : Fin 1) n) (2 : Fin 3)
        + gather_S2x16x1048576_S2x1x1048576x1_S2x1x1048576_n_1_02_02_1_3_111.offCoord (ix3 b' (0 : Fin 1) n) (2 : Fin 3)
      = n.val
    rw [GatherDims.start_batching _ _ _ _ (by decide), GatherDims.offCoord_eq_zero _ _ _ (by decide)]
    have hb : gather_S2x16x1048576_S2x1x1048576x1_S2x1x1048576_n_1_02_02_1_3_111.batchCoord (ix3 b' (0 : Fin 1) n) (2 : Fin 3) = n.val := by
      unfold GatherDims.batchCoord
      rw [dif_pos (by decide)]
      rfl
    omega

/-! ### The in-range mask: an `and` over an axis of size one -/

/-- A fold over a range with one element is one application of the operation. -/
private theorem fold_fin_one {α : Type} (op : α → α → α) [Std.Commutative op] [Std.Associative op] (b : α) {k : ℕ}
    (hk : k = 1) (f : Fin k → α) :
    (Finset.univ : Finset (Fin k)).fold op b f = op (f ⟨0, by omega⟩) b := by
  subst hk
  rw [Finset.univ_unique, Finset.fold_singleton]
  rfl

/-- The fold of `and` over the last axis, of size one, at `(b', 0, n)`: the one element it covers, and the initial bit. -/
private theorem mask_apply (m : IVec S2x1x1048576x1 1) (init : S_.Idx → BitVec 1) (b' : Fin 2) (n : Fin 1048576) :
    Host.reduce IntOp.andi m init reducesTo_S2x1x1048576x1_S2x1x1048576_d3 h_S_ (ix3 b' (0 : Fin 1) n)
      = IntOp.andi (m (ix4 b' (0 : Fin 1) n (0 : Fin 1))) (init (Shape.Idx.first h_S_)) := by
  have hR : S2x1x1048576x1.Reduces [3] S2x1x1048576 := by decide
  have hl : hR.lift (ix3 b' (0 : Fin 1) n) ⟨0, Nat.one_pos⟩ = ix4 b' (0 : Fin 1) n (0 : Fin 1) := by
    funext a
    match a with
    | ⟨0, _⟩ => rfl
    | ⟨1, _⟩ => rfl
    | ⟨2, _⟩ => rfl
    | ⟨3, _⟩ => rfl
  refine (Host.reduce_eq_fold_single IntOp.andi m init reducesTo_S2x1x1048576x1_S2x1x1048576_d3 hR h_S_ _).trans ?_
  refine (fold_fin_one IntOp.andi _ rfl _).trans ?_
  exact congrArg (fun i => IntOp.andi (m i) (init (Shape.Idx.first h_S_))) hl

/-- A class number below sixteen is not negative: the index normalisation (add sixteen to a negative index) leaves it. -/
private theorem norm_label : ∀ q : Fin 16,
    Scalar.select (IntOp.cmpi .slt (BitVec.ofNat 32 q.val) 0#32) (IntOp.addi (BitVec.ofNat 32 q.val) 16#32)
      (BitVec.ofNat 32 q.val) = BitVec.ofNat 32 q.val := by
  decide

/-- A class number below sixteen lies in `[0, 15]`: both signed comparisons hold, and so does their `and` with the
    reduction's initial bit. -/
private theorem inrange_label : ∀ q : Fin 16,
    IntOp.andi (IntOp.andi (IntOp.cmpi .sge (BitVec.ofNat 32 q.val) 0#32) (IntOp.cmpi .sle (BitVec.ofNat 32 q.val) 15#32))
      1#1 = 1#1 := by
  decide

/-- Read signed and clamped into the sixteen classes, a class number is itself. -/
private theorem clamp_label : ∀ q : Fin 16, min (BitVec.ofNat 32 q.val).toInt.toNat 15 = q.val := by
  decide

/-- The reference's flattened labels are the specification's. -/
theorem ref_labels (x1 : (⟨S2x64x128x128, .i32⟩ : BufTy).Contents (Elt Ideal)) :
    val_main_v14 (F := Ideal) x1 = flatT x1 := by
  rfl

/-! ### One voxel of the reference -/

/-- Every flattened label is a class number below sixteen. -/
private theorem label_at (x1 : (⟨S2x64x128x128, .i32⟩ : BufTy).Contents (Elt Ideal))
    (hlab : ∀ i, ∃ q : Fin 16, x1 i = BitVec.ofNat 32 q.val) (b' : Fin 2) (n : Fin 1048576) :
    ∃ q : Fin 16, flatT x1 (ix2 b' n) = BitVec.ofNat 32 q.val := by
  obtain ⟨q, hq⟩ := hlab (idx_main_v14 (ix2 b' n))
  exact ⟨q, by rw [← ref_labels, val_main_v14_apply]; exact hq⟩

/-- Position `b' · 1048576 + n` of the flattened list is voxel `n` of batch `b'`. -/
private theorem voxel_split (b' : Fin 2) (n : Fin 1048576) :
    idx_main_v24 (ix1 (voxelAt b' n)) = ix2 b' n := by
  have hb := b'.isLt
  have hn := n.isLt
  funext a
  match a with
  | ⟨0, _⟩ => exact Fin.ext (show (b'.val * 1048576 + n.val) / 1048576 = b'.val by omega)
  | ⟨1, _⟩ => exact Fin.ext (show (b'.val * 1048576 + n.val) % 1048576 = n.val by omega)

/-- The segment number a voxel carries: its label plus sixteen times its batch. -/
private theorem seg_at (x1 : (⟨S2x64x128x128, .i32⟩ : BufTy).Contents (Elt Ideal)) (b' : Fin 2) (n : Fin 1048576) :
    val_main_v27 (F := Ideal) x1 (ix2 (voxelAt b' n) (0 : Fin 1))
      = IntOp.addi (flatT x1 (ix2 b' n)) (IntOp.muli (BitVec.ofNat 32 b'.val) 16#32) := by
  have h27 : idx_main_v27 (ix2 (voxelAt b' n) (0 : Fin 1)) = ix1 (voxelAt b' n) := by
    funext a
    match a with
    | ⟨0, _⟩ => rfl
  rw [val_main_v27_apply, h27, val_main_v24_apply, voxel_split, val_main_v23_apply, ref_labels, val_main_v22_apply,
    val_main_v21_apply, val_main_v19_apply, val_main_v18_apply, val_main_v20_apply, val_main_c_apply]

/-- The count's segment numbers are the same table. -/
private theorem seg_at' (x1 : (⟨S2x64x128x128, .i32⟩ : BufTy).Contents (Elt Ideal)) (b' : Fin 2) (n : Fin 1048576) :
    val_main_v33 (F := Ideal) x1 (ix2 (voxelAt b' n) (0 : Fin 1))
      = IntOp.addi (flatT x1 (ix2 b' n)) (IntOp.muli (BitVec.ofNat 32 b'.val) 16#32) :=
  seg_at x1 b' n

/-- What a voxel labelled `q` adds to its segment of the intersection: the probability of class `q` there. The label
    is not negative, so the index normalisation leaves it; it lies in `[0, 15]`, so the in-range mask holds and the
    select takes the gathered value; and clamped into the sixteen classes it is still `q`. -/
private theorem upd_at (x0 : (⟨S2x16x64x128x128, .f32⟩ : BufTy).Contents (Elt Ideal))
    (x1 : (⟨S2x64x128x128, .i32⟩ : BufTy).Contents (Elt Ideal)) (b' : Fin 2) (n : Fin 1048576) (q : Fin 16)
    (hq : flatT x1 (ix2 b' n) = BitVec.ofNat 32 q.val) :
    val_main_v25 (F := Ideal) x0 x1 (ix1 (voxelAt b' n)) = val_main_v13 (F := Ideal) x0 (ix3 b' q n) := by
  have hb := b'.isLt
  have hn := n.isLt
  have h25 : idx_main_v25 (ix1 (voxelAt b' n)) = ix2 b' n := voxel_split b' n
  have h17 : idx_main_v17 (ix2 b' n) = ix3 b' (0 : Fin 1) n := by
    funext a
    match a with
    | ⟨0, _⟩ => exact Fin.ext (show (b'.val * 1048576 + n.val) / 1048576 = b'.val by omega)
    | ⟨1, _⟩ => rfl
    | ⟨2, _⟩ => exact Fin.ext (show (b'.val * 1048576 + n.val) % 1048576 = n.val by omega)
  have h15 : idx_main_v15 (ix3 b' (0 : Fin 1) n) = ix2 b' n := by
    funext a
    match a with
    | ⟨0, _⟩ => rfl
    | ⟨1, _⟩ => rfl
  have h5 : idx_main_call0_v5 (ix4 b' (0 : Fin 1) n (0 : Fin 1)) = ix3 b' (0 : Fin 1) n := by
    funext a
    match a with
    | ⟨0, _⟩ => exact Fin.ext (show (((b'.val * 1 + 0) * 1048576 + n.val) * 1 + 0) / 1048576 = b'.val by omega)
    | ⟨1, _⟩ => rfl
    | ⟨2, _⟩ => exact Fin.ext (show (((b'.val * 1 + 0) * 1048576 + n.val) * 1 + 0) % 1048576 = n.val by omega)
  have hv15 : val_main_v15 (F := Ideal) x1 (ix3 b' (0 : Fin 1) n) = BitVec.ofNat 32 q.val := by
    rw [val_main_v15_apply, h15, ref_labels, hq]
  have hv4 : val_main_call0_v4 (F := Ideal) x1 (ix3 b' (0 : Fin 1) n) = BitVec.ofNat 32 q.val := by
    rw [val_main_call0_v4_apply, val_main_call0_v1_apply, val_main_call0_v3_apply, hv15, val_main_call0_v0_apply,
      val_main_call0_c_apply, val_main_call0_v2_apply, val_main_call0_c_0_apply]
    exact norm_label q
  have hv5 : val_main_call0_v5 (F := Ideal) x1 (ix4 b' (0 : Fin 1) n (0 : Fin 1)) = BitVec.ofNat 32 q.val := by
    rw [val_main_call0_v5_apply, h5, hv4]
  have hmask : val_main_call0_v12 (F := Ideal) x1 (ix3 b' (0 : Fin 1) n) = 1#1 := by
    unfold val_main_call0_v12
    rw [mask_apply, val_main_call0_v11_apply, val_main_call0_v7_apply, val_main_call0_v10_apply, hv5,
      val_main_call0_v6_apply, val_main_call0_c_2_apply, val_main_call0_v9_apply, val_main_call0_v8_apply,
      val_main_call0_c_1_apply, val_main_call0_c_3_apply]
    exact inrange_label q
  rw [val_main_v25_apply, h25, val_main_v17_apply, h17, val_main_v16_apply, hmask, select_one]
  unfold val_main_call0_v13
  exact gather_apply _ _ b' n q (by rw [hv5]; exact clamp_label q)

/-- The intersection cell: the merged softmax times the label indicator, summed over the voxels. -/
theorem ref_inter (x0 : (⟨S2x16x64x128x128, .f32⟩ : BufTy).Contents (Elt Ideal)) (x1 : (⟨S2x64x128x128, .i32⟩ : BufTy).Contents (Elt Ideal))
    (hlab : ∀ i, ∃ q : Fin 16, x1 i = BitVec.ofNat 32 q.val) (b : Fin 2) (c : Fin 16) :
    val_main_v29 (F := Ideal) x0 x1 (ix2 b c)
      = ∑ n : Fin 1048576, val_main_v13 (F := Ideal) x0 (ix3 b c n) * onehot (flatT x1) b c n := by
  have hb := b.isLt
  have hc := c.isLt
  have h29 : idx_main_v29 (ix2 b c) = ix1 (⟨b.val * 16 + c.val, by omega⟩ : Fin 32) := by
    funext a
    match a with
    | ⟨0, _⟩ => rfl
  rw [val_main_v29_apply, h29]
  unfold val_main_v28
  rw [scatterAdd_at, val_main_v26_apply, val_main_cst_2_apply, Ideal.ofBits_def, Ideal.ofBits_zero_f32, zero_add,
    sum_voxels, Finset.sum_eq_single b]
  · -- the cell's own batch: a voxel labelled `c` brings class `c`'s probability, any other voxel nothing
    refine Finset.sum_congr rfl fun n _ => ?_
    obtain ⟨q, hq⟩ := label_at x1 hlab b n
    rw [seg_at, hq, seg_toInt, upd_at x0 x1 b n q hq]
    unfold onehot
    rw [hq]
    by_cases hqc : q = c
    · subst hqc
      rw [if_pos rfl, if_pos rfl, mul_one]
    · have hq16 := q.isLt
      rw [if_neg (fun h => hqc (Fin.ext (by have h2 := Int.ofNat_inj.mp h; omega))),
        if_neg (fun h => hqc ((label_eq_iff q c).mp h)), mul_zero]
  · -- the other batch: its segment numbers lie in the other sixteen
    intro b' _ hb'
    refine Finset.sum_eq_zero fun n _ => ?_
    obtain ⟨q, hq⟩ := label_at x1 hlab b' n
    rw [seg_at, hq, seg_toInt]
    refine if_neg fun h => hb' (Fin.ext ?_)
    have h2 : b'.val * 16 + q.val = b.val * 16 + c.val := Int.ofNat_inj.mp h
    have hq16 := q.isLt
    omega
  · intro h
    exact absurd (Finset.mem_univ b) h

/-- The count cell: the number of voxels of the batch labelled with the class. -/
theorem ref_tcount (x1 : (⟨S2x64x128x128, .i32⟩ : BufTy).Contents (Elt Ideal))
    (hlab : ∀ i, ∃ q : Fin 16, x1 i = BitVec.ofNat 32 q.val) (b : Fin 2) (c : Fin 16) :
    val_main_v35 (F := Ideal) x1 (ix2 b c) = tcountAt (flatT x1) b c := by
  have hb := b.isLt
  have hc := c.isLt
  have h35 : idx_main_v35 (ix2 b c) = ix1 (⟨b.val * 16 + c.val, by omega⟩ : Fin 32) := by
    funext a
    match a with
    | ⟨0, _⟩ => rfl
  rw [val_main_v35_apply, h35]
  unfold val_main_v34 tcountAt
  rw [scatterAdd_at, val_main_v32_apply, val_main_cst_5_apply, Ideal.ofBits_def, Ideal.ofBits_zero_f32, zero_add,
    sum_voxels, Finset.sum_eq_single b]
  · -- the cell's own batch: a voxel labelled `c` counts one, any other voxel nothing
    refine Finset.sum_congr rfl fun n _ => ?_
    obtain ⟨q, hq⟩ := label_at x1 hlab b n
    rw [seg_at', hq, seg_toInt, val_main_v31_apply, val_main_cst_4_apply, Ideal.ofBits_def, ofBits_one_f32]
    unfold onehot
    rw [hq]
    by_cases hqc : q = c
    · subst hqc
      rw [if_pos rfl, if_pos rfl]
    · have hq16 := q.isLt
      rw [if_neg (fun h => hqc (Fin.ext (by have h2 := Int.ofNat_inj.mp h; omega))),
        if_neg (fun h => hqc ((label_eq_iff q c).mp h))]
  · -- the other batch: its segment numbers lie in the other sixteen
    intro b' _ hb'
    refine Finset.sum_eq_zero fun n _ => ?_
    obtain ⟨q, hq⟩ := label_at x1 hlab b' n
    rw [seg_at', hq, seg_toInt]
    refine if_neg fun h => hb' (Fin.ext ?_)
    have h2 : b'.val * 16 + q.val = b.val * 16 + c.val := Int.ofNat_inj.mp h
    have hq16 := q.isLt
    omega
  · intro h
    exact absurd (Finset.mem_univ b) h

end Cert.ReferenceIdeal.RefValue

end
-- ==== Proof.Tail.lean ====
/-
  The last stretch of both programs, which is the same arithmetic on three [2, 16] tables of per-(batch, class)
  statistics `I` (intersection), `P` (probability mass) and `C` (label count): the dice ratio
  `(2 · I + 1) / ((P + C) + 1)` of every cell, the cells of class 0 masked out (a row of ones with its entry 0 set to
  zero, spread over the batches), the remaining thirty ratios summed, the sum divided by 30 and taken from 1.
-/
import proofs.«431347_j9182640079166_2_alg».proof.KernelIdeal
import proofs.«431347_j9182640079166_2_alg».proof.Proof.Gen.KernelIdeal

noncomputable section

namespace Cert.KernelIdeal

open Idealize.ShloMosaic
open Facts₀ Facts

variable {F : FTy → Type} [FloatOps F]

/-- One minus the mean, over the thirty cells of classes 1 to 15, of the dice ratio `(2 I + 1) / (P + C + 1)`. -/
def diceTail (I P C : FVec F S2x16 .f32) : FVec F S_ .f32 :=
  subf (constant S_ .f32 0x3F800000#32)
    (Host.divf
      (Host.reduceAdd
        (mulf
          (Host.divf
            (addf (mulf (broadcastInDim S2x16 ![] bcast_S_S2x16 (constant S_ .f32 0x40000000#32)) I)
              (broadcastInDim S2x16 ![] bcast_S_S2x16 (constant S_ .f32 0x3F800000#32)))
            (addf (addf P C) (broadcastInDim S2x16 ![] bcast_S_S2x16 (constant S_ .f32 0x3F800000#32))))
          (broadcastInDim S2x16 ![0, 1] bcast_S1x16_S2x16_0_1
            (broadcastInDim S1x16 ![1] bcast_S16_S1x16_1
              (Host.scatter scatter_S16_S1_S__n_0_0_0 (fun _ b => b)
                (broadcastInDim S16 ![] bcast_S_S16 (constant S_ .f32 0x3F800000#32))
                (broadcastInDim S1 ![] bcast_S_S1 (constantI S_ 32 0#32))
                (constant S_ .f32 0x00000000#32)))))
        (constant S_ .f32 0x00000000#32) reducesTo_S2x16_S_d0_1 h_S_)
      (constant S_ .f32 0x41F00000#32))

end Cert.KernelIdeal

end
-- ==== Proof.RefTail.lean ====
/-
  The reference's result as the common last stretch applied to the three tables of the specification. The
  reference's operations after its two segment sums and its voxel sum are the dice ratio, the class-0 mask, the mean
  and the final subtraction — the same arithmetic the kernel's host code applies to the kernel's three outputs; and
  cell by cell its three tables are the specification's intersection, probability mass and label count over the
  flattened inputs, provided every label is a class number.
-/
import proofs.«431347_j9182640079166_2_alg».proof.Proof.RefRead
import proofs.«431347_j9182640079166_2_alg».proof.Proof.RefSoftmax
import proofs.«431347_j9182640079166_2_alg».proof.Proof.RefScatter
import proofs.«431347_j9182640079166_2_alg».proof.Proof.Tail
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.ReadP Cert.Dice

/-- The reference's last seventeen operations are the common last stretch of its three tables. -/
theorem ref_tail (x0 : (⟨S2x16x64x128x128, .f32⟩ : BufTy).Contents (Elt Ideal)) (x1 : (⟨S2x64x128x128, .i32⟩ : BufTy).Contents (Elt Ideal)) :
    val_main_v52 (F := Ideal) x0 x1
      = Cert.KernelIdeal.diceTail (F := Ideal) (val_main_v29 (F := Ideal) x0 x1) (val_main_v30 (F := Ideal) x0) (val_main_v35 (F := Ideal) x1) := by
  unfold val_main_v52 val_main_v51 val_main_v50 val_main_v49 val_main_v48 val_main_v47 val_main_v46 val_main_v45
    val_main_v44 val_main_v43 val_main_v42 val_main_v41 val_main_v40 val_main_v39 val_main_v38 val_main_v37 val_main_v36
    val_main_cst_14 val_main_cst_13 val_main_cst_12 val_main_cst_11 val_main_c_10 val_main_cst_9 val_main_cst_8
    val_main_cst_7 val_main_cst_6 Cert.KernelIdeal.diceTail
  rfl

/-- The reference's result over the specification's tables. -/
theorem ref_result (x0 : (⟨S2x16x64x128x128, .f32⟩ : BufTy).Contents (Elt Ideal)) (x1 : (⟨S2x64x128x128, .i32⟩ : BufTy).Contents (Elt Ideal))
    (hlab : ∀ i, ∃ q : Fin 16, x1 i = BitVec.ofNat 32 q.val) :
    val_main_v52 (F := Ideal) x0 x1
      = Cert.KernelIdeal.diceTail (F := Ideal)
          (fun j => interAt (flatX x0) (flatT x1) (j 0) (j 1))
          (fun j => psumAt (flatX x0) (j 0) (j 1))
          (fun j => tcountAt (flatT x1) (j 0) (j 1)) := by
  rw [ref_tail]
  -- cell by cell the three tables are the specification's; every [2, 16] index is a (batch, class) pair
  have hI : val_main_v29 (F := Ideal) x0 x1 = fun j => interAt (flatX x0) (flatT x1) (j 0) (j 1) := by
    funext j
    obtain ⟨b, c, rfl⟩ : ∃ (b : Fin 2) (c : Fin 16), j = ix2 b c := ⟨j 0, j 1, eq_ix2 j⟩
    rw [ref_inter x0 x1 hlab b c]
    show _ = interAt (flatX x0) (flatT x1) b c
    unfold interAt
    exact Finset.sum_congr rfl fun n _ => by rw [ref_prob]
  have hP : val_main_v30 (F := Ideal) x0 = fun j => psumAt (flatX x0) (j 0) (j 1) := by
    funext j
    obtain ⟨b, c, rfl⟩ : ∃ (b : Fin 2) (c : Fin 16), j = ix2 b c := ⟨j 0, j 1, eq_ix2 j⟩
    exact ref_psum x0 b c
  have hC : val_main_v35 (F := Ideal) x1 = fun j => tcountAt (flatT x1) (j 0) (j 1) := by
    funext j
    obtain ⟨b, c, rfl⟩ : ∃ (b : Fin 2) (c : Fin 16), j = ix2 b c := ⟨j 0, j 1, eq_ix2 j⟩
    exact ref_tcount x1 hlab b c
  rw [hI, hP, hC]

end Cert.ReferenceIdeal.RefValue

end
-- ==== Proof.Trip.lean ====
/-
  One trip of the kernel's inner loop, as it changes the three accumulators. The loop walks a [1, 16, 65536] block in
  sixty-four slabs of 1024 lanes; each trip loads the slab and its labels, loads each accumulator, and stores it back
  whole with the trip's lane sums added. Read through the accumulator's whole view, the contents after `k + 1` trips
  are therefore one application of the trip's arithmetic to the contents after `k` trips; before the first trip they
  are what the loop found.
-/
import proofs.«431347_j9182640079166_2_alg».proof.Proof.Gen.KernelIdeal.Frame
import Idealize.ShloMosaic.Lib.Pipeline.Value

set_option maxRecDepth 16384

noncomputable section

namespace Cert.KernelIdeal.Acc

open Idealize.ShloMosaic Idealize.ShloMosaic.TcCoe Idealize.ShloMosaic.Tactic Idealize.SL.Sem
open Cert.KernelIdeal Cert.KernelIdeal.Gen

variable {F : FTy → Type} [FloatOps F]

variable (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole)
variable (X2 : BufTy.Contents (Elt F) arg2.view.ty) (X3 : BufTy.Contents (Elt F) arg3.view.ty)
variable (G7 : BufTy.Contents (Elt F) arg7.view.ty) (G8 : BufTy.Contents (Elt F) arg8.view.ty) (G9 : BufTy.Contents (Elt F) arg9.view.ty)

/-- The whole-accumulator rectangle starts at the origin. -/
theorem origin2 : (![0, 0] : Fin 2 → Nat) = fun _ => 0 := by
  funext a; match a with | ⟨0, _⟩ => rfl | ⟨1, _⟩ => rfl

/-- Before the first trip each accumulator holds what the loop found. -/
theorem pieces_zero : (pb_k0_t1 (F := F) Variants.none c none i arg2 harg2 arg3 harg3 arg4 harg4 arg5 harg5 arg6 harg6 arg7 harg7 arg8 harg8 arg9 harg9 X2 X3 G7 G8 G9 0) = ([], [], []) := rfl

/-- The first accumulator after one more trip: the trip's update of what the earlier trips left. -/
theorem acc0_succ (k : Fin k0_t1_loop.trips) :
    arg7.view.read (Elt F) (arg7.view.writes (Elt F) G7 (pb_k0_t1 (F := F) Variants.none c none i arg2 harg2 arg3 harg3 arg4 harg4 arg5 harg5 arg6 harg6 arg7 harg7 arg8 harg8 arg9 harg9 X2 X3 G7 G8 G9 (k.val + 1)).1)
      = k0_pay11
          (View.readAt (Elt F) arg2.view (Rect.unit (s := S1x16x65536) (k0_off1 k) S1x16x1024.size (Facts₀.k0_off1_inb k)).toLoadRect X2)
          (View.readAt (Elt F) arg3.view (Rect.unit (s := S1x1x65536) (k0_off2 k) S1x1x1024.size (Facts₀.k0_off2_inb k)).toLoadRect X3)
          (arg7.view.read (Elt F) (arg7.view.writes (Elt F) G7 (pb_k0_t1 (F := F) Variants.none c none i arg2 harg2 arg3 harg3 arg4 harg4 arg5 harg5 arg6 harg6 arg7 harg7 arg8 harg8 arg9 harg9 X2 X3 G7 G8 G9 k.val).1)) := by
  rw [pb_k0_t1_succ]
  dsimp only [tripL_k0_t1]
  rw [View.writes_append]
  unfold trip_k0_t1
  dsimp only
  rw [View.read_writes_eq_canon _ _ _ (fun y => ⟨_, List.mem_singleton_self _, View.mem_set_unit_zero origin2 Facts₀.inb_S16x1_S16x1_0_0 y⟩)]
  rw [View.canon_unit_zero origin2]
  simp only [View.readAt_eq_ld, View.ld_unit_zero (S := S16x1) origin2]

/-- The second accumulator after one more trip. -/
theorem acc1_succ (k : Fin k0_t1_loop.trips) :
    arg8.view.read (Elt F) (arg8.view.writes (Elt F) G8 (pb_k0_t1 (F := F) Variants.none c none i arg2 harg2 arg3 harg3 arg4 harg4 arg5 harg5 arg6 harg6 arg7 harg7 arg8 harg8 arg9 harg9 X2 X3 G7 G8 G9 (k.val + 1)).2.1)
      = k0_pay4 (k0_pay12
          (View.readAt (Elt F) arg2.view (Rect.unit (s := S1x16x65536) (k0_off1 k) S1x16x1024.size (Facts₀.k0_off1_inb k)).toLoadRect X2)
          (arg8.view.read (Elt F) (arg8.view.writes (Elt F) G8 (pb_k0_t1 (F := F) Variants.none c none i arg2 harg2 arg3 harg3 arg4 harg4 arg5 harg5 arg6 harg6 arg7 harg7 arg8 harg8 arg9 harg9 X2 X3 G7 G8 G9 k.val).2.1))) := by
  rw [pb_k0_t1_succ]
  dsimp only [tripL_k0_t1]
  rw [View.writes_append]
  unfold trip_k0_t1
  dsimp only
  sl_unfold_words
  rw [View.read_writes_eq_canon _ _ _ (fun y => ⟨_, List.mem_singleton_self _, View.mem_set_unit_zero origin2 Facts₀.inb_S16x1_S16x1_0_0 y⟩)]
  rw [View.canon_unit_zero origin2]
  simp only [View.readAt_eq_ld, View.ld_unit_zero (S := S16x1) origin2]

/-- The third accumulator after one more trip. -/
theorem acc2_succ (k : Fin k0_t1_loop.trips) :
    arg9.view.read (Elt F) (arg9.view.writes (Elt F) G9 (pb_k0_t1 (F := F) Variants.none c none i arg2 harg2 arg3 harg3 arg4 harg4 arg5 harg5 arg6 harg6 arg7 harg7 arg8 harg8 arg9 harg9 X2 X3 G7 G8 G9 (k.val + 1)).2.2)
      = k0_pay5 (k0_pay10
          (View.readAt (Elt F) arg3.view (Rect.unit (s := S1x1x65536) (k0_off2 k) S1x1x1024.size (Facts₀.k0_off2_inb k)).toLoadRect X3))
          (arg9.view.read (Elt F) (arg9.view.writes (Elt F) G9 (pb_k0_t1 (F := F) Variants.none c none i arg2 harg2 arg3 harg3 arg4 harg4 arg5 harg5 arg6 harg6 arg7 harg7 arg8 harg8 arg9 harg9 X2 X3 G7 G8 G9 k.val).2.2)) := by
  rw [pb_k0_t1_succ]
  dsimp only [tripL_k0_t1]
  rw [View.writes_append]
  unfold trip_k0_t1
  dsimp only
  sl_unfold_words
  rw [View.read_writes_eq_canon _ _ _ (fun y => ⟨_, List.mem_singleton_self _, View.mem_set_unit_zero origin2 Facts₀.inb_S16x1_S16x1_0_0 y⟩)]
  rw [View.canon_unit_zero origin2]
  simp only [View.readAt_eq_ld, View.ld_unit_zero (S := S16x1) origin2]

end Cert.KernelIdeal.Acc

end
-- ==== Proof.Payload.lean ====
/-
  The arithmetic of one inner step of the kernel, read index by index in the extended reals. One step sees a
  [1, 16, 1024] slab of logits and the [1, 1, 1024] labels of the same lanes: it forms the per-lane softmax over the
  sixteen classes, the class indicator of each lane's label, and adds to each of three [16, 1] accumulators the lane
  sums of (probability × indicator), of the probability, and of the indicator.
-/
import proofs.«431347_j9182640079166_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.StepValue

open Idealize.ShloMosaic Idealize.ShloMosaic.ValueIdx Cert.KernelIdeal Cert.KernelIdeal.Gen

/-! ## Layout operations at an index -/

section Layout
variable {α : Type}

/-- A [16] vector cast to a [16, 1] column reads, at (q, 0), the operand at q: both have row-major position q. -/
private theorem cast_16_16x1 (x : S16.Idx → α) (h : S16.ShapeCasts S16x1) (q : Fin 16) :
    shapeCast S16x1 x h (ix2 q (0 : Fin 1)) = x (ix1 q) :=
  shapeCast_apply x h _ _ (by
    rw [Shape.rowMajor_val_one, Shape.rowMajor_val_two]
    show q.val = q.val * 1 + 0
    omega)

/-- A [16, 1] column laid into a [1, 16, 1] block reads, at (0, q, 0), the operand at (q, 0). -/
private theorem cast_16x1_1x16x1 (x : S16x1.Idx → α) (h : S16x1.ShapeCasts S1x16x1) (q : Fin 16) :
    shapeCast S1x16x1 x h (ix3 (0 : Fin 1) q (0 : Fin 1)) = x (ix2 q (0 : Fin 1)) :=
  shapeCast_ab_1ab_apply x h 0 q 0

/-- A [1, 1, 1024] block viewed as a [1024] row reads, at l, the operand at (0, 0, l). -/
private theorem cast_1x1x1024_1024 (x : S1x1x1024.Idx → α) (h : S1x1x1024.ShapeCasts S1024) (l : Fin 1024) :
    shapeCast S1024 x h (ix1 l) = x (ix3 (0 : Fin 1) (0 : Fin 1) l) :=
  shapeCast_apply x h _ _ (by
    rw [Shape.rowMajor_val_three, Shape.rowMajor_val_one]
    show (0 * 1 + 0) * 1024 + l.val = l.val
    omega)

/-- A [1, 1024] row repeated over sixteen classes reads, at (q, l), the row at (0, l). -/
private theorem bcast_row (x : S1x1024.Idx → α) (h : S1x1024.Broadcasts S16x1024) (q : Fin 16) (l : Fin 1024) :
    broadcastTo S16x1024 x h (ix2 q l) = x (ix2 (0 : Fin 1) l) :=
  broadcastTo_apply x h _ _ fun a => match a with
    | ⟨0, _⟩ => rfl
    | ⟨1, _⟩ => rfl

/-- A [1024] row, viewed [1, 1024] and repeated over the sixteen classes, reads the row's entry at every class. -/
private theorem row_apply (x : S1024.Idx → α) (hc : S1024.ShapeCasts S1x1024) (hb : S1x1024.Broadcasts S16x1024)
    (q : Fin 16) (l : Fin 1024) :
    broadcastTo S16x1024 (shapeCast S1x1024 x hc) hb (ix2 q l) = x (ix1 l) :=
  (bcast_row _ hb q l).trans (shapeCast_a_1a_apply x hc 0 l)

end Layout

/-! ## The three reductions of a [16, 1024] array at an index -/

section Reductions

/-- The sum along the lanes: at class q, the sum over the 1024 lanes of the source at (q, l). -/
private theorem laneSum (src : FVec Ideal S16x1024 .f32) (h : S16x1024.Reduces [1] S16)
    (hφ : FKind.Formats .f32) (hacc : (0x00000000#32 : BitVec 32) = FKind.add.neutral .f32 hφ) (q : Fin 16) :
    multiReduction .add [1] S16 src 0x00000000#32 h hφ hacc (ix1 q) = ∑ l : Fin 1024, src (ix2 q l) := by
  refine (Ideal.multiReduction_add_single src _ h hφ hacc (ix1 q)).trans ?_
  refine Finset.sum_congr rfl fun l _ => congrArg src ?_
  funext a
  match a with
  | ⟨0, _⟩ => rfl
  | ⟨1, _⟩ => rfl

/-- The sum along the classes: at lane l, the sum over the sixteen classes of the source at (c, l). -/
private theorem classSum (src : FVec Ideal S16x1024 .f32) (h : S16x1024.Reduces [0] S1024)
    (hφ : FKind.Formats .f32) (hacc : (0x00000000#32 : BitVec 32) = FKind.add.neutral .f32 hφ) (l : Fin 1024) :
    multiReduction .add [0] S1024 src 0x00000000#32 h hφ hacc (ix1 l) = ∑ c : Fin 16, src (ix2 c l) := by
  refine (Ideal.multiReduction_add_single src _ h hφ hacc (ix1 l)).trans ?_
  refine Finset.sum_congr rfl fun c _ => congrArg src ?_
  funext a
  match a with
  | ⟨0, _⟩ => rfl
  | ⟨1, _⟩ => rfl

/-- The f32 pattern of −∞ denotes the bottom of the extended reals. -/
private theorem negInf_f32 : (FloatOps.ofBits .f32 0xFF800000#32 : Ideal .f32) = (⊥ : EReal) := by
  show Ideal.ofBits .f32 0xFF800000#32 = ⊥
  simp [Ideal.ofBits, Ideal.ieee]

/-- The maximum along the classes: at lane l, the fold of max from −∞ over the sixteen classes of the source at (c, l). -/
private theorem classMax (src : FVec Ideal S16x1024 .f32) (h : S16x1024.Reduces [0] S1024)
    (hφ : FKind.Formats .f32) (hacc : (0xFF800000#32 : BitVec 32) = FKind.maximumf.neutral .f32 hφ) (l : Fin 1024) :
    multiReduction .maximumf [0] S1024 src 0xFF800000#32 h hφ hacc (ix1 l)
      = (Finset.univ : Finset (Fin 16)).fold max ⊥ (fun c => src (ix2 c l)) := by
  refine (Ideal.multiReduction_maximumf_single src _ h hφ hacc (ix1 l)).trans ?_
  rw [negInf_f32]
  have hf : (src ∘ h.lift (ix1 l)) = fun c : Fin 16 => src (ix2 c l) := by
    funext c
    refine congrArg src ?_
    funext a
    match a with
    | ⟨0, _⟩ => rfl
    | ⟨1, _⟩ => rfl
  rw [hf]
  rfl

end Reductions

/-! ## Pointwise operations at an index -/

section Pointwise

/-- The exponential of a vector at an index. -/
private theorem exp_apply {s : Shape} (x : FVec Ideal s .f32) (i : s.Idx) : exp x i = Ideal.exp (x i) := rfl

/-- A vector comparison at an index compares the elements. -/
private theorem cmpi_apply {s : Shape} {w : Nat} (p : CmpIPredicate) (x y : IVec s w) (i : s.Idx) :
    cmpi p x y i = IntOp.cmpi p (x i) (y i) := rfl

/-- The indicator of the equality of two words, widened to 32 bits and read as a signed integer: the extended real 1
    when the words are equal, else 0. -/
private theorem indicator_word (x y : BitVec 32) :
    (FloatOps.sitofp .f32 ((IntOp.cmpi .eq x y).setWidth 32) : Ideal .f32) = if y = x then (1 : EReal) else 0 := by
  by_cases h : y = x
  · subst h
    rw [if_pos rfl]
    have e : IntOp.cmpi .eq y y = 1#1 := by simp [IntOp.cmpi]
    rw [e]
    show (((((1#1 : BitVec 1).setWidth 32).toInt : ℤ) : ℝ) : EReal) = 1
    have e2 : ((1#1 : BitVec 1).setWidth 32).toInt = 1 := by decide
    rw [e2]
    simp
  · rw [if_neg h]
    have e : IntOp.cmpi .eq x y = 0#1 := by
      have : (x == y) = false := by
        rw [beq_eq_false_iff_ne]
        exact fun hxy => h hxy.symm
      simp [IntOp.cmpi, this]
    rw [e]
    show (((((0#1 : BitVec 1).setWidth 32).toInt : ℤ) : ℝ) : EReal) = 0
    have e2 : ((0#1 : BitVec 1).setWidth 32).toInt = 0 := by decide
    rw [e2]
    simp

end Pointwise

/-! ## The softmax over the slab viewed [16, 1024] -/

section Softmax

/-- The maximum over the sixteen classes of each lane, repeated over the classes. -/
private def rowMax (X : FVec Ideal S16x1024 .f32) : FVec Ideal S16x1024 .f32 :=
  broadcastTo S16x1024
    (shapeCast S1x1024 (multiReduction .maximumf [0] S1024 X 0xFF800000#32 reduces_S16x1024_S1024 (.inl rfl) rfl)
      shapeCasts_S1024_S1x1024)
    broadcasts_S1x1024_S16x1024

/-- The sum over the sixteen classes of each lane, repeated over the classes. -/
private def rowSum (E : FVec Ideal S16x1024 .f32) : FVec Ideal S16x1024 .f32 :=
  broadcastTo S16x1024
    (shapeCast S1x1024 (multiReduction .add [0] S1024 E 0x00000000#32 reduces_S16x1024_S1024 (.inl rfl) rfl)
      shapeCasts_S1024_S1x1024)
    broadcasts_S1x1024_S16x1024

private theorem rowMax_apply (X : FVec Ideal S16x1024 .f32) (c : Fin 16) (l : Fin 1024) :
    rowMax X (ix2 c l) = (Finset.univ : Finset (Fin 16)).fold max ⊥ (fun c' => X (ix2 c' l)) :=
  (row_apply _ _ _ c l).trans (classMax X _ _ _ l)

private theorem rowSum_apply (E : FVec Ideal S16x1024 .f32) (c : Fin 16) (l : Fin 1024) :
    rowSum E (ix2 c l) = ∑ c' : Fin 16, E (ix2 c' l) :=
  (row_apply _ _ _ c l).trans (classSum E _ _ _ l)

/-- The softmax payload over the slab viewed [16, 1024]: exp (x − max) divided by its sum over the classes. The two
    sides unfold to the same term. -/
private theorem pay9_eq (v12 : Vec Ideal S1x16x1024 .f32) :
    k0_pay9 (F := Ideal) v12
      = divf (exp (subf (shapeCast S16x1024 v12 shapeCasts_S1x16x1024_S16x1024)
                (rowMax (shapeCast S16x1024 v12 shapeCasts_S1x16x1024_S16x1024))))
          (rowSum (exp (subf (shapeCast S16x1024 v12 shapeCasts_S1x16x1024_S16x1024)
                (rowMax (shapeCast S16x1024 v12 shapeCasts_S1x16x1024_S16x1024))))) := rfl

end Softmax

/-! ## The payloads at an index -/

/-- The per-lane softmax of a slab: class `q`, lane `l`. -/
theorem pay9_apply (v12 : Vec Ideal S1x16x1024 .f32) (q : Fin 16) (l : Fin 1024) :
    k0_pay9 (F := Ideal) v12 (ix2 q l)
      = Ideal.div
          (Ideal.exp (v12 (ix3 0 q l) - (Finset.univ : Finset (Fin 16)).fold max ⊥ (fun c' => v12 (ix3 0 c' l))))
          (∑ c'' : Fin 16, Ideal.exp (v12 (ix3 0 c'' l) - (Finset.univ : Finset (Fin 16)).fold max ⊥ (fun c' => v12 (ix3 0 c' l)))) := by
  rw [pay9_eq]
  simp only [divf_apply, exp_apply, subf_apply, rowMax_apply, rowSum_apply, shapeCast_1ab_ab_apply]

/-- The class indicator of a lane's label. -/
theorem pay10_apply (v15 : Vec Ideal S1x1x1024 .i32) (q : Fin 16) (l : Fin 1024) :
    k0_pay10 (F := Ideal) v15 (ix2 q l) = if v15 (ix3 0 0 l) = BitVec.ofNat 32 q.val then (1 : EReal) else 0 := by
  unfold k0_pay10
  refine (sitofp_apply _ _).trans ?_
  rw [extui_apply, cmpi_apply]
  refine (indicator_word _ _).trans ?_
  -- the class index along axis 0 reads the class; the labels, repeated over the classes, read the lane's label
  have hi : iota .tc S16x1024 32 [0] iota_S16x1024_d0_w32 (ix2 q l) = BitVec.ofNat 32 q.val :=
    iota_single_apply .tc S16x1024 32 0 _ (ix2 q l)
  have hl : broadcastTo S16x1024 (shapeCast S1x1024 (shapeCast S1024 v15 shapeCasts_S1x1x1024_S1024) shapeCasts_S1024_S1x1024)
      broadcasts_S1x1024_S16x1024 (ix2 q l) = v15 (ix3 0 0 l) :=
    (row_apply _ _ _ q l).trans (cast_1x1x1024_1024 v15 _ l)
  rw [hi, hl]

/-- The first accumulator's update: what it held plus the lane sum of probability × indicator. -/
theorem pay11_apply (v12 : Vec Ideal S1x16x1024 .f32) (v15 : Vec Ideal S1x1x1024 .i32) (v32 : Vec Ideal S16x1 .f32) (q : Fin 16) :
    k0_pay11 (F := Ideal) v12 v15 v32 (ix2 q 0)
      = v32 (ix2 q 0) + ∑ l : Fin 1024, k0_pay9 (F := Ideal) v12 (ix2 q l) * k0_pay10 (F := Ideal) v15 (ix2 q l) := by
  unfold k0_pay11
  rw [shapeCast_self]
  refine (addf_apply _ _ _).trans ?_
  refine congrArg (v32 (ix2 q 0) + ·) ?_
  exact (cast_16_16x1 _ _ q).trans (laneSum (mulf (k0_pay9 v12) (k0_pay10 v15)) _ _ _ q)

/-- The second accumulator's update: what it held plus the lane sum of the probability. -/
theorem pay12_apply (v12 : Vec Ideal S1x16x1024 .f32) (v40 : Vec Ideal S16x1 .f32) (q : Fin 16) :
    k0_pay12 (F := Ideal) v12 v40 (ix2 q 0) = v40 (ix2 q 0) + ∑ l : Fin 1024, k0_pay9 (F := Ideal) v12 (ix2 q l) := by
  unfold k0_pay12
  refine (addf_apply _ _ _).trans ?_
  refine congrArg (v40 (ix2 q 0) + ·) ?_
  exact (cast_16_16x1 _ _ q).trans (laneSum (k0_pay9 v12) _ _ _ q)

/-- The store of the second accumulator is a shape cast onto the same shape. -/
theorem pay4_apply (v43 : FVec Ideal S16x1 .f32) (q : Fin 16) : k0_pay4 (F := Ideal) v43 (ix2 q 0) = v43 (ix2 q 0) := by
  unfold k0_pay4
  rw [shapeCast_self]

/-- The third accumulator's update: what it held plus the lane sum of the indicator. -/
theorem pay5_apply (v31 : FVec Ideal S16x1024 .f32) (v47 : Vec Ideal S16x1 .f32) (q : Fin 16) :
    k0_pay5 (F := Ideal) v31 v47 (ix2 q 0) = v47 (ix2 q 0) + ∑ l : Fin 1024, v31 (ix2 q l) := by
  unfold k0_pay5
  rw [shapeCast_self]
  refine (addf_apply _ _ _).trans ?_
  refine congrArg (v47 (ix2 q 0) + ·) ?_
  exact (cast_16_16x1 _ _ q).trans (laneSum v31 _ _ _ q)

/-- The three accumulators are reset to zero. -/
theorem pay1_apply (q : Fin 16) : k0_pay1 (F := Ideal) (ix2 q 0) = 0 := by
  unfold k0_pay1
  rw [shapeCast_self]
  exact Ideal.ofBits_zero_f32
theorem pay2_apply (q : Fin 16) : k0_pay2 (F := Ideal) (ix2 q 0) = 0 := by
  unfold k0_pay2
  rw [shapeCast_self]
  exact Ideal.ofBits_zero_f32
theorem pay3_apply (q : Fin 16) : k0_pay3 (F := Ideal) (ix2 q 0) = 0 := by
  unfold k0_pay3
  rw [shapeCast_self]
  exact Ideal.ofBits_zero_f32

/-- Writing an accumulator out: a [16, 1] column laid into a [1, 16, 1] block. -/
theorem pay6_apply (v : Vec Ideal S16x1 .f32) (q : Fin 16) : k0_pay6 (F := Ideal) v (ix3 0 q 0) = v (ix2 q 0) := by
  unfold k0_pay6
  exact cast_16x1_1x16x1 v _ q
theorem pay7_apply (v : Vec Ideal S16x1 .f32) (q : Fin 16) : k0_pay7 (F := Ideal) v (ix3 0 q 0) = v (ix2 q 0) := by
  unfold k0_pay7
  exact cast_16x1_1x16x1 v _ q
theorem pay8_apply (v : Vec Ideal S16x1 .f32) (q : Fin 16) : k0_pay8 (F := Ideal) v (ix3 0 q 0) = v (ix2 q 0) := by
  unfold k0_pay8
  exact cast_16x1_1x16x1 v _ q

end Cert.KernelIdeal.StepValue

end
-- ==== Proof.SumSplit.lean ====
/-
  Prefix sums over the voxel axis. The kernel walks the 1048576 voxels of a batch in consecutive runs of 1024 lanes
  and adds each run's lane sum to a running total; in a commutative monoid the running total after the first `M`
  voxels is the sum over the voxels below `M`, whatever the grouping, and after all of them it is the whole sum.
-/
import Idealize.ShloMosaic.PureOps.Ideal

noncomputable section

namespace Cert.Dice

/-- The sum of `f` over the voxels whose position is below `M`. -/
def prefixSum {A : Type*} [AddCommMonoid A] (f : Fin 1048576 → A) (M : ℕ) : A :=
  ∑ n ∈ (Finset.univ : Finset (Fin 1048576)).filter (fun n => n.val < M), f n

/-- No position lies below `0`, so the prefix is the empty sum. -/
theorem prefixSum_zero {A : Type*} [AddCommMonoid A] (f : Fin 1048576 → A) : prefixSum f 0 = 0 := by
  unfold prefixSum
  have hempty : (Finset.univ : Finset (Fin 1048576)).filter (fun n => n.val < 0) = ∅ :=
    Finset.filter_false_of_mem (fun n _ => Nat.not_lt_zero n.val)
  rw [hempty, Finset.sum_empty]

/-- The position of lane `l` in the run of 1024 lanes that starts at `M`. -/
private def laneAt (M : ℕ) (hM : M + 1024 ≤ 1048576) (l : Fin 1024) : Fin 1048576 :=
  ⟨M + l.val, by have := l.isLt; omega⟩

private theorem laneAt_val (M : ℕ) (hM : M + 1024 ≤ 1048576) (l : Fin 1024) :
    (laneAt M hM l).val = M + l.val := rfl

/-- Distinct lanes of one run sit at distinct positions. -/
private theorem laneAt_injective (M : ℕ) (hM : M + 1024 ≤ 1048576) : Function.Injective (laneAt M hM) := by
  intro a b hab
  have hv : M + a.val = M + b.val := by
    have := congrArg Fin.val hab
    rwa [laneAt_val, laneAt_val] at this
  exact Fin.ext (by omega)

/-- The positions below `M + 1024` are those below `M` together with the 1024 positions `M + l`:
    a position `n` with `M ≤ n < M + 1024` is lane `n - M` of the run. -/
private theorem below_step_eq (M : ℕ) (hM : M + 1024 ≤ 1048576) :
    (Finset.univ : Finset (Fin 1048576)).filter (fun n => n.val < M + 1024)
      = (Finset.univ : Finset (Fin 1048576)).filter (fun n => n.val < M)
          ∪ (Finset.univ : Finset (Fin 1024)).image (laneAt M hM) := by
  ext n
  simp only [Finset.mem_filter, Finset.mem_univ, true_and, Finset.mem_union, Finset.mem_image]
  constructor
  · intro h
    by_cases hlt : n.val < M
    · exact Or.inl hlt
    · refine Or.inr ⟨⟨n.val - M, by omega⟩, ?_⟩
      apply Fin.ext
      rw [laneAt_val]
      show M + (n.val - M) = n.val
      omega
  · rintro (h | ⟨l, rfl⟩)
    · omega
    · rw [laneAt_val]
      have := l.isLt
      omega

/-- A lane of the run starting at `M` is never below `M`. -/
private theorem below_disjoint_lanes (M : ℕ) (hM : M + 1024 ≤ 1048576) :
    Disjoint ((Finset.univ : Finset (Fin 1048576)).filter (fun n => n.val < M))
      ((Finset.univ : Finset (Fin 1024)).image (laneAt M hM)) := by
  rw [Finset.disjoint_left]
  intro n hn hn'
  have hlt : n.val < M := (Finset.mem_filter.mp hn).2
  obtain ⟨l, _, rfl⟩ := Finset.mem_image.mp hn'
  rw [laneAt_val] at hlt
  omega

/-- One run of 1024 lanes starting at position `M` extends the prefix by exactly those lanes. -/
theorem prefixSum_step {A : Type*} [AddCommMonoid A] (f : Fin 1048576 → A) (M : ℕ) (hM : M + 1024 ≤ 1048576) :
    prefixSum f M + ∑ l : Fin 1024, f ⟨M + l.val, by have := l.isLt; omega⟩ = prefixSum f (M + 1024) := by
  unfold prefixSum
  rw [below_step_eq M hM, Finset.sum_union (below_disjoint_lanes M hM),
    Finset.sum_image (fun a _ b _ h => laneAt_injective M hM h)]
  rfl

/-- Every position lies below 1048576, so the last prefix is the whole sum. -/
theorem prefixSum_full {A : Type*} [AddCommMonoid A] (f : Fin 1048576 → A) :
    prefixSum f 1048576 = ∑ n : Fin 1048576, f n := by
  unfold prefixSum
  rw [Finset.filter_true_of_mem (fun n _ => n.isLt)]

end Cert.Dice

end
-- ==== Proof.Accum.lean ====
/-
  The inner loop as a running sum. Fix a class `q`, a function `f` of the voxel position and a start position `M0`.
  If an accumulator's entry for `q` starts at the sum of `f` over the voxels below `M0`, and lane `l` of trip `k`
  contributes `f (M0 + 1024 k + l)`, then after `k` trips the entry is the sum of `f` over the voxels below
  `M0 + 1024 k`: each trip adds its 1024 lanes to the prefix. The three accumulators differ only in what a lane
  contributes: probability × indicator, probability, indicator.
-/
import proofs.«431347_j9182640079166_2_alg».proof.Proof.Trip
import proofs.«431347_j9182640079166_2_alg».proof.Proof.Payload
import proofs.«431347_j9182640079166_2_alg».proof.Proof.SumSplit

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.StepValue Cert.Dice

variable (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole)
variable (X2 : BufTy.Contents (Elt Ideal) arg2.view.ty) (X3 : BufTy.Contents (Elt Ideal) arg3.view.ty)
variable (G7 : BufTy.Contents (Elt Ideal) arg7.view.ty) (G8 : BufTy.Contents (Elt Ideal) arg8.view.ty) (G9 : BufTy.Contents (Elt Ideal) arg9.view.ty)

/-- The loop makes sixty-four trips. -/
theorem trips_eq : k0_t1_loop.trips = 64 := by decide

/-- The first accumulator after `k` trips. -/
theorem acc0_closed (f : Fin 1048576 → EReal) (M0 : ℕ) (hM0 : M0 + 65536 ≤ 1048576) (q : Fin 16)
    (hstart : arg7.view.read (Elt Ideal) G7 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect X2) (ix2 q l) * k0_pay10 (F := Ideal) (View.readAt (Elt Ideal) arg3.view (Rect.unit (s := S1x1x65536) (k0_off2 k) S1x1x1024.size (Facts₀.k0_off2_inb k)).toLoadRect X3) (ix2 q l)
        = f ⟨(M0 + 1024 * k.val) + l.val, by have := l.isLt; have : k.val < 64 := lt_of_lt_of_eq k.isLt trips_eq; omega⟩) :
    ∀ (k : ℕ), k ≤ 64 →
      arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 X2 X3 G7 G8 G9 k).1) (ix2 q 0) = prefixSum f (M0 + 1024 * k) := by
  intro k
  induction k with
  | zero =>
    intro _
    rw [pieces_zero]
    exact hstart
  | succ k ih =>
    intro hk
    have hk' : k < k0_t1_loop.trips := by rw [trips_eq]; omega
    refine (congrFun (acc0_succ c i arg2 harg2 arg3 harg3 arg4 harg4 arg5 harg5 arg6 harg6 arg7 harg7 arg8 harg8 arg9 harg9 X2 X3 G7 G8 G9 ⟨k, hk'⟩) (ix2 q 0)).trans ?_
    refine (pay11_apply _ _ _ q).trans ?_
    rw [ih (by omega), Finset.sum_congr rfl (fun l _ => hlane ⟨k, hk'⟩ l)]
    refine (prefixSum_step f (M0 + 1024 * k) (by omega)).trans ?_
    exact congrArg (prefixSum f) (by omega)

/-- The second accumulator after `k` trips. -/
theorem acc1_closed (f : Fin 1048576 → EReal) (M0 : ℕ) (hM0 : M0 + 65536 ≤ 1048576) (q : Fin 16)
    (hstart : arg8.view.read (Elt Ideal) G8 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect X2) (ix2 q l)
        = f ⟨(M0 + 1024 * k.val) + l.val, by have := l.isLt; have : k.val < 64 := lt_of_lt_of_eq k.isLt trips_eq; omega⟩) :
    ∀ (k : ℕ), k ≤ 64 →
      arg8.view.read (Elt Ideal) (arg8.view.writes (Elt Ideal) G8 (pb_k0_t1 (F := Ideal) Variants.none c none i arg2 harg2 arg3 harg3 arg4 harg4 arg5 harg5 arg6 harg6 arg7 harg7 arg8 harg8 arg9 harg9 X2 X3 G7 G8 G9 k).2.1) (ix2 q 0) = prefixSum f (M0 + 1024 * k) := by
  intro k
  induction k with
  | zero =>
    intro _
    rw [pieces_zero]
    exact hstart
  | succ k ih =>
    intro hk
    have hk' : k < k0_t1_loop.trips := by rw [trips_eq]; omega
    refine (congrFun (acc1_succ c i arg2 harg2 arg3 harg3 arg4 harg4 arg5 harg5 arg6 harg6 arg7 harg7 arg8 harg8 arg9 harg9 X2 X3 G7 G8 G9 ⟨k, hk'⟩) (ix2 q 0)).trans ?_
    refine (pay4_apply _ q).trans ?_
    refine (pay12_apply _ _ q).trans ?_
    rw [ih (by omega), Finset.sum_congr rfl (fun l _ => hlane ⟨k, hk'⟩ l)]
    refine (prefixSum_step f (M0 + 1024 * k) (by omega)).trans ?_
    exact congrArg (prefixSum f) (by omega)

/-- The third accumulator after `k` trips. -/
theorem acc2_closed (f : Fin 1048576 → EReal) (M0 : ℕ) (hM0 : M0 + 65536 ≤ 1048576) (q : Fin 16)
    (hstart : arg9.view.read (Elt Ideal) G9 (ix2 q 0) = prefixSum f M0)
    (hlane : ∀ (k : Fin k0_t1_loop.trips) (l : Fin 1024),
      k0_pay10 (F := Ideal) (View.readAt (Elt Ideal) arg3.view (Rect.unit (s := S1x1x65536) (k0_off2 k) S1x1x1024.size (Facts₀.k0_off2_inb k)).toLoadRect X3) (ix2 q l)
        = f ⟨(M0 + 1024 * k.val) + l.val, by have := l.isLt; have : k.val < 64 := lt_of_lt_of_eq k.isLt trips_eq; omega⟩) :
    ∀ (k : ℕ), k ≤ 64 →
      arg9.view.read (Elt Ideal) (arg9.view.writes (Elt Ideal) G9 (pb_k0_t1 (F := Ideal) Variants.none c none i arg2 harg2 arg3 harg3 arg4 harg4 arg5 harg5 arg6 harg6 arg7 harg7 arg8 harg8 arg9 harg9 X2 X3 G7 G8 G9 k).2.2) (ix2 q 0) = prefixSum f (M0 + 1024 * k) := by
  intro k
  induction k with
  | zero =>
    intro _
    rw [pieces_zero]
    exact hstart
  | succ k ih =>
    intro hk
    have hk' : k < k0_t1_loop.trips := by rw [trips_eq]; omega
    refine (congrFun (acc2_succ c i arg2 harg2 arg3 harg3 arg4 harg4 arg5 harg5 arg6 harg6 arg7 harg7 arg8 harg8 arg9 harg9 X2 X3 G7 G8 G9 ⟨k, hk'⟩) (ix2 q 0)).trans ?_
    refine (pay5_apply _ _ q).trans ?_
    rw [ih (by omega), Finset.sum_congr rfl (fun l _ => hlane ⟨k, hk'⟩ l)]
    refine (prefixSum_step f (M0 + 1024 * k) (by omega)).trans ?_
    exact congrArg (prefixSum f) (by omega)

end Cert.KernelIdeal.Acc

end
-- ==== Proof.Cases.lean ====
/-
  What one grid point leaves behind, case by case. A point either starts a batch (it clears the three accumulators,
  then runs the loop), continues one (it runs the loop on what the point before left), or ends one (it runs the loop
  and writes the accumulators out). In every case an accumulator's entry for class `q`, which stood at the sum of a
  voxel function `f` below the point's first voxel `M0`, ends at the sum below `M0 + 65536`, because the point's
  sixty-four trips of 1024 lanes cover exactly its 65536 voxels.
-/
import proofs.«431347_j9182640079166_2_alg».proof.Proof.Accum

set_option maxRecDepth 16384

noncomputable section

namespace Cert.KernelIdeal.Acc

open Idealize.ShloMosaic Idealize.ShloMosaic.TcCoe Idealize.ShloMosaic.Tactic Idealize.ShloMosaic.ValueIdx Idealize.SL.Sem
open Cert.KernelIdeal Cert.KernelIdeal.Gen Cert.KernelIdeal.StepValue Cert.Dice

/-- The loop's trip count as the kernel computes it. -/
theorem trips_lit : Scf.trips (0#32) (Scalar.addi 0#32 64#32) 1#32 = 64 := by decide

/-- A continuing point, first accumulator. -/
theorem caseB_s0 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : ¬cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs0 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l) * k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_B_0 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_B_0
  have hcov := scover0_B_0 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_B
  dsimp only
  intro hcov
  rw [← View.read_writes_eq_canon arg7.view (harg7.unread xs0) _ hcov, trips_lit]
  exact acc0_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg7.read_unread]; exact hstart) hlane 64 le_rfl

/-- A continuing point, second accumulator. -/
theorem caseB_s1 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : ¬cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs1 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l)
        = f ⟨(M0 + 1024 * k.val) + l.val, by have := l.isLt; have : k.val < 64 := lt_of_lt_of_eq k.isLt trips_eq; omega⟩) :
    sout0_B_1 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_B_1
  have hcov := scover0_B_1 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_B
  dsimp only
  intro hcov
  rw [← View.read_writes_eq_canon arg8.view (harg8.unread xs1) _ hcov, trips_lit]
  exact acc1_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg8.read_unread]; exact hstart) hlane 64 le_rfl

/-- A continuing point, third accumulator. -/
theorem caseB_s2 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : ¬cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs2 (ix2 q 0) = prefixSum f M0)
    (hlane : ∀ (k : Fin k0_t1_loop.trips) (l : Fin 1024),
      k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_B_2 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_B_2
  have hcov := scover0_B_2 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_B
  dsimp only
  intro hcov
  rw [← View.read_writes_eq_canon arg9.view (harg9.unread xs2) _ hcov, trips_lit]
  exact acc2_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg9.read_unread]; exact hstart) hlane 64 le_rfl

/-- A batch's last point, first accumulator. -/
theorem caseC_s0 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs0 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l) * k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_C_0 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_C_0
  have hcov := scover0_C_0 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_C
  dsimp only
  intro hcov
  rw [← View.read_writes_eq_canon arg7.view (harg7.unread xs0) _ hcov, trips_lit]
  exact acc0_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg7.read_unread]; exact hstart) hlane 64 le_rfl

/-- A batch's last point, second accumulator. -/
theorem caseC_s1 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs1 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l)
        = f ⟨(M0 + 1024 * k.val) + l.val, by have := l.isLt; have : k.val < 64 := lt_of_lt_of_eq k.isLt trips_eq; omega⟩) :
    sout0_C_1 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_C_1
  have hcov := scover0_C_1 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_C
  dsimp only
  intro hcov
  rw [← View.read_writes_eq_canon arg8.view (harg8.unread xs1) _ hcov, trips_lit]
  exact acc1_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg8.read_unread]; exact hstart) hlane 64 le_rfl

/-- A batch's last point, third accumulator. -/
theorem caseC_s2 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs2 (ix2 q 0) = prefixSum f M0)
    (hlane : ∀ (k : Fin k0_t1_loop.trips) (l : Fin 1024),
      k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_C_2 (F := Ideal) c i arg2 harg2 arg3 harg3 arg4 harg4 arg5 harg5 arg6 harg6 arg7 harg7 arg8 harg8 arg9 harg9 hc0 hc1 x0 x1 xs0 xs1 xs2 (ix2 q 0) = prefixSum f (M0 + 65536) := by
  unfold sout0_C_2
  have hcov := scover0_C_2 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  revert hcov
  unfold kernelRun0_C
  dsimp only
  intro hcov
  rw [← View.read_writes_eq_canon arg9.view (harg9.unread xs2) _ hcov, trips_lit]
  exact acc2_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg9.read_unread]; exact hstart) hlane 64 le_rfl

/-- The same count, spelt through the loop's record. -/
theorem trips_lit' : Scf.trips k0_t1_loop.lb k0_t1_loop.ub k0_t1_loop.st = 64 := by decide

/-- A whole [1, 16, 1] block's rectangle starts at the origin. -/
theorem origin3 : (![0, 0, 0] : Fin 3 → Nat) = fun _ => 0 := by
  funext a; match a with | ⟨0, _⟩ => rfl | ⟨1, _⟩ => rfl | ⟨2, _⟩ => rfl

/-- A batch's first point, first accumulator: cleared, then the loop. -/
theorem caseA_s0 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : cond0_0 i) (hc1 : ¬cond0_1 i)
    (x0 : Vec Ideal S1x16x65536 .f32) (x1 : Vec Ideal S1x1x65536 .i32) (f : Fin 1048576 → EReal) (M0 : ℕ) (hM0 : M0 + 65536 ≤ 1048576) (q : Fin 16) (hz : M0 = 0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l) * k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_A_0 (F := Ideal) c i arg2 harg2 arg3 harg3 arg4 harg4 arg5 harg5 arg6 harg6 arg7 harg7 arg8 harg8 arg9 harg9 hc0 hc1 x0 x1 (ix2 q 0) = prefixSum f (M0 + 65536) := by
  unfold sout0_A_0
  have hcov := scover0_A_0 (F := Ideal) c i arg2 harg2 arg3 harg3 arg4 harg4 arg5 harg5 arg6 harg6 arg7 harg7 arg8 harg8 arg9 harg9 hc0 hc1 x0 x1
  rw [View.read_writes_eq_canon _ _ _ hcov]
  revert hcov
  unfold kernelRun0_A
  dsimp only
  sl_unfold_words
  intro hcov
  rw [← View.read_writes_eq_canon arg7.view arg7.view.junk _ hcov, View.writes_append, trips_lit]
  refine acc0_closed c i arg2 harg2 arg3 harg3 arg4 harg4 arg5 harg5 arg6 harg6 arg7 harg7 arg8 harg8 arg9 harg9 (harg2.unread x0) (harg3.unread x1) _ _ _ f M0 hM0 q ?_ hlane 64 le_rfl
  rw [View.read_writes_eq_canon _ _ _ (fun y => ⟨_, List.mem_singleton_self _, View.mem_set_unit_zero origin2 Facts₀.inb_S16x1_S16x1_0_0 y⟩),
    View.canon_unit_zero origin2, hz, prefixSum_zero]
  exact pay1_apply q

/-- A batch's first point, second accumulator: cleared, then the loop. -/
theorem caseA_s1 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : cond0_0 i) (hc1 : ¬cond0_1 i)
    (x0 : Vec Ideal S1x16x65536 .f32) (x1 : Vec Ideal S1x1x65536 .i32) (f : Fin 1048576 → EReal) (M0 : ℕ) (hM0 : M0 + 65536 ≤ 1048576) (q : Fin 16) (hz : M0 = 0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l)
        = f ⟨(M0 + 1024 * k.val) + l.val, by have := l.isLt; have : k.val < 64 := lt_of_lt_of_eq k.isLt trips_eq; omega⟩) :
    sout0_A_1 (F := Ideal) c i arg2 harg2 arg3 harg3 arg4 harg4 arg5 harg5 arg6 harg6 arg7 harg7 arg8 harg8 arg9 harg9 hc0 hc1 x0 x1 (ix2 q 0) = prefixSum f (M0 + 65536) := by
  unfold sout0_A_1
  have hcov := scover0_A_1 (F := Ideal) c i arg2 harg2 arg3 harg3 arg4 harg4 arg5 harg5 arg6 harg6 arg7 harg7 arg8 harg8 arg9 harg9 hc0 hc1 x0 x1
  rw [View.read_writes_eq_canon _ _ _ hcov]
  revert hcov
  unfold kernelRun0_A
  dsimp only
  sl_unfold_words
  intro hcov
  rw [← View.read_writes_eq_canon arg8.view arg8.view.junk _ hcov, View.writes_append, trips_lit]
  refine acc1_closed c i arg2 harg2 arg3 harg3 arg4 harg4 arg5 harg5 arg6 harg6 arg7 harg7 arg8 harg8 arg9 harg9 (harg2.unread x0) (harg3.unread x1) _ _ _ f M0 hM0 q ?_ hlane 64 le_rfl
  rw [View.read_writes_eq_canon _ _ _ (fun y => ⟨_, List.mem_singleton_self _, View.mem_set_unit_zero origin2 Facts₀.inb_S16x1_S16x1_0_0 y⟩),
    View.canon_unit_zero origin2, hz, prefixSum_zero]
  exact pay2_apply q

/-- A batch's first point, third accumulator: cleared, then the loop. -/
theorem caseA_s2 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : cond0_0 i) (hc1 : ¬cond0_1 i)
    (x0 : Vec Ideal S1x16x65536 .f32) (x1 : Vec Ideal S1x1x65536 .i32) (f : Fin 1048576 → EReal) (M0 : ℕ) (hM0 : M0 + 65536 ≤ 1048576) (q : Fin 16) (hz : M0 = 0)
    (hlane : ∀ (k : Fin k0_t1_loop.trips) (l : Fin 1024),
      k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    sout0_A_2 (F := Ideal) c i arg2 harg2 arg3 harg3 arg4 harg4 arg5 harg5 arg6 harg6 arg7 harg7 arg8 harg8 arg9 harg9 hc0 hc1 x0 x1 (ix2 q 0) = prefixSum f (M0 + 65536) := by
  unfold sout0_A_2
  have hcov := scover0_A_2 (F := Ideal) c i arg2 harg2 arg3 harg3 arg4 harg4 arg5 harg5 arg6 harg6 arg7 harg7 arg8 harg8 arg9 harg9 hc0 hc1 x0 x1
  rw [View.read_writes_eq_canon _ _ _ hcov]
  revert hcov
  unfold kernelRun0_A
  dsimp only
  sl_unfold_words
  intro hcov
  rw [← View.read_writes_eq_canon arg9.view arg9.view.junk _ hcov, View.writes_append, trips_lit]
  refine acc2_closed c i arg2 harg2 arg3 harg3 arg4 harg4 arg5 harg5 arg6 harg6 arg7 harg7 arg8 harg8 arg9 harg9 (harg2.unread x0) (harg3.unread x1) _ _ _ f M0 hM0 q ?_ hlane 64 le_rfl
  rw [View.read_writes_eq_canon _ _ _ (fun y => ⟨_, List.mem_singleton_self _, View.mem_set_unit_zero origin2 Facts₀.inb_S16x1_S16x1_0_0 y⟩),
    View.canon_unit_zero origin2, hz, prefixSum_zero]
  exact pay3_apply q

/-- A batch's last point, output 2: the first accumulator written out. -/
theorem caseC_o2 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs0 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l) * k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    out0_C_2 (F := Ideal) c i arg2 harg2 arg3 harg3 arg4 harg4 arg5 harg5 arg6 harg6 arg7 harg7 arg8 harg8 arg9 harg9 hc0 hc1 x0 x1 xs0 xs1 xs2 (ix3 0 q 0) = prefixSum f (M0 + 65536) := by
  unfold out0_C_2
  have hcov := cover0_C_2 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  unfold kernelRun0_C
  dsimp only
  sl_unfold_words
  rw [View.canon_unit_zero origin3]
  refine (pay6_apply _ q).trans ?_
  rw [View.readAt_eq_ld, View.ld_unit_zero (S := S16x1) origin2, trips_lit']
  exact acc0_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg7.read_unread]; exact hstart) hlane 64 le_rfl

/-- A batch's last point, output 3: the second accumulator written out. -/
theorem caseC_o3 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs1 (ix2 q 0) = prefixSum f M0)
    (hlane : ∀ (k : Fin k0_t1_loop.trips) (l : Fin 1024),
      k0_pay9 (F := Ideal) (View.readAt (Elt Ideal) arg2.view (Rect.unit (s := S1x16x65536) (k0_off1 k) S1x16x1024.size (Facts₀.k0_off1_inb k)).toLoadRect (harg2.unread x0)) (ix2 q l)
        = f ⟨(M0 + 1024 * k.val) + l.val, by have := l.isLt; have : k.val < 64 := lt_of_lt_of_eq k.isLt trips_eq; omega⟩) :
    out0_C_3 (F := Ideal) c i arg2 harg2 arg3 harg3 arg4 harg4 arg5 harg5 arg6 harg6 arg7 harg7 arg8 harg8 arg9 harg9 hc0 hc1 x0 x1 xs0 xs1 xs2 (ix3 0 q 0) = prefixSum f (M0 + 65536) := by
  unfold out0_C_3
  have hcov := cover0_C_3 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  unfold kernelRun0_C
  dsimp only
  sl_unfold_words
  rw [View.canon_unit_zero origin3]
  refine (pay7_apply _ q).trans ?_
  rw [View.readAt_eq_ld, View.ld_unit_zero (S := S16x1) origin2, trips_lit']
  exact acc1_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg8.read_unread]; exact hstart) hlane 64 le_rfl

/-- A batch's last point, output 4: the third accumulator written out. -/
theorem caseC_o4 (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (hc0 : ¬cond0_0 i) (hc1 : cond0_1 i) (x0 : Vec Ideal S1x16x65536 .f32) (x1 : Vec Ideal S1x1x65536 .i32) (xs0 xs1 xs2 : Vec Ideal S16x1 .f32) (f : Fin 1048576 → EReal) (M0 : ℕ) (hM0 : M0 + 65536 ≤ 1048576) (q : Fin 16)
    (hstart : xs2 (ix2 q 0) = prefixSum f M0)
    (hlane : ∀ (k : Fin k0_t1_loop.trips) (l : Fin 1024),
      k0_pay10 (F := Ideal) (View.readAt (Elt Ideal) arg3.view (Rect.unit (s := S1x1x65536) (k0_off2 k) S1x1x1024.size (Facts₀.k0_off2_inb k)).toLoadRect (harg3.unread x1)) (ix2 q l)
        = f ⟨(M0 + 1024 * k.val) + l.val, by have := l.isLt; have : k.val < 64 := lt_of_lt_of_eq k.isLt trips_eq; omega⟩) :
    out0_C_4 (F := Ideal) c i arg2 harg2 arg3 harg3 arg4 harg4 arg5 harg5 arg6 harg6 arg7 harg7 arg8 harg8 arg9 harg9 hc0 hc1 x0 x1 xs0 xs1 xs2 (ix3 0 q 0) = prefixSum f (M0 + 65536) := by
  unfold out0_C_4
  have hcov := cover0_C_4 (F := Ideal) c i arg2 harg2 arg3 harg3 arg4 harg4 arg5 harg5 arg6 harg6 arg7 harg7 arg8 harg8 arg9 harg9 hc0 hc1 x0 x1 xs0 xs1 xs2
  rw [View.read_writes_eq_canon _ _ _ hcov]
  unfold kernelRun0_C
  dsimp only
  sl_unfold_words
  rw [View.canon_unit_zero origin3]
  refine (pay8_apply _ q).trans ?_
  rw [View.readAt_eq_ld, View.ld_unit_zero (S := S16x1) origin2, trips_lit']
  exact acc2_closed c i arg2 harg2 arg3 harg3 arg4 harg4 arg5 harg5 arg6 harg6 arg7 harg7 arg8 harg8 arg9 harg9 (harg2.unread x0) (harg3.unread x1) (harg7.unread xs0) (harg8.unread xs1) (harg9.unread xs2)
    f M0 hM0 q (by rw [harg9.read_unread]; exact hstart) hlane 64 le_rfl

end Cert.KernelIdeal.Acc

end
-- ==== Proof.Blocks.lean ====
/-
  Where the kernel's loads land in the flattened inputs. Grid point `t` of the 2 × 16 grid works on batch `t / 16`
  and on the `t % 16`-th run of 65536 voxels: its logits block is rows (batch, every class) at those voxels, its
  label block the batch's labels at those voxels; inside the block, trip `k` of the inner loop reads the slab of
  lanes `1024 k … 1024 k + 1023`. The arrays the region finds are the two inputs with their spatial axes merged.
-/
import proofs.«431347_j9182640079166_2_alg».proof.Proof.Gen.KernelIdeal.Frame
import proofs.«431347_j9182640079166_2_alg».proof.Proof.Flat
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blk

open Idealize.ShloMosaic Idealize.ShloMosaic.TcCoe Idealize.ShloMosaic.ValueIdx Idealize.SL.Sem
open Cert.KernelIdeal Cert.KernelIdeal.Gen Cert.Dice

variable (m : (ℓ : Loc nD τ sig) → Buf (Elt Ideal) ℓ)

/-- The batch a grid point works on. -/
def batchOf (t : Fin cfg0.N) : Fin 2 :=
  ⟨t.val / 16, by have h : t.val < 32 := lt_of_lt_of_eq t.isLt N_0; omega⟩

/-- The voxel a block position of a grid point stands for. -/
def voxelOf (t : Fin cfg0.N) (y : Fin 65536) : Fin 1048576 :=
  ⟨(t.val % 16) * 65536 + y.val, by have := y.isLt; have : t.val % 16 < 16 := Nat.mod_lt _ (by decide); omega⟩

/-- The block position a lane of a loop trip stands for. -/
def laneOf (k : Fin k0_t1_loop.trips) (l : Fin 1024) : Fin 65536 :=
  ⟨1024 * k.val + l.val, by have := l.isLt; have : k.val < 64 := Nat.lt_of_lt_of_le k.isLt k0_t1_abs.2.1; omega⟩

/-- The logits array the region finds is the logits input with its spatial axes merged. -/
theorem V_logits (c : Dev nD) :
    (V (F := Ideal) m c main_v0 : S2x16x1048576.Idx → EReal) = flatX (m ((c : Thread nD τ).loc main_arg0)) := by
  show StableHlo.after hostOps0 (fun b => m (c, b)) (Proc.devRef .tc main_v0) = _
  after_results
  rfl

/-- The label array the region finds is the merged label input with a unit class axis put in. -/
private theorem V_labels_fn (c : Dev nD) :
    (V (F := Ideal) m c main_v2 : S2x1x1048576.Idx → BitVec 32)
      = shapeCast S2x1x1048576 (flatT (m ((c : Thread nD τ).loc main_arg1))) shapeCasts_S2x1048576_S2x1x1048576 := by
  show StableHlo.after hostOps0 (fun b => m (c, b)) (Proc.devRef .tc main_v2) = _
  after_results
  rfl

/-- The label array the region finds, at (batch, 0, voxel), is the merged label input at (batch, voxel). -/
theorem V_labels (c : Dev nD) (b : Fin 2) (n : Fin 1048576) :
    (V (F := Ideal) m c main_v2 : S2x1x1048576.Idx → BitVec 32) (ix3 b 0 n)
      = flatT (m ((c : Thread nD τ).loc main_arg1)) (ix2 b n) := by
  rw [V_labels_fn]
  refine shapeCast_apply _ _ (ix3 b 0 n) (ix2 b n) ?_
  rewrite [Shape.rowMajor_val_two, Shape.rowMajor_val_three]
  show b.val * 1048576 + n.val = (b.val * 1 + 0) * 1048576 + n.val
  omega

/-- Where the logits window's block of a grid point sits: block (batch, 0, run). -/
private theorem idx0 : ∀ t : Fin cfg0.N, win0_0.index t (0 : Fin 3) = t.val / 16
    ∧ win0_0.index t (1 : Fin 3) = 0 ∧ win0_0.index t (2 : Fin 3) = t.val % 16 :=
  (by decide +kernel : ∀ t : Fin grid0.N, _)

/-- Where the label window's block of a grid point sits: block (batch, 0, run). -/
private theorem idx1 : ∀ t : Fin cfg0.N, win0_1.index t (0 : Fin 3) = t.val / 16
    ∧ win0_1.index t (1 : Fin 3) = 0 ∧ win0_1.index t (2 : Fin 3) = t.val % 16 :=
  (by decide +kernel : ∀ t : Fin grid0.N, _)

/-- A block of the logits window read off ANY array of the logits' merged shape: (0, class, position) of point `t`'s
    block is (batch, class, voxel) of the array. -/
private theorem blk0_read (A : S2x16x1048576.Idx → EReal) (t : Fin cfg0.N) (q : Fin 16) (y : Fin 65536) :
    (((cfg0.win 0).blk t).view.read (Elt Ideal) A : S1x16x65536.Idx → EReal) (ix3 0 q y)
      = A (ix3 (batchOf t) q (voxelOf t y)) := by
  show A (((cfg0.win 0).blk t).view.emb (ix3 0 q y)) = _
  obtain ⟨e0, e1, e2⟩ := idx0 t
  refine congrArg A (funext fun a => Fin.ext ?_)
  match a with
  | ⟨0, _⟩ => show win0_0.index t (0 : Fin 3) * 1 + 1 * 0 = t.val / 16; omega
  | ⟨1, _⟩ => show win0_0.index t (1 : Fin 3) * 16 + 1 * q.val = q.val; omega
  | ⟨2, _⟩ => show win0_0.index t (2 : Fin 3) * 65536 + 1 * y.val = (t.val % 16) * 65536 + y.val; omega

/-- A block of the label window read off ANY array of the labels' merged shape: (0, 0, position) of point `t`'s block
    is (batch, 0, voxel) of the array. -/
private theorem blk1_read (A : S2x1x1048576.Idx → BitVec 32) (t : Fin cfg0.N) (y : Fin 65536) :
    (((cfg0.win 1).blk t).view.read (Elt Ideal) A : S1x1x65536.Idx → BitVec 32) (ix3 0 0 y)
      = A (ix3 (batchOf t) 0 (voxelOf t y)) := by
  show A (((cfg0.win 1).blk t).view.emb (ix3 0 0 y)) = _
  obtain ⟨e0, e1, e2⟩ := idx1 t
  refine congrArg A (funext fun a => Fin.ext ?_)
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 65536 + 1 * y.val = (t.val % 16) * 65536 + y.val; omega

/-- The logits block of a grid point, at (0, class, position). -/
theorem iblk0_apply (c : Dev nD) (t : Fin cfg0.N) (q : Fin 16) (y : Fin 65536) :
    (iblk (F := Ideal) m c 0 t : S1x16x65536.Idx → EReal) (ix3 0 q y)
      = (V (F := Ideal) m c main_v0 : S2x16x1048576.Idx → EReal) (ix3 (batchOf t) q (voxelOf t y)) :=
  blk0_read (V (F := Ideal) m c main_v0) t q y

/-- The label block of a grid point, at (0, 0, position). -/
theorem iblk1_apply (c : Dev nD) (t : Fin cfg0.N) (y : Fin 65536) :
    (iblk (F := Ideal) m c 1 t : S1x1x65536.Idx → BitVec 32) (ix3 0 0 y)
      = (V (F := Ideal) m c main_v2 : S2x1x1048576.Idx → BitVec 32) (ix3 (batchOf t) 0 (voxelOf t y)) :=
  blk1_read (V (F := Ideal) m c main_v2) t y

/-- The logits slab trip `k` loads from a whole staging buffer holding the block `x0`. -/
theorem slab2_apply (arg2 : Memref sig .tc .vmem S1x16x65536 .f32) (harg2 : arg2.IsWhole) (x0 : Vec Ideal S1x16x65536 .f32)
    (k : Fin k0_t1_loop.trips) (q : Fin 16) (l : Fin 1024) :
    (View.readAt (Elt Ideal) arg2.view (Rect.unit (s := S1x16x65536) (k0_off1 k) S1x16x1024.size (Facts₀.k0_off1_inb k)).toLoadRect
        (harg2.unread x0) : S1x16x1024.Idx → EReal) (ix3 0 q l)
      = x0 (ix3 0 q (laneOf k l)) := by
  rw [View.readAt_apply, harg2.read_unread]
  have h0 : k0_off1 k (0 : Fin 3) = 0 := by rw [k0_off1_eq k]; rfl
  have h1 : k0_off1 k (1 : Fin 3) = 0 := by rw [k0_off1_eq k]; rfl
  have h2 : k0_off1 k (2 : Fin 3) = 1024 * k.val := by rw [k0_off1_eq k]; rfl
  refine congrArg x0 (funext fun a => Fin.ext ?_)
  match a with
  | ⟨0, _⟩ => show k0_off1 k (0 : Fin 3) + 1 * 0 = 0; omega
  | ⟨1, _⟩ => show k0_off1 k (1 : Fin 3) + 1 * q.val = q.val; omega
  | ⟨2, _⟩ => show k0_off1 k (2 : Fin 3) + 1 * l.val = 1024 * k.val + l.val; omega

/-- The label slab trip `k` loads from a whole staging buffer holding the block `x1`. -/
theorem slab3_apply (arg3 : Memref sig .tc .vmem S1x1x65536 .i32) (harg3 : arg3.IsWhole) (x1 : Vec Ideal S1x1x65536 .i32)
    (k : Fin k0_t1_loop.trips) (l : Fin 1024) :
    (View.readAt (Elt Ideal) arg3.view (Rect.unit (s := S1x1x65536) (k0_off2 k) S1x1x1024.size (Facts₀.k0_off2_inb k)).toLoadRect
        (harg3.unread x1) : S1x1x1024.Idx → BitVec 32) (ix3 0 0 l)
      = x1 (ix3 0 0 (laneOf k l)) := by
  rw [View.readAt_apply, harg3.read_unread]
  have h0 : k0_off2 k (0 : Fin 3) = 0 := by rw [k0_off2_eq k]; rfl
  have h1 : k0_off2 k (1 : Fin 3) = 0 := by rw [k0_off2_eq k]; rfl
  have h2 : k0_off2 k (2 : Fin 3) = 1024 * k.val := by rw [k0_off2_eq k]; rfl
  refine congrArg x1 (funext fun a => Fin.ext ?_)
  match a with
  | ⟨0, _⟩ => show k0_off2 k (0 : Fin 3) + 1 * 0 = 0; omega
  | ⟨1, _⟩ => show k0_off2 k (1 : Fin 3) + 1 * 0 = 0; omega
  | ⟨2, _⟩ => show k0_off2 k (2 : Fin 3) + 1 * l.val = 1024 * k.val + l.val; omega

end Cert.KernelIdeal.Blk

end
-- ==== Proof.KDefs.lean ====
/-
  Names for what the kernel's region reads: the logits array it finds (already flattened by the host code before
  it), its label array folded back to a [2, 1048576] table, and the three voxel functions whose sums over a batch's
  voxels are the three statistics of a (batch, class) cell.
-/
import proofs.«431347_j9182640079166_2_alg».proof.Proof.Gen.KernelIdeal.Frame
import proofs.«431347_j9182640079166_2_alg».proof.Proof.Flat

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Dice

variable (m : (ℓ : Loc nD τ sig) → Buf (Elt Ideal) ℓ)

/-- The logits array as the region finds it. -/
def logV (c : Dev nD) : SX.Idx → EReal := (V (F := Ideal) m c main_v0 : S2x16x1048576.Idx → EReal)

/-- The label array as the region finds it, without its unit axis. -/
def labV (c : Dev nD) : ST.Idx → BitVec 32 := fun j =>
  (V (F := Ideal) m c main_v2 : S2x1x1048576.Idx → BitVec 32) (ix3 (⟨(j 0).val, (j 0).isLt⟩ : Fin 2) (0 : Fin 1) (⟨(j 1).val, (j 1).isLt⟩ : Fin 1048576))

theorem labV_apply (c : Dev nD) (b : Fin 2) (n : Fin 1048576) :
    labV m c (ix2 b n) = (V (F := Ideal) m c main_v2 : S2x1x1048576.Idx → BitVec 32) (ix3 b 0 n) := rfl

/-- A voxel's contribution to the intersection of cell (b, q). -/
def fInter (c : Dev nD) (b : Fin 2) (q : Fin 16) : Fin 1048576 → EReal :=
  fun n => prob (logV m c) b q n * onehot (labV m c) b q n
/-- A voxel's contribution to the probability mass of cell (b, q). -/
def fPsum (c : Dev nD) (b : Fin 2) (q : Fin 16) : Fin 1048576 → EReal :=
  fun n => prob (logV m c) b q n
/-- A voxel's contribution to the label count of cell (b, q). -/
def fCount (c : Dev nD) (b : Fin 2) (q : Fin 16) : Fin 1048576 → EReal :=
  fun n => onehot (labV m c) b q n

end Cert.KernelIdeal.KV

end
-- ==== Proof.Grid.lean ====
/-
  The accumulators point by point. The grid visits the thirty-two points in order: sixteen for batch 0, then sixteen
  for batch 1; point `t` works on voxels `(t % 16) · 65536 …` of batch `t / 16`. By induction along the grid, after
  point `t` each accumulator's entry for class `q` is the sum of its voxel function over the voxels of the batch below
  `(t % 16) · 65536 + 65536`: a batch's first point starts from zero, a later one from what the point before left,
  and the lanes a point's loop reads are exactly its voxels. At a batch's last point the sums are over all the batch's
  voxels, and that is what the point writes out.
-/
import proofs.«431347_j9182640079166_2_alg».proof.Proof.Cases
import proofs.«431347_j9182640079166_2_alg».proof.Proof.Blocks
import proofs.«431347_j9182640079166_2_alg».proof.Proof.KDefs

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.StepValue Cert.KernelIdeal.Acc Cert.KernelIdeal.Blk Cert.Dice

/-- A lane's probability, for a block whose entries are an array's at the positions `vox`. -/
theorem lane_prob_gen (arg2 : Memref sig .tc .vmem S1x16x65536 .f32) (harg2 : arg2.IsWhole) (x0 : Vec Ideal S1x16x65536 .f32)
    (X : SX.Idx → EReal) (b : Fin 2) (vox : Fin 65536 → Fin 1048576)
    (hx : ∀ (c' : Fin 16) (y : Fin 65536), x0 (ix3 0 c' y) = X (ix3 b c' (vox y)))
    (k : Fin k0_t1_loop.trips) (l : Fin 1024) (q : Fin 16) :
    k0_pay9 (F := Ideal) (View.readAt (Elt Ideal) arg2.view (Rect.unit (s := S1x16x65536) (k0_off1 k) S1x16x1024.size (Facts₀.k0_off1_inb k)).toLoadRect (harg2.unread x0)) (ix2 q l) = prob X b q (vox (laneOf k l)) := by
  refine (pay9_apply _ q l).trans ?_
  simp only [slab2_apply arg2 harg2 x0, hx]
  rfl

/-- A lane's label indicator, for a label block whose entries are a table's at the positions `vox`. -/
theorem lane_hot_gen (arg3 : Memref sig .tc .vmem S1x1x65536 .i32) (harg3 : arg3.IsWhole) (x1 : Vec Ideal S1x1x65536 .i32)
    (T : ST.Idx → BitVec 32) (b : Fin 2) (vox : Fin 65536 → Fin 1048576)
    (hx : ∀ (y : Fin 65536), x1 (ix3 0 0 y) = T (ix2 b (vox y)))
    (k : Fin k0_t1_loop.trips) (l : Fin 1024) (q : Fin 16) :
    k0_pay10 (F := Ideal) (View.readAt (Elt Ideal) arg3.view (Rect.unit (s := S1x1x65536) (k0_off2 k) S1x1x1024.size (Facts₀.k0_off2_inb k)).toLoadRect (harg3.unread x1)) (ix2 q l) = onehot T b q (vox (laneOf k l)) := by
  refine (pay10_apply _ q l).trans ?_
  simp only [slab3_apply arg3 harg3 x1, hx]
  rfl

variable (m : (ℓ : Loc nD τ sig) → Buf (Elt Ideal) ℓ)

/-- The voxel a lane of a trip at a grid point stands for, by position. -/
theorem vox_lane (t : Fin cfg0.N) (k : Fin k0_t1_loop.trips) (l : Fin 1024) (h) :
    (⟨((t.val % 16) * 65536 + 1024 * k.val) + l.val, h⟩ : Fin 1048576) = voxelOf t (laneOf k l) :=
  Fin.ext (Nat.add_assoc _ _ _)

/-- The logits block of a point against the array. -/
theorem blk0_at (c : Dev nD) (t : Fin cfg0.N) (c' : Fin 16) (y : Fin 65536) :
    (iblk (F := Ideal) m c 0 t : S1x16x65536.Idx → EReal) (ix3 0 c' y) = logV m c (ix3 (batchOf t) c' (voxelOf t y)) :=
  iblk0_apply m c t c' y

/-- The label block of a point against the table. -/
theorem blk1_at (c : Dev nD) (t : Fin cfg0.N) (y : Fin 65536) :
    (iblk (F := Ideal) m c 1 t : S1x1x65536.Idx → BitVec 32) (ix3 0 0 y) = labV m c (ix2 (batchOf t) (voxelOf t y)) :=
  iblk1_apply m c t y

/-- What a lane contributes to the intersection at a grid point. -/
theorem hlane0 (c : Dev nD) (t : Fin cfg0.N) (q : Fin 16) (k : Fin k0_t1_loop.trips) (l : Fin 1024) :
    k0_pay9 (F := Ideal) (View.readAt (Elt Ideal) (ms0_0 t).view (Rect.unit (s := S1x16x65536) (k0_off1 k) S1x16x1024.size (Facts₀.k0_off1_inb k)).toLoadRect ((hs0_0 t).unread (iblk (F := Ideal) m c 0 t))) (ix2 q l) * k0_pay10 (F := Ideal) (View.readAt (Elt Ideal) (ms0_1 t).view (Rect.unit (s := S1x1x65536) (k0_off2 k) S1x1x1024.size (Facts₀.k0_off2_inb k)).toLoadRect ((hs0_1 t).unread (iblk (F := Ideal) m c 1 t))) (ix2 q l)
      = fInter m c (batchOf t) q ⟨((t.val % 16) * 65536 + 1024 * k.val) + l.val, by have := l.isLt; have : k.val < 64 := lt_of_lt_of_eq k.isLt trips_eq; have : t.val % 16 < 16 := Nat.mod_lt _ (by decide); omega⟩ := by
  rw [vox_lane t k l, lane_prob_gen (ms0_0 t) (hs0_0 t) (iblk (F := Ideal) m c 0 t) (logV m c) (batchOf t) (voxelOf t) (blk0_at m c t) k l q, lane_hot_gen (ms0_1 t) (hs0_1 t) (iblk (F := Ideal) m c 1 t) (labV m c) (batchOf t) (voxelOf t) (blk1_at m c t) k l q]
  rfl

/-- What a lane contributes to the probability mass at a grid point. -/
theorem hlane1 (c : Dev nD) (t : Fin cfg0.N) (q : Fin 16) (k : Fin k0_t1_loop.trips) (l : Fin 1024) :
    k0_pay9 (F := Ideal) (View.readAt (Elt Ideal) (ms0_0 t).view (Rect.unit (s := S1x16x65536) (k0_off1 k) S1x16x1024.size (Facts₀.k0_off1_inb k)).toLoadRect ((hs0_0 t).unread (iblk (F := Ideal) m c 0 t))) (ix2 q l)
      = fPsum m c (batchOf t) q ⟨((t.val % 16) * 65536 + 1024 * k.val) + l.val, by have := l.isLt; have : k.val < 64 := lt_of_lt_of_eq k.isLt trips_eq; have : t.val % 16 < 16 := Nat.mod_lt _ (by decide); omega⟩ := by
  rw [vox_lane t k l, lane_prob_gen (ms0_0 t) (hs0_0 t) (iblk (F := Ideal) m c 0 t) (logV m c) (batchOf t) (voxelOf t) (blk0_at m c t) k l q]
  rfl

/-- What a lane contributes to the label count at a grid point. -/
theorem hlane2 (c : Dev nD) (t : Fin cfg0.N) (q : Fin 16) (k : Fin k0_t1_loop.trips) (l : Fin 1024) :
    k0_pay10 (F := Ideal) (View.readAt (Elt Ideal) (ms0_1 t).view (Rect.unit (s := S1x1x65536) (k0_off2 k) S1x1x1024.size (Facts₀.k0_off2_inb k)).toLoadRect ((hs0_1 t).unread (iblk (F := Ideal) m c 1 t))) (ix2 q l)
      = fCount m c (batchOf t) q ⟨((t.val % 16) * 65536 + 1024 * k.val) + l.val, by have := l.isLt; have : k.val < 64 := lt_of_lt_of_eq k.isLt trips_eq; have : t.val % 16 < 16 := Nat.mod_lt _ (by decide); omega⟩ := by
  rw [vox_lane t k l, lane_hot_gen (ms0_1 t) (hs0_1 t) (iblk (F := Ideal) m c 1 t) (labV m c) (batchOf t) (voxelOf t) (blk1_at m c t) k l q]
  rfl

/-- A point's voxels end inside the batch. -/
theorem hM0 (t : Fin cfg0.N) : (t.val % 16) * 65536 + 65536 ≤ 1048576 := by
  have : t.val % 16 < 16 := Nat.mod_lt _ (by decide); omega

/-- After a batch's first point. -/
theorem stepA (c : Dev nD) (t : Fin cfg0.N) (h0 : t.val % 16 = 0) (q : Fin 16) :
    ((outsAt0 (F := Ideal) m c t.val t.isLt).2.2.2.1 : S16x1.Idx → EReal) (ix2 q 0)
        = prefixSum (fInter m c (batchOf t) q) ((t.val % 16) * 65536 + 65536)
    ∧ ((outsAt0 (F := Ideal) m c t.val t.isLt).2.2.2.2.1 : S16x1.Idx → EReal) (ix2 q 0)
        = prefixSum (fPsum m c (batchOf t) q) ((t.val % 16) * 65536 + 65536)
    ∧ ((outsAt0 (F := Ideal) m c t.val t.isLt).2.2.2.2.2 : S16x1.Idx → EReal) (ix2 q 0)
        = prefixSum (fCount m c (batchOf t) q) ((t.val % 16) * 65536 + 65536) := by
  have h1 : ¬t.val % 16 = 15 := by omega
  have hz : (t.val % 16) * 65536 = 0 := by omega
  rw [outsAt0_A m c t h0 h1]
  dsimp only
  exact ⟨caseA_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t)
      (fInter m c (batchOf t) q) ((t.val % 16) * 65536) (hM0 t) q hz (hlane0 m c t q),
    caseA_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t)
      (fPsum m c (batchOf t) q) ((t.val % 16) * 65536) (hM0 t) q hz (hlane1 m c t q),
    caseA_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk (F := Ideal) m c 0 t) (iblk (F := Ideal) m c 1 t)
      (fCount m c (batchOf t) q) ((t.val % 16) * 65536) (hM0 t) q hz (hlane2 m c t q)⟩

/-- After a continuing point, from what the point before left. -/
theorem stepB (c : Dev nD) (t : Fin cfg0.N) (h0 : ¬t.val % 16 = 0) (h1 : ¬t.val % 16 = 15) (q : Fin 16)
    (hlt : t.val - 1 < cfg0.N)
    (ih0 : ((outsAt0 (F := Ideal) m c (t.val - 1) hlt).2.2.2.1 : S16x1.Idx → EReal) (ix2 q 0) = prefixSum (fInter m c (batchOf t) q) ((t.val % 16) * 65536))
    (ih1 : ((outsAt0 (F := Ideal) m c (t.val - 1) hlt).2.2.2.2.1 : S16x1.Idx → EReal) (ix2 q 0) = prefixSum (fPsum m c (batchOf t) q) ((t.val % 16) * 65536))
    (ih2 : ((outsAt0 (F := Ideal) m c (t.val - 1) hlt).2.2.2.2.2 : S16x1.Idx → EReal) (ix2 q 0) = prefixSum (fCount m c (batchOf t) q) ((t.val % 16) * 65536)) :
    ((outsAt0 (F := Ideal) m c t.val t.isLt).2.2.2.1 : S16x1.Idx → EReal) (ix2 q 0)
        = prefixSum (fInter m c (batchOf t) q) ((t.val % 16) * 65536 + 65536)
    ∧ ((outsAt0 (F := Ideal) m c t.val t.isLt).2.2.2.2.1 : S16x1.Idx → EReal) (ix2 q 0)
        = prefixSum (fPsum m c (batchOf t) q) ((t.val % 16) * 65536 + 65536)
    ∧ ((outsAt0 (F := Ideal) m c t.val t.isLt).2.2.2.2.2 : S16x1.Idx → EReal) (ix2 q 0)
        = prefixSum (fCount m c (batchOf t) q) ((t.val % 16) * 65536 + 65536) := by
  rw [outsAt0_B m c t h0 h1]
  dsimp only
  exact ⟨caseB_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fInter m c (batchOf t) q) ((t.val % 16) * 65536) (hM0 t) q ih0 (hlane0 m c t q),
    caseB_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fPsum m c (batchOf t) q) ((t.val % 16) * 65536) (hM0 t) q ih1 (hlane1 m c t q),
    caseB_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fCount m c (batchOf t) q) ((t.val % 16) * 65536) (hM0 t) q ih2 (hlane2 m c t q)⟩

/-- After a batch's last point: the accumulators, and the three outputs it writes. -/
theorem stepC (c : Dev nD) (t : Fin cfg0.N) (h0 : ¬t.val % 16 = 0) (h1 : t.val % 16 = 15) (q : Fin 16)
    (hlt : t.val - 1 < cfg0.N)
    (ih0 : ((outsAt0 (F := Ideal) m c (t.val - 1) hlt).2.2.2.1 : S16x1.Idx → EReal) (ix2 q 0) = prefixSum (fInter m c (batchOf t) q) ((t.val % 16) * 65536))
    (ih1 : ((outsAt0 (F := Ideal) m c (t.val - 1) hlt).2.2.2.2.1 : S16x1.Idx → EReal) (ix2 q 0) = prefixSum (fPsum m c (batchOf t) q) ((t.val % 16) * 65536))
    (ih2 : ((outsAt0 (F := Ideal) m c (t.val - 1) hlt).2.2.2.2.2 : S16x1.Idx → EReal) (ix2 q 0) = prefixSum (fCount m c (batchOf t) q) ((t.val % 16) * 65536)) :
    (((outsAt0 (F := Ideal) m c t.val t.isLt).2.2.2.1 : S16x1.Idx → EReal) (ix2 q 0)
        = prefixSum (fInter m c (batchOf t) q) ((t.val % 16) * 65536 + 65536)
    ∧ ((outsAt0 (F := Ideal) m c t.val t.isLt).2.2.2.2.1 : S16x1.Idx → EReal) (ix2 q 0)
        = prefixSum (fPsum m c (batchOf t) q) ((t.val % 16) * 65536 + 65536)
    ∧ ((outsAt0 (F := Ideal) m c t.val t.isLt).2.2.2.2.2 : S16x1.Idx → EReal) (ix2 q 0)
        = prefixSum (fCount m c (batchOf t) q) ((t.val % 16) * 65536 + 65536))
    ∧ (((outsAt0 (F := Ideal) m c t.val t.isLt).1 : S1x16x1.Idx → EReal) (ix3 0 q 0)
        = prefixSum (fInter m c (batchOf t) q) ((t.val % 16) * 65536 + 65536)
    ∧ ((outsAt0 (F := Ideal) m c t.val t.isLt).2.1 : S1x16x1.Idx → EReal) (ix3 0 q 0)
        = prefixSum (fPsum m c (batchOf t) q) ((t.val % 16) * 65536 + 65536)
    ∧ ((outsAt0 (F := Ideal) m c t.val t.isLt).2.2.1 : S1x16x1.Idx → EReal) (ix3 0 q 0)
        = prefixSum (fCount m c (batchOf t) q) ((t.val % 16) * 65536 + 65536)) := by
  rw [outsAt0_C m c t h0 h1]
  dsimp only
  exact ⟨⟨caseC_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fInter m c (batchOf t) q) ((t.val % 16) * 65536) (hM0 t) q ih0 (hlane0 m c t q),
    caseC_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fPsum m c (batchOf t) q) ((t.val % 16) * 65536) (hM0 t) q ih1 (hlane1 m c t q),
    caseC_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fCount m c (batchOf t) q) ((t.val % 16) * 65536) (hM0 t) q ih2 (hlane2 m c t q)⟩,
    caseC_o2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fInter m c (batchOf t) q) ((t.val % 16) * 65536) (hM0 t) q ih0 (hlane0 m c t q),
    caseC_o3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fPsum m c (batchOf t) q) ((t.val % 16) * 65536) (hM0 t) q ih1 (hlane1 m c t q),
    caseC_o4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk (F := Ideal) m c 0 t) (iblk (F := Ideal) m c 1 t)
      (outsAt0 (F := Ideal) m c (t.val - 1) hlt).2.2.2.1 (outsAt0 (F := Ideal) m c (t.val - 1) hlt).2.2.2.2.1 (outsAt0 (F := Ideal) m c (t.val - 1) hlt).2.2.2.2.2
      (fCount m c (batchOf t) q) ((t.val % 16) * 65536) (hM0 t) q ih2 (hlane2 m c t q)⟩

/-- THE INVARIANT along the grid: after point `n` each accumulator's entry for class `q` is the sum of its voxel
    function over the batch's voxels up to the end of the point's run. -/
theorem scratch_inv (c : Dev nD) : ∀ (n : ℕ) (hn : n < cfg0.N) (q : Fin 16),
    ((outsAt0 (F := Ideal) m c n hn).2.2.2.1 : S16x1.Idx → EReal) (ix2 q 0)
        = prefixSum (fInter m c (batchOf ⟨n, hn⟩) q) ((n % 16) * 65536 + 65536)
    ∧ ((outsAt0 (F := Ideal) m c n hn).2.2.2.2.1 : S16x1.Idx → EReal) (ix2 q 0)
        = prefixSum (fPsum m c (batchOf ⟨n, hn⟩) q) ((n % 16) * 65536 + 65536)
    ∧ ((outsAt0 (F := Ideal) m c n hn).2.2.2.2.2 : S16x1.Idx → EReal) (ix2 q 0)
        = prefixSum (fCount m c (batchOf ⟨n, hn⟩) q) ((n % 16) * 65536 + 65536) := by
  intro n
  induction n with
  | zero =>
    intro hn q
    exact stepA m c ⟨0, hn⟩ (Nat.zero_mod 16) q
  | succ n ih =>
    intro hn q
    by_cases h0 : (n + 1) % 16 = 0
    · exact stepA m c ⟨n + 1, hn⟩ h0 q
    · have hn' : n < cfg0.N := Nat.lt_of_succ_lt hn
      have ihn := ih hn' q
      have hb : batchOf ⟨n, hn'⟩ = batchOf ⟨n + 1, hn⟩ := Fin.ext (by show n / 16 = (n + 1) / 16; omega)
      have hM : (n % 16) * 65536 + 65536 = ((n + 1) % 16) * 65536 := by omega
      rw [hb, hM] at ihn
      by_cases h1 : (n + 1) % 16 = 15
      · exact (stepC m c ⟨n + 1, hn⟩ h0 h1 q hn' ihn.1 ihn.2.1 ihn.2.2).1
      · exact stepB m c ⟨n + 1, hn⟩ h0 h1 q hn' ihn.1 ihn.2.1 ihn.2.2

/-- What a batch's last point writes out, the point given as a successor. -/
theorem outs_last_succ (c : Dev nD) (n : ℕ) (hn : n + 1 < cfg0.N) (h15 : (n + 1) % 16 = 15) (q : Fin 16) :
    ((outsAt0 (F := Ideal) m c (n + 1) hn).1 : S1x16x1.Idx → EReal) (ix3 0 q 0)
        = interAt (logV m c) (labV m c) (batchOf ⟨n + 1, hn⟩) q
    ∧ ((outsAt0 (F := Ideal) m c (n + 1) hn).2.1 : S1x16x1.Idx → EReal) (ix3 0 q 0)
        = psumAt (logV m c) (batchOf ⟨n + 1, hn⟩) q
    ∧ ((outsAt0 (F := Ideal) m c (n + 1) hn).2.2.1 : S1x16x1.Idx → EReal) (ix3 0 q 0)
        = tcountAt (labV m c) (batchOf ⟨n + 1, hn⟩) q := by
  have h0 : ¬(n + 1) % 16 = 0 := by omega
  have hn' : n < cfg0.N := Nat.lt_of_succ_lt hn
  have hb : batchOf ⟨n, hn'⟩ = batchOf ⟨n + 1, hn⟩ := Fin.ext (by show n / 16 = (n + 1) / 16; omega)
  have hM : (n % 16) * 65536 + 65536 = ((n + 1) % 16) * 65536 := by omega
  have hfull' : ((n + 1) % 16) * 65536 + 65536 = 1048576 := by rw [h15]
  have hfull : ((⟨n + 1, hn⟩ : Fin cfg0.N).val % 16) * 65536 + 65536 = 1048576 := hfull'
  have ihn := scratch_inv m c n hn' q
  rw [hb, hM] at ihn
  have hC := (stepC m c ⟨n + 1, hn⟩ h0 h15 q hn' ihn.1 ihn.2.1 ihn.2.2).2
  rw [hfull, prefixSum_full, prefixSum_full, prefixSum_full] at hC
  exact hC

/-- What a batch's last point writes out: the three statistics of each of the batch's cells. -/
theorem outs_last (c : Dev nD) (t : Fin cfg0.N) (h15 : t.val % 16 = 15) (q : Fin 16) :
    ((outsAt0 (F := Ideal) m c t.val t.isLt).1 : S1x16x1.Idx → EReal) (ix3 0 q 0) = interAt (logV m c) (labV m c) (batchOf t) q
    ∧ ((outsAt0 (F := Ideal) m c t.val t.isLt).2.1 : S1x16x1.Idx → EReal) (ix3 0 q 0) = psumAt (logV m c) (batchOf t) q
    ∧ ((outsAt0 (F := Ideal) m c t.val t.isLt).2.2.1 : S1x16x1.Idx → EReal) (ix3 0 q 0) = tcountAt (labV m c) (batchOf t) q := by
  obtain ⟨tv, ht⟩ := t
  cases tv with
  | zero => exact absurd h15 (by show ¬((0 : ℕ) % 16 = 15); decide)
  | succ n => exact outs_last_succ m c n ht h15 q

end Cert.KernelIdeal.KV

end
-- ==== Proof.KTail.lean ====
/-
  The kernel's host code after the region. It takes the region's three [2, 16, 1] output arrays, drops their unit
  axis, and applies the common last stretch (dice ratio, class-0 mask, mean, one minus); nothing else reaches the
  result.
-/
import proofs.«431347_j9182640079166_2_alg».proof.Proof.Gen.KernelIdeal.Frame
import proofs.«431347_j9182640079166_2_alg».proof.Proof.Tail
import Idealize.ShloMosaic.Lib.StableHlo.Run
import Idealize.ShloMosaic.PureOps.Ideal
import Idealize.ShloMosaic.Lib.Pipeline.Value

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The host code after the region, from ANY contents `W` of the buffers: its result is the common last stretch of the
    three region outputs as `W` holds them, their unit axis dropped. Nothing else of `W` is read. -/
private theorem tail_after {F : FTy → Type} [FloatOps F] (W : Valuation τ sig (Elt F)) :
    StableHlo.after (hostOps1 (F := F)) W (Proc.devRef .tc main_v23)
      = diceTail (F := F)
          (shapeCast S2x16 (W (Proc.devRef .tc main_v3_0) : (⟨S2x16x1, .f32⟩ : BufTy).Contents (Elt F)) Facts₀.shapeCasts_S2x16x1_S2x16)
          (shapeCast S2x16 (W (Proc.devRef .tc main_v3_1) : (⟨S2x16x1, .f32⟩ : BufTy).Contents (Elt F)) Facts₀.shapeCasts_S2x16x1_S2x16)
          (shapeCast S2x16 (W (Proc.devRef .tc main_v3_2) : (⟨S2x16x1, .f32⟩ : BufTy).Contents (Elt F)) Facts₀.shapeCasts_S2x16x1_S2x16) := by
  after_results
  unfold diceTail
  rfl

/-- The result buffer after the host code that follows the region: the common last stretch of the three output arrays
    as the region leaves them, their unit axis dropped. -/
theorem kernel_tail (c : Dev nD) :
    Pipeline.afterTail₀ cfgs (dats (F := Ideal) m) 0 (V0 m) [hostOps1] c main_v23
      = diceTail (F := Ideal)
          (shapeCast S2x16 ((dats (F := Ideal) m 0 c).arrAt 2 cfg0.N : S2x16x1.Idx → EReal) Facts₀.shapeCasts_S2x16x1_S2x16)
          (shapeCast S2x16 ((dats (F := Ideal) m 0 c).arrAt 3 cfg0.N : S2x16x1.Idx → EReal) Facts₀.shapeCasts_S2x16x1_S2x16)
          (shapeCast S2x16 ((dats (F := Ideal) m 0 c).arrAt 4 cfg0.N : S2x16x1.Idx → EReal) Facts₀.shapeCasts_S2x16x1_S2x16) := by
  -- the contents the region leaves: its five arrays as the proof data gives them, every other buffer as before it
  have h := tail_after (F := Ideal)
    (Pipeline.withArrays spec0 c (V0 m c) fun w => (dats (F := Ideal) m 0 c).arrAt w cfg0.N)
  -- the three outputs are arrays 2, 3 and 4 of the region
  have e2 : Pipeline.withArrays spec0 c (V0 m c) (fun w => (dats (F := Ideal) m 0 c).arrAt w cfg0.N)
      (Proc.devRef .tc main_v3_0) = (dats (F := Ideal) m 0 c).arrAt 2 cfg0.N :=
    Pipeline.withArrays_arr spec0 launch0.win.arr_inj c _ _ (2 : Fin 5)
  have e3 : Pipeline.withArrays spec0 c (V0 m c) (fun w => (dats (F := Ideal) m 0 c).arrAt w cfg0.N)
      (Proc.devRef .tc main_v3_1) = (dats (F := Ideal) m 0 c).arrAt 3 cfg0.N :=
    Pipeline.withArrays_arr spec0 launch0.win.arr_inj c _ _ (3 : Fin 5)
  have e4 : Pipeline.withArrays spec0 c (V0 m c) (fun w => (dats (F := Ideal) m 0 c).arrAt w cfg0.N)
      (Proc.devRef .tc main_v3_2) = (dats (F := Ideal) m 0 c).arrAt 4 cfg0.N :=
    Pipeline.withArrays_arr spec0 launch0.win.arr_inj c _ _ (4 : Fin 5)
  rw [e2, e3, e4] at h
  exact h

end Cert.KernelIdeal.KV

end
-- ==== Proof.KFinal.lean ====
/-
  From what the points write to the kernel's result. Only a batch's last point writes the three output blocks back,
  and the two last points' blocks are the two batch rows of each [2, 16, 1] output array; so each output array ends
  holding, cell by cell, the statistic the accumulators reached at the batch's last point. The host code after the
  region then applies the common last stretch, and the arrays the region read are the flattened inputs.
-/
import proofs.«431347_j9182640079166_2_alg».proof.Proof.Grid
import proofs.«431347_j9182640079166_2_alg».proof.Proof.KTail

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Blk Cert.Dice

variable (m : (ℓ : Loc nD τ sig) → Buf (Elt Ideal) ℓ)

/-- Where the intersection window's block of a grid point sits: block (batch, 0, 0). -/
private theorem idx2 : ∀ t : Fin cfg0.N, win0_2.index t (0 : Fin 3) = t.val / 16
    ∧ win0_2.index t (1 : Fin 3) = 0 ∧ win0_2.index t (2 : Fin 3) = 0 :=
  (by decide +kernel : ∀ t : Fin grid0.N, _)

/-- The intersection window's block is written back exactly at a batch's last point. -/
private theorem flush2_iff : ∀ t : Fin cfg0.N, (cfg0.win 2).flush t = true ↔ t.val % 16 = 15 :=
  (by decide +kernel : ∀ t : Fin grid0.N, _)

/-- The intersection array after the region, from what a batch's last point leaves in its block: the last point of batch
    `b` writes row `b` of the array, and the two rows are the whole array. -/
private theorem final_gen2 (c : Dev nD) (g : Fin 2 → Fin 16 → EReal)
    (hg : ∀ t : Fin cfg0.N, t.val % 16 = 15 → ∀ q : Fin 16,
      ((outsAt0 (F := Ideal) m c t.val t.isLt).1 : S1x16x1.Idx → EReal) (ix3 0 q 0) = g (batchOf t) q) :
    ((dats (F := Ideal) m 0 c).arrAt 2 cfg0.N : S2x16x1.Idx → EReal)
      = fun i => g ⟨(i 0).val, (i 0).isLt⟩ ⟨(i 1).val, (i 1).isLt⟩ := by
  refine (dats (F := Ideal) m 0 c).arrAt_eq_of_cover 2
    (fun i : S2x16x1.Idx => g ⟨(i 0).val, (i 0).isLt⟩ ⟨(i 1).val, (i 1).isLt⟩) ?_ ?_
  · -- what a writing point writes is its block of the table
    intro t hf
    have h15 : t.val % 16 = 15 := (flush2_iff t).mp hf
    obtain ⟨e0, e1, e2⟩ := idx2 t
    show ((cfg0.win 2).cut (grid0.coords t) ((dats (F := Ideal) m 0 c).after 2 t) : S1x16x1.Idx → EReal)
      = (((cfg0.win 2).blk t).view.read (Elt Ideal)
          (fun i : S2x16x1.Idx => g ⟨(i 0).val, (i 0).isLt⟩ ⟨(i 1).val, (i 1).isLt⟩) : S1x16x1.Idx → EReal)
    rw [after0_2]
    funext y
    obtain ⟨a, q, z, rfl⟩ : ∃ (a : Fin 1) (q : Fin 16) (z : Fin 1), y = ix3 a q z := ⟨y 0, y 1, y 2, eq_ix3 y⟩
    obtain rfl : a = 0 := Subsingleton.elim _ _
    obtain rfl : z = 0 := Subsingleton.elim _ _
    refine (hg t h15 q).trans ?_
    show g (batchOf t) q
      = g ⟨((((cfg0.win 2).blk t).view.emb (ix3 (0 : Fin 1) q (0 : Fin 1))) 0).val, _⟩
          ⟨((((cfg0.win 2).blk t).view.emb (ix3 (0 : Fin 1) q (0 : Fin 1))) 1).val, _⟩
    congr 1
    · exact Fin.ext (show t.val / 16 = win0_2.index t (0 : Fin 3) * 1 + 1 * 0 by omega)
    · exact Fin.ext (show q.val = win0_2.index t (1 : Fin 3) * 16 + 1 * q.val by omega)
  · -- every cell of the array lies in the block of its batch's last point
    intro (i : S2x16x1.Idx)
    have hi0 : (i 0).val < 2 := (i 0).isLt
    have hi1 : (i 1).val < 16 := (i 1).isLt
    have hi2 : (i 2).val < 1 := (i 2).isLt
    have hN : 16 * (i 0).val + 15 < cfg0.N := by rw [show cfg0.N = 32 from N_0]; omega
    refine ⟨⟨16 * (i 0).val + 15, hN⟩, (flush2_iff _).mpr (show (16 * (i 0).val + 15) % 16 = 15 by omega), ?_⟩
    obtain ⟨e0, e1, e2⟩ := idx2 ⟨16 * (i 0).val + 15, hN⟩
    have e0' : win0_2.index ⟨16 * (i 0).val + 15, hN⟩ (0 : Fin 3) = (16 * (i 0).val + 15) / 16 := e0
    show i ∈ ((View.whole main_v3_0).slice (win0_2.rect ⟨16 * (i 0).val + 15, hN⟩)).set
    rw [View.set_slice_whole, Rect.mem_set_unit]
    intro a
    match a with
    | ⟨0, _⟩ =>
      show win0_2.index ⟨16 * (i 0).val + 15, hN⟩ (0 : Fin 3) * 1 ≤ (i 0).val
        ∧ (i 0).val < win0_2.index ⟨16 * (i 0).val + 15, hN⟩ (0 : Fin 3) * 1 + 1
      omega
    | ⟨1, _⟩ =>
      show win0_2.index ⟨16 * (i 0).val + 15, hN⟩ (1 : Fin 3) * 16 ≤ (i 1).val
        ∧ (i 1).val < win0_2.index ⟨16 * (i 0).val + 15, hN⟩ (1 : Fin 3) * 16 + 16
      omega
    | ⟨2, _⟩ =>
      show win0_2.index ⟨16 * (i 0).val + 15, hN⟩ (2 : Fin 3) * 1 ≤ (i 2).val
        ∧ (i 2).val < win0_2.index ⟨16 * (i 0).val + 15, hN⟩ (2 : Fin 3) * 1 + 1
      omega

/-- Where the probability-mass window's block of a grid point sits: block (batch, 0, 0). -/
private theorem idx3 : ∀ t : Fin cfg0.N, win0_3.index t (0 : Fin 3) = t.val / 16
    ∧ win0_3.index t (1 : Fin 3) = 0 ∧ win0_3.index t (2 : Fin 3) = 0 :=
  (by decide +kernel : ∀ t : Fin grid0.N, _)

/-- The probability-mass window's block is written back exactly at a batch's last point. -/
private theorem flush3_iff : ∀ t : Fin cfg0.N, (cfg0.win 3).flush t = true ↔ t.val % 16 = 15 :=
  (by decide +kernel : ∀ t : Fin grid0.N, _)

/-- The probability-mass array after the region, from what a batch's last point leaves in its block: the last point of batch
    `b` writes row `b` of the array, and the two rows are the whole array. -/
private theorem final_gen3 (c : Dev nD) (g : Fin 2 → Fin 16 → EReal)
    (hg : ∀ t : Fin cfg0.N, t.val % 16 = 15 → ∀ q : Fin 16,
      ((outsAt0 (F := Ideal) m c t.val t.isLt).2.1 : S1x16x1.Idx → EReal) (ix3 0 q 0) = g (batchOf t) q) :
    ((dats (F := Ideal) m 0 c).arrAt 3 cfg0.N : S2x16x1.Idx → EReal)
      = fun i => g ⟨(i 0).val, (i 0).isLt⟩ ⟨(i 1).val, (i 1).isLt⟩ := by
  refine (dats (F := Ideal) m 0 c).arrAt_eq_of_cover 3
    (fun i : S2x16x1.Idx => g ⟨(i 0).val, (i 0).isLt⟩ ⟨(i 1).val, (i 1).isLt⟩) ?_ ?_
  · -- what a writing point writes is its block of the table
    intro t hf
    have h15 : t.val % 16 = 15 := (flush3_iff t).mp hf
    obtain ⟨e0, e1, e2⟩ := idx3 t
    show ((cfg0.win 3).cut (grid0.coords t) ((dats (F := Ideal) m 0 c).after 3 t) : S1x16x1.Idx → EReal)
      = (((cfg0.win 3).blk t).view.read (Elt Ideal)
          (fun i : S2x16x1.Idx => g ⟨(i 0).val, (i 0).isLt⟩ ⟨(i 1).val, (i 1).isLt⟩) : S1x16x1.Idx → EReal)
    rw [after0_3]
    funext y
    obtain ⟨a, q, z, rfl⟩ : ∃ (a : Fin 1) (q : Fin 16) (z : Fin 1), y = ix3 a q z := ⟨y 0, y 1, y 2, eq_ix3 y⟩
    obtain rfl : a = 0 := Subsingleton.elim _ _
    obtain rfl : z = 0 := Subsingleton.elim _ _
    refine (hg t h15 q).trans ?_
    show g (batchOf t) q
      = g ⟨((((cfg0.win 3).blk t).view.emb (ix3 (0 : Fin 1) q (0 : Fin 1))) 0).val, _⟩
          ⟨((((cfg0.win 3).blk t).view.emb (ix3 (0 : Fin 1) q (0 : Fin 1))) 1).val, _⟩
    congr 1
    · exact Fin.ext (show t.val / 16 = win0_3.index t (0 : Fin 3) * 1 + 1 * 0 by omega)
    · exact Fin.ext (show q.val = win0_3.index t (1 : Fin 3) * 16 + 1 * q.val by omega)
  · -- every cell of the array lies in the block of its batch's last point
    intro (i : S2x16x1.Idx)
    have hi0 : (i 0).val < 2 := (i 0).isLt
    have hi1 : (i 1).val < 16 := (i 1).isLt
    have hi2 : (i 2).val < 1 := (i 2).isLt
    have hN : 16 * (i 0).val + 15 < cfg0.N := by rw [show cfg0.N = 32 from N_0]; omega
    refine ⟨⟨16 * (i 0).val + 15, hN⟩, (flush3_iff _).mpr (show (16 * (i 0).val + 15) % 16 = 15 by omega), ?_⟩
    obtain ⟨e0, e1, e2⟩ := idx3 ⟨16 * (i 0).val + 15, hN⟩
    have e0' : win0_3.index ⟨16 * (i 0).val + 15, hN⟩ (0 : Fin 3) = (16 * (i 0).val + 15) / 16 := e0
    show i ∈ ((View.whole main_v3_1).slice (win0_3.rect ⟨16 * (i 0).val + 15, hN⟩)).set
    rw [View.set_slice_whole, Rect.mem_set_unit]
    intro a
    match a with
    | ⟨0, _⟩ =>
      show win0_3.index ⟨16 * (i 0).val + 15, hN⟩ (0 : Fin 3) * 1 ≤ (i 0).val
        ∧ (i 0).val < win0_3.index ⟨16 * (i 0).val + 15, hN⟩ (0 : Fin 3) * 1 + 1
      omega
    | ⟨1, _⟩ =>
      show win0_3.index ⟨16 * (i 0).val + 15, hN⟩ (1 : Fin 3) * 16 ≤ (i 1).val
        ∧ (i 1).val < win0_3.index ⟨16 * (i 0).val + 15, hN⟩ (1 : Fin 3) * 16 + 16
      omega
    | ⟨2, _⟩ =>
      show win0_3.index ⟨16 * (i 0).val + 15, hN⟩ (2 : Fin 3) * 1 ≤ (i 2).val
        ∧ (i 2).val < win0_3.index ⟨16 * (i 0).val + 15, hN⟩ (2 : Fin 3) * 1 + 1
      omega

/-- Where the label-count window's block of a grid point sits: block (batch, 0, 0). -/
private theorem idx4 : ∀ t : Fin cfg0.N, win0_4.index t (0 : Fin 3) = t.val / 16
    ∧ win0_4.index t (1 : Fin 3) = 0 ∧ win0_4.index t (2 : Fin 3) = 0 :=
  (by decide +kernel : ∀ t : Fin grid0.N, _)

/-- The label-count window's block is written back exactly at a batch's last point. -/
private theorem flush4_iff : ∀ t : Fin cfg0.N, (cfg0.win 4).flush t = true ↔ t.val % 16 = 15 :=
  (by decide +kernel : ∀ t : Fin grid0.N, _)

/-- The label-count array after the region, from what a batch's last point leaves in its block: the last point of batch
    `b` writes row `b` of the array, and the two rows are the whole array. -/
private theorem final_gen4 (c : Dev nD) (g : Fin 2 → Fin 16 → EReal)
    (hg : ∀ t : Fin cfg0.N, t.val % 16 = 15 → ∀ q : Fin 16,
      ((outsAt0 (F := Ideal) m c t.val t.isLt).2.2.1 : S1x16x1.Idx → EReal) (ix3 0 q 0) = g (batchOf t) q) :
    ((dats (F := Ideal) m 0 c).arrAt 4 cfg0.N : S2x16x1.Idx → EReal)
      = fun i => g ⟨(i 0).val, (i 0).isLt⟩ ⟨(i 1).val, (i 1).isLt⟩ := by
  refine (dats (F := Ideal) m 0 c).arrAt_eq_of_cover 4
    (fun i : S2x16x1.Idx => g ⟨(i 0).val, (i 0).isLt⟩ ⟨(i 1).val, (i 1).isLt⟩) ?_ ?_
  · -- what a writing point writes is its block of the table
    intro t hf
    have h15 : t.val % 16 = 15 := (flush4_iff t).mp hf
    obtain ⟨e0, e1, e2⟩ := idx4 t
    show ((cfg0.win 4).cut (grid0.coords t) ((dats (F := Ideal) m 0 c).after 4 t) : S1x16x1.Idx → EReal)
      = (((cfg0.win 4).blk t).view.read (Elt Ideal)
          (fun i : S2x16x1.Idx => g ⟨(i 0).val, (i 0).isLt⟩ ⟨(i 1).val, (i 1).isLt⟩) : S1x16x1.Idx → EReal)
    rw [after0_4]
    funext y
    obtain ⟨a, q, z, rfl⟩ : ∃ (a : Fin 1) (q : Fin 16) (z : Fin 1), y = ix3 a q z := ⟨y 0, y 1, y 2, eq_ix3 y⟩
    obtain rfl : a = 0 := Subsingleton.elim _ _
    obtain rfl : z = 0 := Subsingleton.elim _ _
    refine (hg t h15 q).trans ?_
    show g (batchOf t) q
      = g ⟨((((cfg0.win 4).blk t).view.emb (ix3 (0 : Fin 1) q (0 : Fin 1))) 0).val, _⟩
          ⟨((((cfg0.win 4).blk t).view.emb (ix3 (0 : Fin 1) q (0 : Fin 1))) 1).val, _⟩
    congr 1
    · exact Fin.ext (show t.val / 16 = win0_4.index t (0 : Fin 3) * 1 + 1 * 0 by omega)
    · exact Fin.ext (show q.val = win0_4.index t (1 : Fin 3) * 16 + 1 * q.val by omega)
  · -- every cell of the array lies in the block of its batch's last point
    intro (i : S2x16x1.Idx)
    have hi0 : (i 0).val < 2 := (i 0).isLt
    have hi1 : (i 1).val < 16 := (i 1).isLt
    have hi2 : (i 2).val < 1 := (i 2).isLt
    have hN : 16 * (i 0).val + 15 < cfg0.N := by rw [show cfg0.N = 32 from N_0]; omega
    refine ⟨⟨16 * (i 0).val + 15, hN⟩, (flush4_iff _).mpr (show (16 * (i 0).val + 15) % 16 = 15 by omega), ?_⟩
    obtain ⟨e0, e1, e2⟩ := idx4 ⟨16 * (i 0).val + 15, hN⟩
    have e0' : win0_4.index ⟨16 * (i 0).val + 15, hN⟩ (0 : Fin 3) = (16 * (i 0).val + 15) / 16 := e0
    show i ∈ ((View.whole main_v3_2).slice (win0_4.rect ⟨16 * (i 0).val + 15, hN⟩)).set
    rw [View.set_slice_whole, Rect.mem_set_unit]
    intro a
    match a with
    | ⟨0, _⟩ =>
      show win0_4.index ⟨16 * (i 0).val + 15, hN⟩ (0 : Fin 3) * 1 ≤ (i 0).val
        ∧ (i 0).val < win0_4.index ⟨16 * (i 0).val + 15, hN⟩ (0 : Fin 3) * 1 + 1
      omega
    | ⟨1, _⟩ =>
      show win0_4.index ⟨16 * (i 0).val + 15, hN⟩ (1 : Fin 3) * 16 ≤ (i 1).val
        ∧ (i 1).val < win0_4.index ⟨16 * (i 0).val + 15, hN⟩ (1 : Fin 3) * 16 + 16
      omega
    | ⟨2, _⟩ =>
      show win0_4.index ⟨16 * (i 0).val + 15, hN⟩ (2 : Fin 3) * 1 ≤ (i 2).val
        ∧ (i 2).val < win0_4.index ⟨16 * (i 0).val + 15, hN⟩ (2 : Fin 3) * 1 + 1
      omega

/-- A [2, 16, 1] table with its unit axis dropped: cell (b, q) of the result is cell (b, q, 0) of the table, both at
    position `16 b + q` of the row-major order. -/
private theorem drop_unit (g : Fin 2 → Fin 16 → EReal) (h : S2x16x1.ShapeCasts S2x16) :
    shapeCast S2x16 (fun i : S2x16x1.Idx => g ⟨(i 0).val, (i 0).isLt⟩ ⟨(i 1).val, (i 1).isLt⟩) h
      = fun j => g (j 0) (j 1) := by
  funext j
  obtain ⟨b, q, rfl⟩ : ∃ (b : Fin 2) (q : Fin 16), j = ix2 b q := ⟨j 0, j 1, eq_ix2 j⟩
  refine (shapeCast_apply _ h (ix2 b q) (ix3 b q (0 : Fin 1)) ?_).trans rfl
  rewrite [Shape.rowMajor_val_three, Shape.rowMajor_val_two]
  show (b.val * 16 + q.val) * 1 + 0 = b.val * 16 + q.val
  omega

/-- The intersection output array after the region. -/
theorem final2 (c : Dev nD) :
    ((dats (F := Ideal) m 0 c).arrAt 2 cfg0.N : S2x16x1.Idx → EReal)
      = fun i => interAt (logV m c) (labV m c) ⟨(i 0).val, (i 0).isLt⟩ ⟨(i 1).val, (i 1).isLt⟩ := by
  exact final_gen2 m c (fun b q => interAt (logV m c) (labV m c) b q) fun t h q => (outs_last m c t h q).1

/-- The probability-mass output array after the region. -/
theorem final3 (c : Dev nD) :
    ((dats (F := Ideal) m 0 c).arrAt 3 cfg0.N : S2x16x1.Idx → EReal)
      = fun i => psumAt (logV m c) ⟨(i 0).val, (i 0).isLt⟩ ⟨(i 1).val, (i 1).isLt⟩ := by
  exact final_gen3 m c (fun b q => psumAt (logV m c) b q) fun t h q => (outs_last m c t h q).2.1

/-- The label-count output array after the region. -/
theorem final4 (c : Dev nD) :
    ((dats (F := Ideal) m 0 c).arrAt 4 cfg0.N : S2x16x1.Idx → EReal)
      = fun i => tcountAt (labV m c) ⟨(i 0).val, (i 0).isLt⟩ ⟨(i 1).val, (i 1).isLt⟩ := by
  exact final_gen4 m c (fun b q => tcountAt (labV m c) b q) fun t h q => (outs_last m c t h q).2.2

/-- The logits the region read are the flattened logits input. -/
theorem logV_eq (c : Dev nD) : logV m c = flatX (m ((c : Thread nD τ).loc main_arg0)) := by
  exact V_logits m c

/-- The labels the region read are the flattened label input. -/
theorem labV_eq (c : Dev nD) : labV m c = flatT (m ((c : Thread nD τ).loc main_arg1)) := by
  funext j
  obtain ⟨b, n, rfl⟩ : ∃ (b : Fin 2) (n : Fin 1048576), j = ix2 b n := ⟨j 0, j 1, eq_ix2 j⟩
  rw [labV_apply]
  exact V_labels m c b n

/-- The kernel's result: the common last stretch of the specification's three tables over the flattened inputs. -/
theorem kernel_result (c : Dev nD) :
    Pipeline.afterTail₀ cfgs (dats (F := Ideal) m) 0 (V0 m) [hostOps1] c main_v23
      = diceTail (F := Ideal)
          (fun j => interAt (flatX (m ((c : Thread nD τ).loc main_arg0))) (flatT (m ((c : Thread nD τ).loc main_arg1))) (j 0) (j 1))
          (fun j => psumAt (flatX (m ((c : Thread nD τ).loc main_arg0))) (j 0) (j 1))
          (fun j => tcountAt (flatT (m ((c : Thread nD τ).loc main_arg1))) (j 0) (j 1)) := by
  rw [kernel_tail, final2, final3, final4, logV_eq, labV_eq]
  -- each table is a [2, 16, 1] array of cells with its unit axis dropped
  have hI : shapeCast S2x16 (fun i : S2x16x1.Idx => interAt (flatX (m ((c : Thread nD τ).loc main_arg0)))
        (flatT (m ((c : Thread nD τ).loc main_arg1))) ⟨(i 0).val, (i 0).isLt⟩ ⟨(i 1).val, (i 1).isLt⟩)
      Facts₀.shapeCasts_S2x16x1_S2x16
      = fun j => interAt (flatX (m ((c : Thread nD τ).loc main_arg0))) (flatT (m ((c : Thread nD τ).loc main_arg1)))
          (j 0) (j 1) :=
    drop_unit (fun b q => interAt (flatX (m ((c : Thread nD τ).loc main_arg0)))
      (flatT (m ((c : Thread nD τ).loc main_arg1))) b q) _
  have hP : shapeCast S2x16 (fun i : S2x16x1.Idx => psumAt (flatX (m ((c : Thread nD τ).loc main_arg0)))
        ⟨(i 0).val, (i 0).isLt⟩ ⟨(i 1).val, (i 1).isLt⟩) Facts₀.shapeCasts_S2x16x1_S2x16
      = fun j => psumAt (flatX (m ((c : Thread nD τ).loc main_arg0))) (j 0) (j 1) :=
    drop_unit (fun b q => psumAt (flatX (m ((c : Thread nD τ).loc main_arg0))) b q) _
  have hC : shapeCast S2x16 (fun i : S2x16x1.Idx => tcountAt (flatT (m ((c : Thread nD τ).loc main_arg1)))
        ⟨(i 0).val, (i 0).isLt⟩ ⟨(i 1).val, (i 1).isLt⟩) Facts₀.shapeCasts_S2x16x1_S2x16
      = fun j => tcountAt (flatT (m ((c : Thread nD τ).loc main_arg1))) (j 0) (j 1) :=
    drop_unit (fun b q => tcountAt (flatT (m ((c : Thread nD τ).loc main_arg1))) b q) _
  exact congr (congr (congrArg (diceTail (F := Ideal)) hI) hP) hC

end Cert.KernelIdeal.KV

end
-- ==== Proof.lean ====
/-
  The proof of `Cert.Claim`: the three frames, the (empty) ledger of the idealization, and the equality of the two
  idealized programs' results over the extended reals.

  What is computed. Both programs take logits [2, 16, 64, 128, 128] and integer labels [2, 64, 128, 128], turn the
  sixteen class scores of every voxel into softmax probabilities, and form for every (batch, class) cell three sums
  over the batch's 1048576 voxels: the probability on the voxels labelled with the class (intersection), the
  probability on all voxels (mass), and the number of voxels labelled with the class (count); the result is one minus
  the mean over classes 1 … 15 of the dice ratio (2 · intersection + 1) / (mass + count + 1).

  How the two sides reach the three sums. The kernel walks each batch in sixteen runs of 65536 voxels (one grid point
  each) and each run in sixty-four slabs of 1024 lanes, adding per slab the lane sums of probability × indicator,
  probability and indicator to three accumulators that it clears at a batch's first point and writes out at its last;
  along the grid each accumulator is the prefix sum of its voxel function up to the last voxel read, so what is
  written out is the sum over the whole batch. The reference gathers each voxel's probability at its own label and
  scatter-adds it (and the constant one) into the segment `label + 16 · batch`; when every label is a class number
  below sixteen — the precondition — that segment is the cell (batch, label), so its sums are the same three sums.
  The only laws used are that `+` on the extended reals is commutative and associative, `x * 1 = x` and
  `x * 0 = 0`: the finiteness of the logits is not needed.

  The idealization's ledger is empty, so `preserves` is `True`. The two kernel frames are the generated frame
  certificates; the reference's frame is its run with the result dropped.
-/
import proofs.«431347_j9182640079166_2_alg».proof.Defs
import proofs.«431347_j9182640079166_2_alg».proof.Proof.Gen.Kernel
import proofs.«431347_j9182640079166_2_alg».proof.Proof.Gen.Kernel.Frame
import proofs.«431347_j9182640079166_2_alg».proof.Proof.Gen.KernelIdeal
import proofs.«431347_j9182640079166_2_alg».proof.Proof.Gen.KernelIdeal.Frame
import proofs.«431347_j9182640079166_2_alg».proof.Proof.Gen.ReferenceIdeal
import proofs.«431347_j9182640079166_2_alg».proof.Proof.Gen.Pre_finite_inputs
import proofs.«431347_j9182640079166_2_alg».proof.Proof.PreRange
import proofs.«431347_j9182640079166_2_alg».proof.Proof.RefRun
import proofs.«431347_j9182640079166_2_alg».proof.Proof.RefTail
import proofs.«431347_j9182640079166_2_alg».proof.Proof.KFinal
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefValue.ref_run (F := Ideal) m ρ)

/-- The idealization rewrote nothing. -/
theorem preserves : Cert.preserves_Kernel_KernelIdeal := trivial

/-- Both idealized programs end with one minus the mean dice ratio of the specification's three tables over the
    flattened inputs. -/
theorem algebraic : Cert.algebraic_KernelIdeal_ReferenceIdeal := by
  intro m ρ m' ρ' hpre hagree
  refine ⟨fun c => Cert.KernelIdeal.diceTail (F := Ideal)
      (fun j => Cert.Dice.interAt (Cert.Dice.flatX (m ((c.tc : Thread Cert.KernelIdeal.nD Cert.KernelIdeal.τ).loc Cert.KernelIdeal.main_arg0))) (Cert.Dice.flatT (m ((c.tc : Thread Cert.KernelIdeal.nD Cert.KernelIdeal.τ).loc Cert.KernelIdeal.main_arg1))) (j 0) (j 1))
      (fun j => Cert.Dice.psumAt (Cert.Dice.flatX (m ((c.tc : Thread Cert.KernelIdeal.nD Cert.KernelIdeal.τ).loc Cert.KernelIdeal.main_arg0))) (j 0) (j 1))
      (fun j => Cert.Dice.tcountAt (Cert.Dice.flatT (m ((c.tc : Thread Cert.KernelIdeal.nD Cert.KernelIdeal.τ).loc Cert.KernelIdeal.main_arg1))) (j 0) (j 1)), ?_, ?_⟩
  · exact (θ_run Cert.KernelIdeal.defs _ _).mono (fun _ h c =>
      ⟨((h c).2 Cert.KernelIdeal.main_v23 (Pipeline.mem_restRefs_of Cert.KernelIdeal.main_v23 (by decide) (by decide))).trans
          (Cert.KernelIdeal.KV.kernel_result m c),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c)⟩)
      (Cert.KernelIdeal.Gen.run_main (F := Ideal) m ρ)
  · have hlab : ∀ c : Dev Cert.KernelIdeal.nD, ∀ i, ∃ q : Fin 16, (m ((c.tc : Thread Cert.KernelIdeal.nD Cert.KernelIdeal.τ).loc Cert.KernelIdeal.main_arg1)) i = BitVec.ofNat 32 q.val :=
      fun c i => Cert.Dice.label_is_class _ _ (hpre c) i
    exact (θ_run Cert.ReferenceIdeal.defs _ _).mono (fun _ h c =>
      ⟨(h c).1.trans (by
          rw [(hagree c).1, (hagree c).2]
          exact Cert.ReferenceIdeal.RefValue.ref_result _ _ (hlab c)), (h c).2⟩)
      (Cert.ReferenceIdeal.RefValue.ref_run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
